-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S256x2048 : Shape := ⟨2, ![256, 2048]⟩
abbrev S256x1 : Shape := ⟨2, ![256, 1]⟩
abbrev S256x1024 : Shape := ⟨2, ![256, 1024]⟩
abbrev S1024x2048 : Shape := ⟨2, ![1024, 2048]⟩
abbrev S1x1024 : Shape := ⟨2, ![1, 1024]⟩
abbrev S256 : Shape := ⟨1, ![256]⟩

abbrev nBuf : Space → Nat
  | .hbm => 25
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x1, .i32⟩
  | .hbm, ⟨9, _⟩ => ⟨S1x4096, .i32⟩
  | .hbm, ⟨10, _⟩ => ⟨S4096x1, .f32⟩
  | .hbm, ⟨11, _⟩ => ⟨S4096x1, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S256x2048, .bf16⟩
  | .local _ .vmem, ⟨1, _⟩ => ⟨S256x2048, .bf16⟩
  | .local _ .vmem, ⟨2, _⟩ => ⟨S4096x2048, .bf16⟩
  | .local _ .vmem, ⟨3, _⟩ => ⟨S256x1, .f32⟩
  | .local _ .vmem, ⟨4, _⟩ => ⟨S256x1, .f32⟩
  | .local _ .vmem, ⟨5, _⟩ => ⟨S1x4096, .f32⟩
  | .local _ .vmem, ⟨6, _⟩ => ⟨S256x1, .i32⟩
  | .local _ .vmem, ⟨7, _⟩ => ⟨S256x1, .i32⟩
  | .local _ .vmem, ⟨8, _⟩ => ⟨S1x4096, .i32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  reducesTo_S4096x2048_S4096_d1 : S4096x2048.ReducesTo [1] S4096
  h_S_ : 0 < S_.numel
  shapeCasts_S4096_S4096x1 : S4096.ShapeCasts S4096x1
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S4096x2048_S1024x2048_0_0 : ∀ a, (![0, 0] : Fin 2 → Nat) a + S1024x2048.size a ≤ S4096x2048.size a
  h_S1024x2048 : 0 < S1024x2048.numel
  shapeCasts_S1024x2048_S1024x2048 : S1024x2048.ShapeCasts S1024x2048
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  inb_S4096x2048_S1024x2048_1024_0 : ∀ a, (![1024, 0] : Fin 2 → Nat) a + S1024x2048.size a ≤ S4096x2048.size a
  inb_S1x4096_S1x1024_0_1024 : ∀ a, (![0, 1024] : Fin 2 → Nat) a + S1x1024.size a ≤ S1x4096.size a
  inb_S4096x2048_S1024x2048_2048_0 : ∀ a, (![2048, 0] : Fin 2 → Nat) a + S1024x2048.size a ≤ S4096x2048.size a
  inb_S1x4096_S1x1024_0_2048 : ∀ a, (![0, 2048] : Fin 2 → Nat) a + S1x1024.size a ≤ S1x4096.size a
  inb_S4096x2048_S1024x2048_3072_0 : ∀ a, (![3072, 0] : Fin 2 → Nat) a + S1024x2048.size a ≤ S4096x2048.size a
  inb_S1x4096_S1x1024_0_3072 : ∀ a, (![0, 3072] : Fin 2 → Nat) a + S1x1024.size a ≤ S1x4096.size a
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .i32 = 32 ∨ (Rect.block (s := S4096x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S4096x1.size a
  hwx0_7 : ∀ i : grid0.Coords, EltTy.bits .f32 = 32 ∨ (Rect.block (s := S4096x1) S256x1.size (cc0_transform_7 i) (hinb0_7 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_call2_v0 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.PayK.lean ====
/-
  The two values the kernel body stores, as pure functions of the fifteen vectors it loads: the row block of
  the bf16 inputs, of the squared norms and of the labels, and for each of the four column chunks the chunk's
  key rows, squared norms and labels. Each line below is one of the body's pure stages (the skeleton's payloads), in the
  order the body computes them; `payAp` is the soft hardest-positive distance of the block's rows and `payAn`
  the soft hardest-negative distance.
-/
import proofs.«416752_j76579266888382_3_alg».proof.Proof.Gen.Kernel.Skeleton

noncomputable section

namespace Cert.Kernel.Pay

open Idealize.ShloMosaic Idealize.SL.Sem Cert.Kernel Cert.Kernel.Gen

variable {F : FTy → Type} [FloatOps F]

/-- The positive-side result stored into the first output block. -/
def payAp (v0 : Vec F S256x2048 .bf16) (v2 : Vec F S256x1 .f32) (v4 : Vec F S256x1 .i32)
    (v16 : Vec F S1024x2048 .bf16) (v18 : Vec F S1x1024 .f32) (v20 : Vec F S1x1024 .i32)
    (v73 : Vec F S1024x2048 .bf16) (v75 : Vec F S1x1024 .f32) (v77 : Vec F S1x1024 .i32)
    (v130 : Vec F S1024x2048 .bf16) (v132 : Vec F S1x1024 .f32) (v134 : Vec F S1x1024 .i32)
    (v187 : Vec F S1024x2048 .bf16) (v189 : Vec F S1x1024 .f32) (v191 : Vec F S1x1024 .i32) : FVec F S256x1 .f32 :=
  have v1 := k0_pay3 v0
  have v7 := k0_pay4 v2
  have v9 := k0_pay5 v4
  have v10 : FVec F S256x1 .f32 := k0_pay6
  have v11 : FVec F S256x1 .f32 := k0_pay7
  have v12 : FVec F S256x1 .f32 := k0_pay8
  have v13 : FVec F S256x1 .f32 := k0_pay9
  have v14 : FVec F S256x1 .f32 := k0_pay10
  have v15 : FVec F S256x1 .f32 := k0_pay11
  have v30 := k0_pay12 v0 v2 v16 v18
  have v32 := k0_pay13 v4 v20
  have v34 := k0_pay14 v0 v2 v4 v16 v18 v20
  have v35 := k0_pay15 v0 v2 v4 v16 v18 v20
  have v37 := k0_pay16 v10 v35
  have v46 := k0_pay19 v10 v11 v34 v35
  have v51 := k0_pay20 v10 v12 v30 v34 v35
  have v58 := k0_pay22 v13 v30 v32
  have v67 := k0_pay25 v13 v14 v30 v32
  have v72 := k0_pay26 v13 v15 v30 v32
  have v78 := k0_pay27 (F := F) v77
  have v79 := k0_pay28 v1 v73
  have v81 := k0_pay29 v7 v75
  have v94 := k0_pay33 v9 v37 v78 v79 v81
  have v103 := k0_pay36 v9 v37 v46 v78 v79 v81
  have v108 := k0_pay37 v9 v37 v51 v78 v79 v81
  have v115 := k0_pay39 v9 v58 v78 v79 v81
  have v124 := k0_pay42 v9 v58 v67 v78 v79 v81
  have v129 := k0_pay43 v9 v58 v72 v78 v79 v81
  have v144 := k0_pay44 v1 v7 v130 v132
  have v151 := k0_pay47 v1 v7 v9 v94 v130 v132 v134
  have v160 := k0_pay50 v1 v7 v9 v94 v103 v130 v132 v134
  have v165 := k0_pay51 v1 v7 v9 v94 v108 v130 v132 v134
  have v169 := k0_pay52 v1 v7 v9 v130 v132 v134
  have v172 := k0_pay53 v1 v7 v9 v115 v130 v132 v134
  have v174 := k0_pay54 v1 v7 v9 v115 v130 v132 v134
  have v181 := k0_pay56 v124 v169 v172 v174
  have v186 := k0_pay57 v129 v144 v169 v172 v174
  have v201 := k0_pay58 v1 v7 v187 v189
  have v203 := k0_pay59 (F := F) v9 v191
  have v217 := k0_pay64 v1 v7 v9 v151 v160 v187 v189 v191
  have v218 := k0_pay65 v1 v7 v9 v151 v165 v187 v189 v191
  have v219 := k0_pay66 v1 v7 v9 v151 v187 v189 v191
  k0_pay1 v217 v218 v219

/-- The negative-side result stored into the second output block. -/
def payAn (v0 : Vec F S256x2048 .bf16) (v2 : Vec F S256x1 .f32) (v4 : Vec F S256x1 .i32)
    (v16 : Vec F S1024x2048 .bf16) (v18 : Vec F S1x1024 .f32) (v20 : Vec F S1x1024 .i32)
    (v73 : Vec F S1024x2048 .bf16) (v75 : Vec F S1x1024 .f32) (v77 : Vec F S1x1024 .i32)
    (v130 : Vec F S1024x2048 .bf16) (v132 : Vec F S1x1024 .f32) (v134 : Vec F S1x1024 .i32)
    (v187 : Vec F S1024x2048 .bf16) (v189 : Vec F S1x1024 .f32) (v191 : Vec F S1x1024 .i32) : FVec F S256x1 .f32 :=
  have v1 := k0_pay3 v0
  have v7 := k0_pay4 v2
  have v9 := k0_pay5 v4
  have v10 : FVec F S256x1 .f32 := k0_pay6
  have v11 : FVec F S256x1 .f32 := k0_pay7
  have v12 : FVec F S256x1 .f32 := k0_pay8
  have v13 : FVec F S256x1 .f32 := k0_pay9
  have v14 : FVec F S256x1 .f32 := k0_pay10
  have v15 : FVec F S256x1 .f32 := k0_pay11
  have v30 := k0_pay12 v0 v2 v16 v18
  have v32 := k0_pay13 v4 v20
  have v34 := k0_pay14 v0 v2 v4 v16 v18 v20
  have v35 := k0_pay15 v0 v2 v4 v16 v18 v20
  have v37 := k0_pay16 v10 v35
  have v46 := k0_pay19 v10 v11 v34 v35
  have v51 := k0_pay20 v10 v12 v30 v34 v35
  have v58 := k0_pay22 v13 v30 v32
  have v67 := k0_pay25 v13 v14 v30 v32
  have v72 := k0_pay26 v13 v15 v30 v32
  have v78 := k0_pay27 (F := F) v77
  have v79 := k0_pay28 v1 v73
  have v81 := k0_pay29 v7 v75
  have v94 := k0_pay33 v9 v37 v78 v79 v81
  have v103 := k0_pay36 v9 v37 v46 v78 v79 v81
  have v108 := k0_pay37 v9 v37 v51 v78 v79 v81
  have v115 := k0_pay39 v9 v58 v78 v79 v81
  have v124 := k0_pay42 v9 v58 v67 v78 v79 v81
  have v129 := k0_pay43 v9 v58 v72 v78 v79 v81
  have v144 := k0_pay44 v1 v7 v130 v132
  have v151 := k0_pay47 v1 v7 v9 v94 v130 v132 v134
  have v160 := k0_pay50 v1 v7 v9 v94 v103 v130 v132 v134
  have v165 := k0_pay51 v1 v7 v9 v94 v108 v130 v132 v134
  have v169 := k0_pay52 v1 v7 v9 v130 v132 v134
  have v172 := k0_pay53 v1 v7 v9 v115 v130 v132 v134
  have v174 := k0_pay54 v1 v7 v9 v115 v130 v132 v134
  have v181 := k0_pay56 v124 v169 v172 v174
  have v186 := k0_pay57 v129 v144 v169 v172 v174
  have v201 := k0_pay58 v1 v7 v187 v189
  have v203 := k0_pay59 (F := F) v9 v191
  have v217 := k0_pay64 v1 v7 v9 v151 v160 v187 v189 v191
  have v218 := k0_pay65 v1 v7 v9 v151 v165 v187 v189 v191
  have v219 := k0_pay66 v1 v7 v9 v151 v187 v189 v191
  k0_pay2 v172 v181 v186 v201 v203

end Cert.Kernel.Pay

end
-- ==== Proof.BodyK.lean ====
/-
  The kernel body as a Hoare triple. Run on eight whole staging buffers, the six inputs at contents
  `x0 … x5` and the two outputs at anything, the body reads fifteen rectangles of the inputs (the row block of the
  bf16 inputs, of the squared norms and of the labels; four chunks of 1024 key rows, and the matching chunks
  of the column squared norms and column labels), writes each output block once, whole, and leaves the inputs as
  they were. What each output block then holds is the canonical form of that one store over the stored value
  (`Pay.payAp`, `Pay.payAn`) of the loaded rectangles.
-/
import proofs.«416752_j76579266888382_3_alg».proof.Proof.Gen.Kernel.Launch
import proofs.«416752_j76579266888382_3_alg».proof.Proof.Gen.Kernel.Skeleton
import proofs.«416752_j76579266888382_3_alg».proof.Proof.Gen.Kernel.Points
import proofs.«416752_j76579266888382_3_alg».proof.Proof.PayK
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole output block (and a whole [256, 1] input block). -/
abbrev rO : Rect S256x1 := Rect.unit (s := S256x1) ![0, 0] S256x1.size inb_S256x1_S256x1_0_0
/-- The whole row block of the bf16 inputs. -/
abbrev rQ : Rect S256x2048 := Rect.unit (s := S256x2048) ![0, 0] S256x2048.size inb_S256x2048_S256x2048_0_0
/-- The four chunks of 1024 key rows. -/
abbrev rK0 : Rect S4096x2048 := Rect.unit (s := S4096x2048) ![0, 0] S1024x2048.size inb_S4096x2048_S1024x2048_0_0
abbrev rK1 : Rect S4096x2048 := Rect.unit (s := S4096x2048) ![1024, 0] S1024x2048.size inb_S4096x2048_S1024x2048_1024_0
abbrev rK2 : Rect S4096x2048 := Rect.unit (s := S4096x2048) ![2048, 0] S1024x2048.size inb_S4096x2048_S1024x2048_2048_0
abbrev rK3 : Rect S4096x2048 := Rect.unit (s := S4096x2048) ![3072, 0] S1024x2048.size inb_S4096x2048_S1024x2048_3072_0
/-- The four chunks of 1024 columns of a [1, 4096] row vector. -/
abbrev rR0 : Rect S1x4096 := Rect.unit (s := S1x4096) ![0, 0] S1x1024.size inb_S1x4096_S1x1024_0_0
abbrev rR1 : Rect S1x4096 := Rect.unit (s := S1x4096) ![0, 1024] S1x1024.size inb_S1x4096_S1x1024_0_1024
abbrev rR2 : Rect S1x4096 := Rect.unit (s := S1x4096) ![0, 2048] S1x1024.size inb_S1x4096_S1x1024_0_2048
abbrev rR3 : Rect S1x4096 := Rect.unit (s := S1x4096) ![0, 3072] S1x1024.size inb_S1x4096_S1x1024_0_3072

/-! ## What the body leaves in each output block -/

/-- The first output block after the body: its one store, over the positive-side value of the loaded rectangles. -/
def outAp (x0 : Vec F S256x2048 .bf16) (x1 : Vec F S4096x2048 .bf16) (x2 : Vec F S256x1 .f32) (x3 : Vec F S1x4096 .f32) (x4 : Vec F S256x1 .i32) (x5 : Vec F S1x4096 .i32) : Vec F S256x1 .f32 :=
  View.canon [⟨rO, Pay.payAp (View.ld x0 rQ) (View.ld x2 rO) (View.ld x4 rO) (View.ld x1 rK0) (View.ld x3 rR0) (View.ld x5 rR0) (View.ld x1 rK1) (View.ld x3 rR1) (View.ld x5 rR1) (View.ld x1 rK2) (View.ld x3 rR2) (View.ld x5 rR2) (View.ld x1 rK3) (View.ld x3 rR3) (View.ld x5 rR3)⟩]

/-- The second output block after the body: its one store, over the negative-side value of the loaded rectangles. -/
def outAn (x0 : Vec F S256x2048 .bf16) (x1 : Vec F S4096x2048 .bf16) (x2 : Vec F S256x1 .f32) (x3 : Vec F S1x4096 .f32) (x4 : Vec F S256x1 .i32) (x5 : Vec F S1x4096 .i32) : Vec F S256x1 .f32 :=
  View.canon [⟨rO, Pay.payAn (View.ld x0 rQ) (View.ld x2 rO) (View.ld x4 rO) (View.ld x1 rK0) (View.ld x3 rR0) (View.ld x5 rR0) (View.ld x1 rK1) (View.ld x3 rR1) (View.ld x5 rR1) (View.ld x1 rK2) (View.ld x3 rR2) (View.ld x5 rR2) (View.ld x1 rK3) (View.ld x3 rR3) (View.ld x5 rR3)⟩]

/-- The one store covers the block. -/
theorem cover_out (p0 : Vec F S256x1 .f32) (y : S256x1.Idx) :
    ∃ pc ∈ ([⟨rO, p0⟩] : List (View.Piece (Elt F) S256x1 .f32)), y ∈ pc.1.set :=
  View.cover_of_tiled [⟨rO, p0⟩] S256x1.size (by rfl) y

/-! ## The body's triple -/

/-- The kernel body on whole staging memrefs, the inputs' at contents `x0 … x5` and the outputs' at anything, runs to
    the continuation holding the inputs' as they were and the outputs' at `outAp` and `outAn` of the inputs'. -/
theorem sound_kernel (c : Dev nD) (E : Set ℕ) (i : grid0.Coords) (arg1 : Memref sig .tc .vmem S256x2048 .bf16) (harg1 : arg1.IsWhole) (arg2 : Memref sig .tc .vmem S4096x2048 .bf16) (harg2 : arg2.IsWhole) (arg3 : Memref sig .tc .vmem S256x1 .f32) (harg3 : arg3.IsWhole) (arg4 : Memref sig .tc .vmem S1x4096 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S256x1 .f32) (harg7 : arg7.IsWhole) (arg8 : Memref sig .tc .vmem S256x1 .f32) (harg8 : arg8.IsWhole)
    (x0 : Vec F S256x2048 .bf16) (x1 : Vec F S4096x2048 .bf16) (x2 : Vec F S256x1 .f32) (x3 : Vec F S1x4096 .f32) (x4 : Vec F S256x1 .i32) (x5 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outAp x0 x1 x2 x3 x4 x5) ∗ owns (c : Thread nD τ) arg8 fullShare (outAn x0 x1 x2 x3 x4 x5)) -∗ K ⟨⟩))
      ⊢ wp frame (wpE (defs₀ (F := F)) Variants.none c none) E (cc0__triplet_kernel i arg1 harg1 arg2 harg2 arg3 harg3 arg4 harg4 arg5 harg5 arg6 harg6 arg7 harg7 arg8 harg8) K := by
  -- the printed body is its skeleton: five parts' loads, then each output block loaded and stored once
  simp only [cc0__triplet_kernel_eq_skeleton]; unfold cc0__triplet_kernel_skel
  unfold owns
  -- the inputs' raw contents `f0 … f5` read `x0 … x5`; the outputs' prior contents are anything
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  -- the run: every load reads its rectangle of unchanged contents; each output is left as one write over what it held
  sl_exec
  sl_step
  iapply Hk
  -- the inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- each output reads the canonical contents of its one store, which covers the block; the stored value is
  -- `Pay.payAp` (`Pay.payAn`) of the loaded rectangles, the same chain of stages in the same order
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

end Cert.Kernel.Body

end
-- ==== Proof.RunDefsK.lean ====
/-
  The run of the whole program: eight host operations (the bf16 copy of the inputs, the row squared norms, and the
  reshapes of the norms and of the labels to a column and to a row), ONE kernel region over a grid of sixteen row
  blocks, then thirteen host operations (the two results reshaped to vectors, their difference plus the margin, its
  positive part, the sum, the division by the row count).

  The region has eight windows: the bf16 inputs twice (a 256-row block at each point, and the whole array once), the
  squared norms as a column block and as a whole row, the labels likewise, and the two [4096, 1] results written
  block by block. The two windows on the bf16 inputs share one array: each holds it at one half of the full share,
  which is all a window that only reads needs, and the halves are put together again when the region is left.
  After the body at point `t` each input window's buffer holds the window's block of its array and each output
  window's buffer holds what the body stores (`Body.outAp`, `Body.outAn` of the six input blocks).
-/
import proofs.«416752_j76579266888382_3_alg».proof.Proof.BodyK
import proofs.«416752_j76579266888382_3_alg».proof.Proof.Gen.Kernel.Launch
import proofs.«416752_j76579266888382_3_alg».proof.Proof.Gen.Kernel.Points
import Idealize.ShloMosaic.Lib.Pipeline.Regions
import Idealize.ShloMosaic.Lib.Pipeline.FrameBody
import Idealize.ShloMosaic.Lib.Pipeline.Frame

set_option maxRecDepth 16384

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as the host operations' valuation; -/
abbrev V₀ (c : Dev nD) : Valuation τ sig (Elt F) := fun b => m ((c : Dev nD), b)
/-- and when the region is entered: the eight operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- On core `c`: the arrays as the region finds them; after the body at point `t` each input's buffer at its block and
    each output's at what the body stores; the invariant the scoped rest and the generator register, untouched;
    nothing owed; the two windows on the bf16 inputs at the two halves of the full share, every other at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Body.outAp (iblk m c 0 t) (iblk m c 1 t) (iblk m c 2 t) (iblk m c 3 t) (iblk m c 4 t) (iblk m c 5 t)
    | ⟨7, _⟩ => Body.outAn (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | _ => fullShare
  owed _ := 0

/-- The two result arrays when the region is left, as the pipeline library computes them from the proof data. -/
abbrev finalAp (c : Dev nD) : Buf (Elt F) ((cfg0.win 6).arr.view.loc (c : Thread nD τ)) := (dats m 0 c).arrAt 6 cfg0.N
abbrev finalAn (c : Dev nD) : Buf (Elt F) ((cfg0.win 7).arr.view.loc (c : Thread nD τ)) := (dats m 0 c).arrAt 7 cfg0.N

/-- Core `c`'s buffers when the region is left: the two result arrays at what the region wrote, every other buffer as the
    region found it. -/
def W (c : Dev nD) : Valuation τ sig (Elt F) :=
  Function.update (Function.update (StableHlo.after hostOps0 (V₀ m c)) (Proc.devRef .tc main_v7_0) (finalAp m c))
    (Proc.devRef .tc main_v7_1) (finalAn m c)

end Cert.Kernel.Run

end
-- ==== Proof.RunK.lean ====
/-
  The run of the whole program, proved. The program is three segments under one launch: eight host operations (the
  bf16 copy of the inputs, the row squared norms, the reshapes of the norms and of the labels to a column and to a row),
  ONE kernel region over a grid of sixteen row blocks, and thirteen host operations (the two results reshaped to vectors,
  their difference plus the margin, its positive part, the sum, the division by the row count).

  The region's two windows on the bf16 inputs share one array. When the region is entered the array's buffer, held whole,
  is lent to the two windows half and half (a window that only reads needs no more); an input window's array ends as it
  began, so when the region is left the two halves agree and join to the whole again. Every input window's buffer holds
  the window's block of its array whenever the body runs, fetched at that point or not, so the body's triple applies at
  the six blocks; the two result arrays end at what the sixteen write-backs leave, every other buffer as the region found
  it. The closing operations run from there; the result buffer and the two argument arrays are then read off the final
  state, the arguments being written by no operation and no window.
-/
import proofs.«416752_j76579266888382_3_alg».proof.Proof.BodyK
import proofs.«416752_j76579266888382_3_alg».proof.Proof.RunDefsK
import proofs.«416752_j76579266888382_3_alg».proof.Proof.Gen.Kernel.Launch
import proofs.«416752_j76579266888382_3_alg».proof.Proof.Gen.Kernel.Points
import Idealize.ShloMosaic.Lib.Pipeline.Regions
import Idealize.ShloMosaic.Lib.Pipeline.FrameBody
import Idealize.ShloMosaic.Lib.Pipeline.Frame

set_option maxRecDepth 16384

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each window's buffer, and the body obligation -/

/-- The proof data's arrays are the buffers the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = Body.outAp (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = Body.outAn (iblk m c 0 t) (iblk m c 1 t) (iblk m c 2 t) (iblk m c 3 t) (iblk m c 4 t) (iblk m c 5 t) := by dsimp only [dats]

/-- An input window's buffer holds the window's block of its array whenever the body runs: where the block was fetched
    it is the block, and where it was not the block index has not moved since the last fetch and the body left the
    block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]) t d).trans
    (by unfold Dat.fetched Dat.blockOf iblk; rw [A_eq]; rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]) t d).trans
    (by unfold Dat.fetched Dat.blockOf iblk; rw [A_eq]; rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]) t d).trans
    (by unfold Dat.fetched Dat.blockOf iblk; rw [A_eq]; rfl)

/-- The body at every point: each input window's buffer holds its block, so the body's triple applies at the six
    blocks; the invariant and what the core owes pass through unread, and the body leaves each output window's buffer
    at the stored value of those blocks. -/
theorem body_obligation (c : Dev nD) : BodyObligation (dats (F := F) m 0 c) (defs₀ (F := F)) Variants.none () Set.univ := fun t => by
  rw [bigSep_W0, bigSep_W0]
  simp only [before0_0, before0_1, before0_2, before0_3, before0_4, before0_5]
  rw [after0_0, after0_1, after0_2, after0_3, after0_4, after0_5, after0_6, after0_7]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Body.sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The windows' arrays one by one, and the buffers behind them -/

/-- The shares the windows hold their arrays at: the two halves of the full share for the two windows on the bf16
    inputs, the full share for every other. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The pipeline's arrays at contents `G`, window by window: the bf16 inputs' buffer twice, at the two halves of the
    full share, and the six other buffers whole at the full share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
        ∗ (((c : Thread nD τ).loc main_v3) ↦{fullShare} G 2) ∗ (((c : Thread nD τ).loc main_v4) ↦{fullShare} G 3)
        ∗ (((c : Thread nD τ).loc main_v5) ↦{fullShare} G 4) ∗ (((c : Thread nD τ).loc main_v6) ↦{fullShare} G 5)
        ∗ (((c : Thread nD τ).loc main_v7_0) ↦{fullShare} G 6) ∗ (((c : Thread nD τ).loc main_v7_1) ↦{fullShare} G 7)) := by
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  have h7 : (cfg0.win 7).arr.view.set = Finset.univ := (arr_whole0 7).set_eq_univ
  unfold Dat.arrays
  rw [bigSep_W0, h0, h2, h3, h4, h5, h6, h7, share_0, share_1, share_2, share_3, share_4, share_5, share_6, share_7]

/-- The distinct buffers behind the windows' arrays, one by one: seven, the bf16 inputs' once. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_v3) ↦{fullShare} X main_v3)
        ∗ (((c : Thread nD τ).loc main_v4) ↦{fullShare} X main_v4) ∗ (((c : Thread nD τ).loc main_v5) ↦{fullShare} X main_v5)
        ∗ (((c : Thread nD τ).loc main_v6) ↦{fullShare} X main_v6) ∗ (((c : Thread nD τ).loc main_v7_0) ↦{fullShare} X main_v7_0)
        ∗ (((c : Thread nD τ).loc main_v7_1) ↦{fullShare} X main_v7_1)) := by
  unfold Pipeline.arrBufs
  exact bigSep_eq_bigSepL_of_eq [main_v0, main_v3, main_v4, main_v5, main_v6, main_v7_0, main_v7_1] (by decide) (by decide) _

/-! ## Entering the region -/

/-- The unscoped buffers the first eight operations leave are the pipeline's arrays at their entry contents and the
    buffers no window reads or writes: the bf16 inputs' buffer, held whole, is lent to its two windows half and half. -/
theorem entry_split (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  have hsplit : (unscopedBufs c (V m c) : sProp 𝕄)
      = iprop(Pipeline.arrBufs spec0 c (V m c) ∗ Pipeline.unscopedRest spec0 c (V m c)) :=
    Pipeline.unscopedBufs_split₀ cfgs 0 winFacts₀0.arr_unscoped c (V m c)
  rw [← Pipeline.unscopedBufs_held c (StableHlo.after hostOps0 (V₀ m c)), hsplit, arrBufs0_eq, arrays0_eq]
  iintro ⟨⟨H0, H3, H4, H5, H6, H70, H71⟩, Hr⟩
  ihave H0 := (pointsTo_share (PosShare.mem_left_op_right fullShare)).1 $$ H0
  icases H0 with ⟨H0l, H0r⟩
  isplitr [Hr]; swap; · iexact Hr
  isplitl [H0l]; · iexact H0l
  isplitl [H0r]; · iexact H0r
  isplitl [H3]; · iexact H3
  isplitl [H4]; · iexact H4
  isplitl [H5]; · iexact H5
  isplitl [H6]; · iexact H6
  isplitl [H70]; · iexact H70
  iexact H71

/-! ## Leaving the region -/

/-- Off the two result arrays the buffers are as the region found them; -/
theorem W_of_ne (c : Dev nD) (b : Ref sig .tc) (h0 : b ≠ main_v7_0) (h1 : b ≠ main_v7_1) :
    W m c (Proc.devRef .tc b) = StableHlo.after hostOps0 (V₀ m c) (Proc.devRef .tc b) := by
  unfold W
  rw [Function.update_of_ne (StableHlo.devRef_ne_of_ne h1), Function.update_of_ne (StableHlo.devRef_ne_of_ne h0)]
/-- and the two result arrays hold what the region wrote. -/
theorem W_v7_0 (c : Dev nD) : W m c (Proc.devRef .tc main_v7_0) = finalAp m c := by
  unfold W
  rw [Function.update_of_ne (StableHlo.devRef_ne_of_ne (by decide)), Function.update_self]
theorem W_v7_1 (c : Dev nD) : W m c (Proc.devRef .tc main_v7_1) = finalAn m c := by
  unfold W
  rw [Function.update_self]

/-- The pipeline's arrays at their final contents and the buffers no window touches are the unscoped buffers at what the
    region leaves: an input window's array ends as it began, so the two halves of the bf16 inputs' buffer agree and join
    to the whole; the two result arrays hold what the write-backs left. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W m c) : sProp 𝕄) := by
  have hsplit : (unscopedBufs c (fun b => W m c b) : sProp 𝕄)
      = iprop(Pipeline.arrBufs spec0 c (fun b => W m c b) ∗ Pipeline.unscopedRest spec0 c (fun b => W m c b)) :=
    Pipeline.unscopedBufs_split₀ cfgs 0 winFacts₀0.arr_unscoped c _
  have hrest : (Pipeline.unscopedRest spec0 c (fun b => W m c b) : sProp 𝕄) = Pipeline.unscopedRest spec0 c (V m c) := by
    unfold Pipeline.unscopedRest
    exact bigSep_congr fun b hb => by
      beta_reduce
      rw [W_of_ne m c b (fun h => (Finset.mem_sdiff.mp hb).2 (Finset.mem_image.mpr ⟨6, Finset.mem_univ _, h.symm⟩))
        (fun h => (Finset.mem_sdiff.mp hb).2 (Finset.mem_image.mpr ⟨7, Finset.mem_univ _, h.symm⟩))]
  rw [← Pipeline.unscopedBufs_held c (W m c), hsplit, hrest, arrBufs0_eq, arrays0_eq]
  beta_reduce
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl, A_eq, A_eq, A_eq, A_eq, A_eq, A_eq,
    W_of_ne m c main_v0 (by decide) (by decide), W_of_ne m c main_v3 (by decide) (by decide),
    W_of_ne m c main_v4 (by decide) (by decide), W_of_ne m c main_v5 (by decide) (by decide),
    W_of_ne m c main_v6 (by decide) (by decide), W_v7_0, W_v7_1]
  iintro ⟨⟨H0l, H0r, H3, H4, H5, H6, H70, H71⟩, Hr⟩
  ihave H0 := (pointsTo_share (PosShare.mem_left_op_right fullShare)).2 $$ [H0l H0r]
  · isplitl [H0l] <;> iassumption
  isplitr [Hr]; swap; · iexact Hr
  isplitl [H0]; · iexact H0
  isplitl [H3]; · iexact H3
  isplitl [H4]; · iexact H4
  isplitl [H5]; · iexact H5
  isplitl [H6]; · iexact H6
  isplitl [H70]; · iexact H70
  iexact H71

/-! ## What the host operations leave alone -/

/-- A reference among a list is written within the list. -/
theorem writes_sub_of_mem {l : List (Ref sig .tc)} {y : Ref sig .tc} (hy : y ∈ l) :
    ({Proc.devRef (τ := τ) .tc y} : Finset (DevRef τ sig)) ⊆ (l.map (Proc.devRef (τ := τ) .tc)).toFinset :=
  Finset.singleton_subset_iff.mpr (List.mem_toFinset.mpr (List.mem_map_of_mem hy))

/-- The eight operations before the region write eight buffers, and leave every other as it was; -/
theorem kept0 (X : Valuation τ sig (Elt F)) (b : Ref sig .tc)
    (hb : b ∉ [main_v0, main_v1, main_cst, main_v2, main_v3, main_v4, main_v5, main_v6]) :
    StableHlo.after hostOps0 X (Proc.devRef .tc b) = X (Proc.devRef .tc b) :=
  StableHlo.after_of_writes_sub hostOps0 X
    ⟨writes_sub_of_mem (by decide), writes_sub_of_mem (by decide), writes_sub_of_mem (by decide), writes_sub_of_mem (by decide),
      writes_sub_of_mem (by decide), writes_sub_of_mem (by decide), writes_sub_of_mem (by decide), writes_sub_of_mem (by decide)⟩ hb

/-- the thirteen after it write thirteen, and leave every other as it was. -/
theorem kept1 (X : Valuation τ sig (Elt F)) (b : Ref sig .tc)
    (hb : b ∉ [main_v8, main_v9, main_v10, main_cst_0, main_v11, main_v12, main_cst_1, main_v13, main_v14, main_cst_2, main_v15,
      main_cst_3, main_v16]) :
    StableHlo.after hostOps1 X (Proc.devRef .tc b) = X (Proc.devRef .tc b) :=
  StableHlo.after_of_writes_sub hostOps1 X
    ⟨writes_sub_of_mem (by decide), writes_sub_of_mem (by decide), writes_sub_of_mem (by decide), writes_sub_of_mem (by decide),
      writes_sub_of_mem (by decide), writes_sub_of_mem (by decide), writes_sub_of_mem (by decide), writes_sub_of_mem (by decide),
      writes_sub_of_mem (by decide), writes_sub_of_mem (by decide), writes_sub_of_mem (by decide), writes_sub_of_mem (by decide),
      writes_sub_of_mem (by decide)⟩ hb

/-- Neither argument array is written anywhere in the program: each ends as launched. -/
theorem arg_kept (c : Dev nD) (b : Ref sig .tc)
    (h0 : b ∉ [main_v0, main_v1, main_cst, main_v2, main_v3, main_v4, main_v5, main_v6]) (h70 : b ≠ main_v7_0) (h71 : b ≠ main_v7_1)
    (h1 : b ∉ [main_v8, main_v9, main_v10, main_cst_0, main_v11, main_v12, main_cst_1, main_v13, main_v14, main_cst_2, main_v15,
      main_cst_3, main_v16]) :
    StableHlo.after hostOps1 (W m c) (Proc.devRef .tc b) = m ((c : Thread nD τ).loc b) :=
  (kept1 (W m c) b h1).trans ((W_of_ne m c b h70 h71).trans (kept0 (V₀ m c) b h0))

/-- An unscoped buffer, held beside the state interpretation of a final state, is what that state's memory holds. -/
theorem held_read (c : Dev nD) (X : Valuation τ sig (Elt F)) (s' : Phys nD τ sig (Elt F)) :
    iprop((StableHlo.held (c : Thread nD τ) (Pipeline.ucRefs τ sig) X : sProp 𝕄) ∗ SI s')
      ⊢ iprop(⌜∀ b ∈ Pipeline.ucRefs τ sig, s'.mem.mem ((c : Thread nD τ).1, b) = X b⌝ ∗ SI s') :=
  pointsTo_read_all (Pipeline.ucRefs τ sig) (fun b => ((c : Thread nD τ).1, b)) X s'

/-- An unscoped TensorCore reference is among the buffers the host operations run within. -/
theorem mem_ucRefs (b : Ref sig .tc) (hb : b.isScoped = false) : Proc.devRef (τ := τ) .tc b ∈ Pipeline.ucRefs τ sig :=
  Finset.mem_filter.mpr ⟨StableHlo.devRef_mem_tcRefs b, fun h => Bool.false_ne_true (hb.symm.trans h)⟩

/-! ## The launch: the program as three segments -/

/-- The kernel calls nothing bounded. -/
abbrev 𝒱₀ : Variants := Variants.none
/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- What rides beside the unscoped buffers from segment to segment: the generator register at some state, and the core
    owing nothing. -/
abbrev R (c : Dev nD) : sProp 𝕄 :=
  iprop((∃ r, prngReg c r) ∗ ∃ Ws, owes (c : Thread nD τ) (0 : CellTallies nD τ sig Unit) Ws)

/-- The core owing nothing is what the pipeline holds of it at every point, -/
theorem owes_in (c : Dev nD) (t : Fin (cfg0.N + 1)) :
    iprop(∃ Ws, owes (c : Thread nD τ) (0 : CellTallies nD τ sig Unit) Ws) ⊢ ((dats m 0 c).owesAt () t : sProp 𝕄) := by
  unfold Pipeline.Dat.owesAt Pipeline.owesWithin
  iintro ⟨%Ws, HO⟩
  iexists Ws
  isplitr; · ipureintro; exact fun p _ => Set.mem_union_left _ (Set.mem_univ p)
  iexact HO
/-- and back. -/
theorem owes_out (c : Dev nD) (t : Fin (cfg0.N + 1)) :
    ((dats m 0 c).owesAt () t : sProp 𝕄) ⊢ iprop(∃ Ws, owes (c : Thread nD τ) (0 : CellTallies nD τ sig Unit) Ws) := by
  unfold Pipeline.Dat.owesAt Pipeline.owesWithin
  iintro ⟨%Ws, -, HO⟩
  iexists Ws
  iexact HO

/-- THE FIRST HOST SEGMENT: the eight operations over the unscoped buffers, from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro op h; simp only [List.mem_cons, List.mem_nil_iff, or_false] at h; rcases h with rfl | rfl | rfl | rfl | rfl | rfl | rfl | rfl <;> rfl)
    (V₀ m) R

/-- THE LAST HOST SEGMENT: the thirteen operations over the unscoped buffers, from what the region leaves. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro op h; simp only [List.mem_cons, List.mem_nil_iff, or_false] at h; rcases h with rfl | rfl | rfl | rfl | rfl | rfl | rfl | rfl | rfl | rfl | rfl | rfl | rfl <;> rfl)
    (W m) R

-- a library lemma stated over `cfgs p` at the pinned configuration unifies with its use here only when unification may
-- unfold plain definitions in a metavariable's type
set_option backward.isDefEq.respectTransparency.types false in
/-- THE REGION: the decided layout, no semaphore of the kernel's own, the body obligation. It is entered from what the
    first host segment leaves — the windows' arrays into the pipeline, the generator register into the invariant, every
    other unscoped buffer bypassing — and left with the unscoped buffers at what the region wrote. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W m c) ∗ R c)
  X c := iprop(∃ r, prngReg c r)
  Y c := iprop(∃ r, prngReg c r)
  Z c := Pipeline.unscopedRest spec0 c (V m c)
  hentry c := by
    iintro ⟨⟨Hh, Hp, HO⟩, -, -⟩
    ihave H := (entry_split m c) $$ Hh
    icases H with ⟨Ha, Hr⟩
    ihave HO := (owes_in m c 0) $$ HO
    imodintro
    isplitl [Ha]; · iexact Ha
    isplitr
    · unfold Pipeline.prefHeld; rw [show (Finset.univ : Finset (Fin 0)) = ∅ from rfl, BI.bigSep_empty]; iempintro
    isplitl [HO]; · iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, Hp, Hr⟩
    ihave Hh := (exit_join m c) $$ [Ha Hr]
    · isplitl [Ha]; · iexact Ha
      iexact Hr
    ihave HO := (owes_out m c (Fin.last cfg0.N)) $$ HO
    imodintro
    isplitl [Hh]; · iexact Hh
    isplitl [Hp]; · iexact Hp
    iexact HO

/-- The last thread state: the buffers after the thirteen closing operations and the generator register, beside the core
    owing nothing. -/
theorem last_state (c : Dev nD) :
    iprop(StableHlo.held (c : Thread nD τ) (Pipeline.ucRefs τ sig) (StableHlo.after hostOps1 (W m c)) ∗ R c)
      ⊢ (iprop((StableHlo.held (c : Thread nD τ) (Pipeline.ucRefs τ sig) (StableHlo.after hostOps1 (W m c)) ∗ ∃ r, prngReg c r)
          ∗ ∃ Ws, owes (c : Thread nD τ) (0 : CellTallies nD τ sig Unit) Ws) : sProp 𝕄) := by
  iintro ⟨Hh, Hp, HO⟩
  isplitr [HO]; swap; · iexact HO
  isplitl [Hh]; · iexact Hh
  iexact Hp

/-! ## The run -/

/-- The program as the list of its three segments. -/
abbrev segs : List (Pipeline.Seg (pcfgs (F := F)) adm (dats m) () defs₀ 𝒱₀ L lv) := [.host (seg0 m), .region (reg0 m), .host (seg1 m)]

-- the launch theorem's implicit arguments are found by unifying its conclusion with this one, which takes unfolding plain
-- definitions in a metavariable's type
set_option backward.isDefEq.respectTransparency.types false in
/-- At the compiled mesh, from any memory with zero counters: every weakly fair execution of @main on the TensorCores
    terminates, nothing faulting, and every final state has the result buffer at the thirteen closing operations' value of
    what the region left, and both argument arrays as they were. -/
theorem run_main : θ_run defs (onTc (τ := τ) (main (F := F))) (s₀ m ρ) (fun r => ∀ c : Dev nD,
      r.2.mem ((c.tc : Thread nD τ).loc main_v16) = StableHlo.after hostOps1 (W m c) (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (StableHlo.after hostOps1 (W m c)) ∗ ∃ r, prngReg c r))
    (hch := ⟨fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v16) = StableHlo.after hostOps1 (W m c) (Proc.devRef .tc main_v16)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      iintro ⟨⟨Hh, -⟩, HSI⟩
      ihave Hr := (held_read c (StableHlo.after hostOps1 (W m c)) s') $$ [Hh HSI]
      · isplitl [Hh]; · iexact Hh
        iexact HSI
      icases Hr with ⟨%hr, HSI⟩
      imodintro
      isplitr; swap; · iexact HSI
      ipureintro
      exact ⟨hr _ (mem_ucRefs main_v16 rfl),
        (hr _ (mem_ucRefs main_arg0 rfl)).trans (arg_kept m c main_arg0 (by decide) (by decide) (by decide) (by decide)),
        (hr _ (mem_ucRefs main_arg1 rfl)).trans (arg_kept m c main_arg1 (by decide) (by decide) (by decide) (by decide))⟩)
    (hQ := fun _ h => h)

end Cert.Kernel.Run

end
-- ==== Proof.PayI.lean ====
/-
  The two values the kernel body stores, as pure functions of the fifteen vectors it loads: the row block of
  the bf16 inputs, of the squared norms and of the labels, and for each of the four column chunks the chunk's
  key rows, squared norms and labels. Each line below is one of the body's pure stages (the skeleton's payloads), in the
  order the body computes them; `payAp` is the soft hardest-positive distance of the block's rows and `payAn`
  the soft hardest-negative distance.
-/
import proofs.«416752_j76579266888382_3_alg».proof.Proof.Gen.KernelIdeal.Skeleton

noncomputable section

namespace Cert.KernelIdeal.Pay

open Idealize.ShloMosaic Idealize.SL.Sem Cert.KernelIdeal Cert.KernelIdeal.Gen

variable {F : FTy → Type} [FloatOps F] [Named F]

/-- The positive-side result stored into the first output block. -/
def payAp (v0 : Vec F S256x2048 .bf16) (v2 : Vec F S256x1 .f32) (v4 : Vec F S256x1 .i32)
    (v16 : Vec F S1024x2048 .bf16) (v18 : Vec F S1x1024 .f32) (v20 : Vec F S1x1024 .i32)
    (v73 : Vec F S1024x2048 .bf16) (v75 : Vec F S1x1024 .f32) (v77 : Vec F S1x1024 .i32)
    (v130 : Vec F S1024x2048 .bf16) (v132 : Vec F S1x1024 .f32) (v134 : Vec F S1x1024 .i32)
    (v187 : Vec F S1024x2048 .bf16) (v189 : Vec F S1x1024 .f32) (v191 : Vec F S1x1024 .i32) : FVec F S256x1 .f32 :=
  have v1 := k0_pay3 v0
  have v7 := k0_pay4 v2
  have v9 := k0_pay5 v4
  have v10 : FVec F S256x1 .f32 := k0_pay6
  have v11 : FVec F S256x1 .f32 := k0_pay7
  have v12 : FVec F S256x1 .f32 := k0_pay8
  have v13 : FVec F S256x1 .f32 := k0_pay9
  have v14 : FVec F S256x1 .f32 := k0_pay10
  have v15 : FVec F S256x1 .f32 := k0_pay11
  have v30 := k0_pay12 v0 v2 v16 v18
  have v32 := k0_pay13 v4 v20
  have v34 := k0_pay14 v0 v2 v4 v16 v18 v20
  have v35 := k0_pay15 v0 v2 v4 v16 v18 v20
  have v37 := k0_pay16 v10 v35
  have v46 := k0_pay19 v10 v11 v34 v35
  have v51 := k0_pay20 v10 v12 v30 v34 v35
  have v58 := k0_pay22 v13 v30 v32
  have v67 := k0_pay25 v13 v14 v30 v32
  have v72 := k0_pay26 v13 v15 v30 v32
  have v78 := k0_pay27 (F := F) v77
  have v79 := k0_pay28 v1 v73
  have v81 := k0_pay29 v7 v75
  have v94 := k0_pay33 v9 v37 v78 v79 v81
  have v103 := k0_pay36 v9 v37 v46 v78 v79 v81
  have v108 := k0_pay37 v9 v37 v51 v78 v79 v81
  have v115 := k0_pay39 v9 v58 v78 v79 v81
  have v124 := k0_pay42 v9 v58 v67 v78 v79 v81
  have v129 := k0_pay43 v9 v58 v72 v78 v79 v81
  have v144 := k0_pay44 v1 v7 v130 v132
  have v151 := k0_pay47 v1 v7 v9 v94 v130 v132 v134
  have v160 := k0_pay50 v1 v7 v9 v94 v103 v130 v132 v134
  have v165 := k0_pay51 v1 v7 v9 v94 v108 v130 v132 v134
  have v169 := k0_pay52 v1 v7 v9 v130 v132 v134
  have v172 := k0_pay53 v1 v7 v9 v115 v130 v132 v134
  have v174 := k0_pay54 v1 v7 v9 v115 v130 v132 v134
  have v181 := k0_pay56 v124 v169 v172 v174
  have v186 := k0_pay57 v129 v144 v169 v172 v174
  have v201 := k0_pay58 v1 v7 v187 v189
  have v203 := k0_pay59 (F := F) v9 v191
  have v217 := k0_pay64 v1 v7 v9 v151 v160 v187 v189 v191
  have v218 := k0_pay65 v1 v7 v9 v151 v165 v187 v189 v191
  have v219 := k0_pay66 v1 v7 v9 v151 v187 v189 v191
  k0_pay1 v217 v218 v219

/-- The negative-side result stored into the second output block. -/
def payAn (v0 : Vec F S256x2048 .bf16) (v2 : Vec F S256x1 .f32) (v4 : Vec F S256x1 .i32)
    (v16 : Vec F S1024x2048 .bf16) (v18 : Vec F S1x1024 .f32) (v20 : Vec F S1x1024 .i32)
    (v73 : Vec F S1024x2048 .bf16) (v75 : Vec F S1x1024 .f32) (v77 : Vec F S1x1024 .i32)
    (v130 : Vec F S1024x2048 .bf16) (v132 : Vec F S1x1024 .f32) (v134 : Vec F S1x1024 .i32)
    (v187 : Vec F S1024x2048 .bf16) (v189 : Vec F S1x1024 .f32) (v191 : Vec F S1x1024 .i32) : FVec F S256x1 .f32 :=
  have v1 := k0_pay3 v0
  have v7 := k0_pay4 v2
  have v9 := k0_pay5 v4
  have v10 : FVec F S256x1 .f32 := k0_pay6
  have v11 : FVec F S256x1 .f32 := k0_pay7
  have v12 : FVec F S256x1 .f32 := k0_pay8
  have v13 : FVec F S256x1 .f32 := k0_pay9
  have v14 : FVec F S256x1 .f32 := k0_pay10
  have v15 : FVec F S256x1 .f32 := k0_pay11
  have v30 := k0_pay12 v0 v2 v16 v18
  have v32 := k0_pay13 v4 v20
  have v34 := k0_pay14 v0 v2 v4 v16 v18 v20
  have v35 := k0_pay15 v0 v2 v4 v16 v18 v20
  have v37 := k0_pay16 v10 v35
  have v46 := k0_pay19 v10 v11 v34 v35
  have v51 := k0_pay20 v10 v12 v30 v34 v35
  have v58 := k0_pay22 v13 v30 v32
  have v67 := k0_pay25 v13 v14 v30 v32
  have v72 := k0_pay26 v13 v15 v30 v32
  have v78 := k0_pay27 (F := F) v77
  have v79 := k0_pay28 v1 v73
  have v81 := k0_pay29 v7 v75
  have v94 := k0_pay33 v9 v37 v78 v79 v81
  have v103 := k0_pay36 v9 v37 v46 v78 v79 v81
  have v108 := k0_pay37 v9 v37 v51 v78 v79 v81
  have v115 := k0_pay39 v9 v58 v78 v79 v81
  have v124 := k0_pay42 v9 v58 v67 v78 v79 v81
  have v129 := k0_pay43 v9 v58 v72 v78 v79 v81
  have v144 := k0_pay44 v1 v7 v130 v132
  have v151 := k0_pay47 v1 v7 v9 v94 v130 v132 v134
  have v160 := k0_pay50 v1 v7 v9 v94 v103 v130 v132 v134
  have v165 := k0_pay51 v1 v7 v9 v94 v108 v130 v132 v134
  have v169 := k0_pay52 v1 v7 v9 v130 v132 v134
  have v172 := k0_pay53 v1 v7 v9 v115 v130 v132 v134
  have v174 := k0_pay54 v1 v7 v9 v115 v130 v132 v134
  have v181 := k0_pay56 v124 v169 v172 v174
  have v186 := k0_pay57 v129 v144 v169 v172 v174
  have v201 := k0_pay58 v1 v7 v187 v189
  have v203 := k0_pay59 (F := F) v9 v191
  have v217 := k0_pay64 v1 v7 v9 v151 v160 v187 v189 v191
  have v218 := k0_pay65 v1 v7 v9 v151 v165 v187 v189 v191
  have v219 := k0_pay66 v1 v7 v9 v151 v187 v189 v191
  k0_pay2 v172 v181 v186 v201 v203

end Cert.KernelIdeal.Pay

end
-- ==== Proof.BodyI.lean ====
/-
  The kernel body as a Hoare triple. Run on eight whole staging buffers, the six inputs at contents
  `x0 … x5` and the two outputs at anything, the body reads fifteen rectangles of the inputs (the row block of the
  bf16 inputs, of the squared norms and of the labels; four chunks of 1024 key rows, and the matching chunks
  of the column squared norms and column labels), writes each output block once, whole, and leaves the inputs as
  they were. What each output block then holds is the canonical form of that one store over the stored value
  (`Pay.payAp`, `Pay.payAn`) of the loaded rectangles.
-/
import proofs.«416752_j76579266888382_3_alg».proof.Proof.Gen.KernelIdeal.Launch
import proofs.«416752_j76579266888382_3_alg».proof.Proof.Gen.KernelIdeal.Skeleton
import proofs.«416752_j76579266888382_3_alg».proof.Proof.Gen.KernelIdeal.Points
import proofs.«416752_j76579266888382_3_alg».proof.Proof.PayI
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

/-- A whole output block (and a whole [256, 1] input block). -/
abbrev rO : Rect S256x1 := Rect.unit (s := S256x1) ![0, 0] S256x1.size inb_S256x1_S256x1_0_0
/-- The whole row block of the bf16 inputs. -/
abbrev rQ : Rect S256x2048 := Rect.unit (s := S256x2048) ![0, 0] S256x2048.size inb_S256x2048_S256x2048_0_0
/-- The four chunks of 1024 key rows. -/
abbrev rK0 : Rect S4096x2048 := Rect.unit (s := S4096x2048) ![0, 0] S1024x2048.size inb_S4096x2048_S1024x2048_0_0
abbrev rK1 : Rect S4096x2048 := Rect.unit (s := S4096x2048) ![1024, 0] S1024x2048.size inb_S4096x2048_S1024x2048_1024_0
abbrev rK2 : Rect S4096x2048 := Rect.unit (s := S4096x2048) ![2048, 0] S1024x2048.size inb_S4096x2048_S1024x2048_2048_0
abbrev rK3 : Rect S4096x2048 := Rect.unit (s := S4096x2048) ![3072, 0] S1024x2048.size inb_S4096x2048_S1024x2048_3072_0
/-- The four chunks of 1024 columns of a [1, 4096] row vector. -/
abbrev rR0 : Rect S1x4096 := Rect.unit (s := S1x4096) ![0, 0] S1x1024.size inb_S1x4096_S1x1024_0_0
abbrev rR1 : Rect S1x4096 := Rect.unit (s := S1x4096) ![0, 1024] S1x1024.size inb_S1x4096_S1x1024_0_1024
abbrev rR2 : Rect S1x4096 := Rect.unit (s := S1x4096) ![0, 2048] S1x1024.size inb_S1x4096_S1x1024_0_2048
abbrev rR3 : Rect S1x4096 := Rect.unit (s := S1x4096) ![0, 3072] S1x1024.size inb_S1x4096_S1x1024_0_3072

/-! ## What the body leaves in each output block -/

/-- The first output block after the body: its one store, over the positive-side value of the loaded rectangles. -/
def outAp (x0 : Vec F S256x2048 .bf16) (x1 : Vec F S4096x2048 .bf16) (x2 : Vec F S256x1 .f32) (x3 : Vec F S1x4096 .f32) (x4 : Vec F S256x1 .i32) (x5 : Vec F S1x4096 .i32) : Vec F S256x1 .f32 :=
  View.canon [⟨rO, Pay.payAp (View.ld x0 rQ) (View.ld x2 rO) (View.ld x4 rO) (View.ld x1 rK0) (View.ld x3 rR0) (View.ld x5 rR0) (View.ld x1 rK1) (View.ld x3 rR1) (View.ld x5 rR1) (View.ld x1 rK2) (View.ld x3 rR2) (View.ld x5 rR2) (View.ld x1 rK3) (View.ld x3 rR3) (View.ld x5 rR3)⟩]

/-- The second output block after the body: its one store, over the negative-side value of the loaded rectangles. -/
def outAn (x0 : Vec F S256x2048 .bf16) (x1 : Vec F S4096x2048 .bf16) (x2 : Vec F S256x1 .f32) (x3 : Vec F S1x4096 .f32) (x4 : Vec F S256x1 .i32) (x5 : Vec F S1x4096 .i32) : Vec F S256x1 .f32 :=
  View.canon [⟨rO, Pay.payAn (View.ld x0 rQ) (View.ld x2 rO) (View.ld x4 rO) (View.ld x1 rK0) (View.ld x3 rR0) (View.ld x5 rR0) (View.ld x1 rK1) (View.ld x3 rR1) (View.ld x5 rR1) (View.ld x1 rK2) (View.ld x3 rR2) (View.ld x5 rR2) (View.ld x1 rK3) (View.ld x3 rR3) (View.ld x5 rR3)⟩]

/-- The one store covers the block. -/
theorem cover_out (p0 : Vec F S256x1 .f32) (y : S256x1.Idx) :
    ∃ pc ∈ ([⟨rO, p0⟩] : List (View.Piece (Elt F) S256x1 .f32)), y ∈ pc.1.set :=
  View.cover_of_tiled [⟨rO, p0⟩] S256x1.size (by rfl) y

/-! ## The body's triple -/

/-- The kernel body on whole staging memrefs, the inputs' at contents `x0 … x5` and the outputs' at anything, runs to
    the continuation holding the inputs' as they were and the outputs' at `outAp` and `outAn` of the inputs'. -/
theorem sound_kernel (c : Dev nD) (E : Set ℕ) (i : grid0.Coords) (arg1 : Memref sig .tc .vmem S256x2048 .bf16) (harg1 : arg1.IsWhole) (arg2 : Memref sig .tc .vmem S4096x2048 .bf16) (harg2 : arg2.IsWhole) (arg3 : Memref sig .tc .vmem S256x1 .f32) (harg3 : arg3.IsWhole) (arg4 : Memref sig .tc .vmem S1x4096 .f32) (harg4 : arg4.IsWhole) (arg5 : Memref sig .tc .vmem S256x1 .i32) (harg5 : arg5.IsWhole) (arg6 : Memref sig .tc .vmem S1x4096 .i32) (harg6 : arg6.IsWhole) (arg7 : Memref sig .tc .vmem S256x1 .f32) (harg7 : arg7.IsWhole) (arg8 : Memref sig .tc .vmem S256x1 .f32) (harg8 : arg8.IsWhole)
    (x0 : Vec F S256x2048 .bf16) (x1 : Vec F S4096x2048 .bf16) (x2 : Vec F S256x1 .f32) (x3 : Vec F S1x4096 .f32) (x4 : Vec F S256x1 .i32) (x5 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outAp x0 x1 x2 x3 x4 x5) ∗ owns (c : Thread nD τ) arg8 fullShare (outAn x0 x1 x2 x3 x4 x5)) -∗ K ⟨⟩))
      ⊢ wp frame (wpE (defs₀ (F := F)) Variants.none c none) E (cc0__triplet_kernel i arg1 harg1 arg2 harg2 arg3 harg3 arg4 harg4 arg5 harg5 arg6 harg6 arg7 harg7 arg8 harg8) K := by
  -- the printed body is its skeleton: five parts' loads, then each output block loaded and stored once
  simp only [cc0__triplet_kernel_eq_skeleton]; unfold cc0__triplet_kernel_skel
  unfold owns
  -- the inputs' raw contents `f0 … f5` read `x0 … x5`; the outputs' prior contents are anything
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  -- the run: every load reads its rectangle of unchanged contents; each output is left as one write over what it held
  sl_exec
  sl_step
  iapply Hk
  -- the inputs are as they were
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- each output reads the canonical contents of its one store, which covers the block; the stored value is
  -- `Pay.payAp` (`Pay.payAn`) of the loaded rectangles, the same chain of stages in the same order
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

end Cert.KernelIdeal.Body

end
-- ==== Proof.RunDefsI.lean ====
/-
  The run of the whole program: eight host operations (the bf16 copy of the inputs, the row squared norms, and the
  reshapes of the norms and of the labels to a column and to a row), ONE kernel region over a grid of sixteen row
  blocks, then thirteen host operations (the two results reshaped to vectors, their difference plus the margin, its
  positive part, the sum, the division by the row count).

  The region has eight windows: the bf16 inputs twice (a 256-row block at each point, and the whole array once), the
  squared norms as a column block and as a whole row, the labels likewise, and the two [4096, 1] results written
  block by block. The two windows on the bf16 inputs share one array: each holds it at one half of the full share,
  which is all a window that only reads needs, and the halves are put together again when the region is left.
  After the body at point `t` each input window's buffer holds the window's block of its array and each output
  window's buffer holds what the body stores (`Body.outAp`, `Body.outAn` of the six input blocks).
-/
import proofs.«416752_j76579266888382_3_alg».proof.Proof.BodyI
import proofs.«416752_j76579266888382_3_alg».proof.Proof.Gen.KernelIdeal.Launch
import proofs.«416752_j76579266888382_3_alg».proof.Proof.Gen.KernelIdeal.Points
import Idealize.ShloMosaic.Lib.Pipeline.Regions
import Idealize.ShloMosaic.Lib.Pipeline.FrameBody
import Idealize.ShloMosaic.Lib.Pipeline.Frame

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as the host operations' valuation; -/
abbrev V₀ (c : Dev nD) : Valuation τ sig (Elt F) := fun b => m ((c : Dev nD), b)
/-- and when the region is entered: the eight operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- On core `c`: the arrays as the region finds them; after the body at point `t` each input's buffer at its block and
    each output's at what the body stores; the invariant the scoped rest and the generator register, untouched;
    nothing owed; the two windows on the bf16 inputs at the two halves of the full share, every other at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Body.outAp (iblk m c 0 t) (iblk m c 1 t) (iblk m c 2 t) (iblk m c 3 t) (iblk m c 4 t) (iblk m c 5 t)
    | ⟨7, _⟩ => Body.outAn (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | _ => fullShare
  owed _ := 0

/-- The two result arrays when the region is left, as the pipeline library computes them from the proof data. -/
abbrev finalAp (c : Dev nD) : Buf (Elt F) ((cfg0.win 6).arr.view.loc (c : Thread nD τ)) := (dats m 0 c).arrAt 6 cfg0.N
abbrev finalAn (c : Dev nD) : Buf (Elt F) ((cfg0.win 7).arr.view.loc (c : Thread nD τ)) := (dats m 0 c).arrAt 7 cfg0.N

/-- Core `c`'s buffers when the region is left: the two result arrays at what the region wrote, every other buffer as the
    region found it. -/
def W (c : Dev nD) : Valuation τ sig (Elt F) :=
  Function.update (Function.update (StableHlo.after hostOps0 (V₀ m c)) (Proc.devRef .tc main_v7_0) (finalAp m c))
    (Proc.devRef .tc main_v7_1) (finalAn m c)

end Cert.KernelIdeal.Run

end
-- ==== Proof.RunI.lean ====
/-
  The run of the whole program, proved. The program is three segments under one launch: eight host operations (the
  bf16 copy of the inputs, the row squared norms, the reshapes of the norms and of the labels to a column and to a row),
  ONE kernel region over a grid of sixteen row blocks, and thirteen host operations (the two results reshaped to vectors,
  their difference plus the margin, its positive part, the sum, the division by the row count).

  The region's two windows on the bf16 inputs share one array. When the region is entered the array's buffer, held whole,
  is lent to the two windows half and half (a window that only reads needs no more); an input window's array ends as it
  began, so when the region is left the two halves agree and join to the whole again. Every input window's buffer holds
  the window's block of its array whenever the body runs, fetched at that point or not, so the body's triple applies at
  the six blocks; the two result arrays end at what the sixteen write-backs leave, every other buffer as the region found
  it. The closing operations run from there; the result buffer and the two argument arrays are then read off the final
  state, the arguments being written by no operation and no window.
-/
import proofs.«416752_j76579266888382_3_alg».proof.Proof.BodyI
import proofs.«416752_j76579266888382_3_alg».proof.Proof.RunDefsI
import proofs.«416752_j76579266888382_3_alg».proof.Proof.Gen.KernelIdeal.Launch
import proofs.«416752_j76579266888382_3_alg».proof.Proof.Gen.KernelIdeal.Points
import Idealize.ShloMosaic.Lib.Pipeline.Regions
import Idealize.ShloMosaic.Lib.Pipeline.FrameBody
import Idealize.ShloMosaic.Lib.Pipeline.Frame

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds in each window's buffer, and the body obligation -/

/-- The proof data's arrays are the buffers the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = Body.outAp (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = Body.outAn (iblk m c 0 t) (iblk m c 1 t) (iblk m c 2 t) (iblk m c 3 t) (iblk m c 4 t) (iblk m c 5 t) := by dsimp only [dats]

/-- An input window's buffer holds the window's block of its array whenever the body runs: where the block was fetched
    it is the block, and where it was not the block index has not moved since the last fetch and the body left the
    block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]) t d).trans
    (by unfold Dat.fetched Dat.blockOf iblk; rw [A_eq]; rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]) t d).trans
    (by unfold Dat.fetched Dat.blockOf iblk; rw [A_eq]; rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]) t d).trans
    (by unfold Dat.fetched Dat.blockOf iblk; rw [A_eq]; rfl)

/-- The body at every point: each input window's buffer holds its block, so the body's triple applies at the six
    blocks; the invariant and what the core owes pass through unread, and the body leaves each output window's buffer
    at the stored value of those blocks. -/
theorem body_obligation (c : Dev nD) : BodyObligation (dats (F := F) m 0 c) (defs₀ (F := F)) Variants.none () Set.univ := fun t => by
  rw [bigSep_W0, bigSep_W0]
  simp only [before0_0, before0_1, before0_2, before0_3, before0_4, before0_5]
  rw [after0_0, after0_1, after0_2, after0_3, after0_4, after0_5, after0_6, after0_7]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Body.sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The windows' arrays one by one, and the buffers behind them -/

/-- The shares the windows hold their arrays at: the two halves of the full share for the two windows on the bf16
    inputs, the full share for every other. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The pipeline's arrays at contents `G`, window by window: the bf16 inputs' buffer twice, at the two halves of the
    full share, and the six other buffers whole at the full share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
        ∗ (((c : Thread nD τ).loc main_v3) ↦{fullShare} G 2) ∗ (((c : Thread nD τ).loc main_v4) ↦{fullShare} G 3)
        ∗ (((c : Thread nD τ).loc main_v5) ↦{fullShare} G 4) ∗ (((c : Thread nD τ).loc main_v6) ↦{fullShare} G 5)
        ∗ (((c : Thread nD τ).loc main_v7_0) ↦{fullShare} G 6) ∗ (((c : Thread nD τ).loc main_v7_1) ↦{fullShare} G 7)) := by
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  have h7 : (cfg0.win 7).arr.view.set = Finset.univ := (arr_whole0 7).set_eq_univ
  unfold Dat.arrays
  rw [bigSep_W0, h0, h2, h3, h4, h5, h6, h7, share_0, share_1, share_2, share_3, share_4, share_5, share_6, share_7]

/-- The distinct buffers behind the windows' arrays, one by one: seven, the bf16 inputs' once. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v0) ↦{fullShare} X main_v0) ∗ (((c : Thread nD τ).loc main_v3) ↦{fullShare} X main_v3)
        ∗ (((c : Thread nD τ).loc main_v4) ↦{fullShare} X main_v4) ∗ (((c : Thread nD τ).loc main_v5) ↦{fullShare} X main_v5)
        ∗ (((c : Thread nD τ).loc main_v6) ↦{fullShare} X main_v6) ∗ (((c : Thread nD τ).loc main_v7_0) ↦{fullShare} X main_v7_0)
        ∗ (((c : Thread nD τ).loc main_v7_1) ↦{fullShare} X main_v7_1)) := by
  unfold Pipeline.arrBufs
  exact bigSep_eq_bigSepL_of_eq [main_v0, main_v3, main_v4, main_v5, main_v6, main_v7_0, main_v7_1] (by decide) (by decide) _

/-! ## Entering the region -/

/-- The unscoped buffers the first eight operations leave are the pipeline's arrays at their entry contents and the
    buffers no window reads or writes: the bf16 inputs' buffer, held whole, is lent to its two windows half and half. -/
theorem entry_split (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  have hsplit : (unscopedBufs c (V m c) : sProp 𝕄)
      = iprop(Pipeline.arrBufs spec0 c (V m c) ∗ Pipeline.unscopedRest spec0 c (V m c)) :=
    Pipeline.unscopedBufs_split₀ cfgs 0 winFacts₀0.arr_unscoped c (V m c)
  rw [← Pipeline.unscopedBufs_held c (StableHlo.after hostOps0 (V₀ m c)), hsplit, arrBufs0_eq, arrays0_eq]
  iintro ⟨⟨H0, H3, H4, H5, H6, H70, H71⟩, Hr⟩
  ihave H0 := (pointsTo_share (PosShare.mem_left_op_right fullShare)).1 $$ H0
  icases H0 with ⟨H0l, H0r⟩
  isplitr [Hr]; swap; · iexact Hr
  isplitl [H0l]; · iexact H0l
  isplitl [H0r]; · iexact H0r
  isplitl [H3]; · iexact H3
  isplitl [H4]; · iexact H4
  isplitl [H5]; · iexact H5
  isplitl [H6]; · iexact H6
  isplitl [H70]; · iexact H70
  iexact H71

/-! ## Leaving the region -/

/-- Off the two result arrays the buffers are as the region found them; -/
theorem W_of_ne (c : Dev nD) (b : Ref sig .tc) (h0 : b ≠ main_v7_0) (h1 : b ≠ main_v7_1) :
    W m c (Proc.devRef .tc b) = StableHlo.after hostOps0 (V₀ m c) (Proc.devRef .tc b) := by
  unfold W
  rw [Function.update_of_ne (StableHlo.devRef_ne_of_ne h1), Function.update_of_ne (StableHlo.devRef_ne_of_ne h0)]
/-- and the two result arrays hold what the region wrote. -/
theorem W_v7_0 (c : Dev nD) : W m c (Proc.devRef .tc main_v7_0) = finalAp m c := by
  unfold W
  rw [Function.update_of_ne (StableHlo.devRef_ne_of_ne (by decide)), Function.update_self]
theorem W_v7_1 (c : Dev nD) : W m c (Proc.devRef .tc main_v7_1) = finalAn m c := by
  unfold W
  rw [Function.update_self]

/-- The pipeline's arrays at their final contents and the buffers no window touches are the unscoped buffers at what the
    region leaves: an input window's array ends as it began, so the two halves of the bf16 inputs' buffer agree and join
    to the whole; the two result arrays hold what the write-backs left. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W m c) : sProp 𝕄) := by
  have hsplit : (unscopedBufs c (fun b => W m c b) : sProp 𝕄)
      = iprop(Pipeline.arrBufs spec0 c (fun b => W m c b) ∗ Pipeline.unscopedRest spec0 c (fun b => W m c b)) :=
    Pipeline.unscopedBufs_split₀ cfgs 0 winFacts₀0.arr_unscoped c _
  have hrest : (Pipeline.unscopedRest spec0 c (fun b => W m c b) : sProp 𝕄) = Pipeline.unscopedRest spec0 c (V m c) := by
    unfold Pipeline.unscopedRest
    exact bigSep_congr fun b hb => by
      beta_reduce
      rw [W_of_ne m c b (fun h => (Finset.mem_sdiff.mp hb).2 (Finset.mem_image.mpr ⟨6, Finset.mem_univ _, h.symm⟩))
        (fun h => (Finset.mem_sdiff.mp hb).2 (Finset.mem_image.mpr ⟨7, Finset.mem_univ _, h.symm⟩))]
  rw [← Pipeline.unscopedBufs_held c (W m c), hsplit, hrest, arrBufs0_eq, arrays0_eq]
  beta_reduce
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl, A_eq, A_eq, A_eq, A_eq, A_eq, A_eq,
    W_of_ne m c main_v0 (by decide) (by decide), W_of_ne m c main_v3 (by decide) (by decide),
    W_of_ne m c main_v4 (by decide) (by decide), W_of_ne m c main_v5 (by decide) (by decide),
    W_of_ne m c main_v6 (by decide) (by decide), W_v7_0, W_v7_1]
  iintro ⟨⟨H0l, H0r, H3, H4, H5, H6, H70, H71⟩, Hr⟩
  ihave H0 := (pointsTo_share (PosShare.mem_left_op_right fullShare)).2 $$ [H0l H0r]
  · isplitl [H0l] <;> iassumption
  isplitr [Hr]; swap; · iexact Hr
  isplitl [H0]; · iexact H0
  isplitl [H3]; · iexact H3
  isplitl [H4]; · iexact H4
  isplitl [H5]; · iexact H5
  isplitl [H6]; · iexact H6
  isplitl [H70]; · iexact H70
  iexact H71

/-! ## What the host operations leave alone -/

/-- A reference among a list is written within the list. -/
theorem writes_sub_of_mem {l : List (Ref sig .tc)} {y : Ref sig .tc} (hy : y ∈ l) :
    ({Proc.devRef (τ := τ) .tc y} : Finset (DevRef τ sig)) ⊆ (l.map (Proc.devRef (τ := τ) .tc)).toFinset :=
  Finset.singleton_subset_iff.mpr (List.mem_toFinset.mpr (List.mem_map_of_mem hy))

/-- The eight operations before the region write eight buffers, and leave every other as it was; -/
theorem kept0 (X : Valuation τ sig (Elt F)) (b : Ref sig .tc)
    (hb : b ∉ [main_v0, main_v1, main_cst, main_v2, main_v3, main_v4, main_v5, main_v6]) :
    StableHlo.after hostOps0 X (Proc.devRef .tc b) = X (Proc.devRef .tc b) :=
  StableHlo.after_of_writes_sub hostOps0 X
    ⟨writes_sub_of_mem (by decide), writes_sub_of_mem (by decide), writes_sub_of_mem (by decide), writes_sub_of_mem (by decide),
      writes_sub_of_mem (by decide), writes_sub_of_mem (by decide), writes_sub_of_mem (by decide), writes_sub_of_mem (by decide)⟩ hb

/-- the thirteen after it write thirteen, and leave every other as it was. -/
theorem kept1 (X : Valuation τ sig (Elt F)) (b : Ref sig .tc)
    (hb : b ∉ [main_v8, main_v9, main_v10, main_cst_0, main_v11, main_v12, main_cst_1, main_v13, main_v14, main_cst_2, main_v15,
      main_cst_3, main_v16]) :
    StableHlo.after hostOps1 X (Proc.devRef .tc b) = X (Proc.devRef .tc b) :=
  StableHlo.after_of_writes_sub hostOps1 X
    ⟨writes_sub_of_mem (by decide), writes_sub_of_mem (by decide), writes_sub_of_mem (by decide), writes_sub_of_mem (by decide),
      writes_sub_of_mem (by decide), writes_sub_of_mem (by decide), writes_sub_of_mem (by decide), writes_sub_of_mem (by decide),
      writes_sub_of_mem (by decide), writes_sub_of_mem (by decide), writes_sub_of_mem (by decide), writes_sub_of_mem (by decide),
      writes_sub_of_mem (by decide)⟩ hb

/-- Neither argument array is written anywhere in the program: each ends as launched. -/
theorem arg_kept (c : Dev nD) (b : Ref sig .tc)
    (h0 : b ∉ [main_v0, main_v1, main_cst, main_v2, main_v3, main_v4, main_v5, main_v6]) (h70 : b ≠ main_v7_0) (h71 : b ≠ main_v7_1)
    (h1 : b ∉ [main_v8, main_v9, main_v10, main_cst_0, main_v11, main_v12, main_cst_1, main_v13, main_v14, main_cst_2, main_v15,
      main_cst_3, main_v16]) :
    StableHlo.after hostOps1 (W m c) (Proc.devRef .tc b) = m ((c : Thread nD τ).loc b) :=
  (kept1 (W m c) b h1).trans ((W_of_ne m c b h70 h71).trans (kept0 (V₀ m c) b h0))

/-- An unscoped buffer, held beside the state interpretation of a final state, is what that state's memory holds. -/
theorem held_read (c : Dev nD) (X : Valuation τ sig (Elt F)) (s' : Phys nD τ sig (Elt F)) :
    iprop((StableHlo.held (c : Thread nD τ) (Pipeline.ucRefs τ sig) X : sProp 𝕄) ∗ SI s')
      ⊢ iprop(⌜∀ b ∈ Pipeline.ucRefs τ sig, s'.mem.mem ((c : Thread nD τ).1, b) = X b⌝ ∗ SI s') :=
  pointsTo_read_all (Pipeline.ucRefs τ sig) (fun b => ((c : Thread nD τ).1, b)) X s'

/-- An unscoped TensorCore reference is among the buffers the host operations run within. -/
theorem mem_ucRefs (b : Ref sig .tc) (hb : b.isScoped = false) : Proc.devRef (τ := τ) .tc b ∈ Pipeline.ucRefs τ sig :=
  Finset.mem_filter.mpr ⟨StableHlo.devRef_mem_tcRefs b, fun h => Bool.false_ne_true (hb.symm.trans h)⟩

/-! ## The launch: the program as three segments -/

/-- The kernel calls nothing bounded. -/
abbrev 𝒱₀ : Variants := Variants.none
/-- No core owes another anything: no level is assigned. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- What rides beside the unscoped buffers from segment to segment: the generator register at some state, and the core
    owing nothing. -/
abbrev R (c : Dev nD) : sProp 𝕄 :=
  iprop((∃ r, prngReg c r) ∗ ∃ Ws, owes (c : Thread nD τ) (0 : CellTallies nD τ sig Unit) Ws)

/-- The core owing nothing is what the pipeline holds of it at every point, -/
theorem owes_in (c : Dev nD) (t : Fin (cfg0.N + 1)) :
    iprop(∃ Ws, owes (c : Thread nD τ) (0 : CellTallies nD τ sig Unit) Ws) ⊢ ((dats m 0 c).owesAt () t : sProp 𝕄) := by
  unfold Pipeline.Dat.owesAt Pipeline.owesWithin
  iintro ⟨%Ws, HO⟩
  iexists Ws
  isplitr; · ipureintro; exact fun p _ => Set.mem_union_left _ (Set.mem_univ p)
  iexact HO
/-- and back. -/
theorem owes_out (c : Dev nD) (t : Fin (cfg0.N + 1)) :
    ((dats m 0 c).owesAt () t : sProp 𝕄) ⊢ iprop(∃ Ws, owes (c : Thread nD τ) (0 : CellTallies nD τ sig Unit) Ws) := by
  unfold Pipeline.Dat.owesAt Pipeline.owesWithin
  iintro ⟨%Ws, -, HO⟩
  iexists Ws
  iexact HO

/-- THE FIRST HOST SEGMENT: the eight operations over the unscoped buffers, from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro op h; simp only [List.mem_cons, List.mem_nil_iff, or_false] at h; rcases h with rfl | rfl | rfl | rfl | rfl | rfl | rfl | rfl <;> rfl)
    (V₀ m) R

/-- THE LAST HOST SEGMENT: the thirteen operations over the unscoped buffers, from what the region leaves. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro op h; simp only [List.mem_cons, List.mem_nil_iff, or_false] at h; rcases h with rfl | rfl | rfl | rfl | rfl | rfl | rfl | rfl | rfl | rfl | rfl | rfl | rfl <;> rfl)
    (W m) R

-- a library lemma stated over `cfgs p` at the pinned configuration unifies with its use here only when unification may
-- unfold plain definitions in a metavariable's type
set_option backward.isDefEq.respectTransparency.types false in
/-- THE REGION: the decided layout, no semaphore of the kernel's own, the body obligation. It is entered from what the
    first host segment leaves — the windows' arrays into the pipeline, the generator register into the invariant, every
    other unscoped buffer bypassing — and left with the unscoped buffers at what the region wrote. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W m c) ∗ R c)
  X c := iprop(∃ r, prngReg c r)
  Y c := iprop(∃ r, prngReg c r)
  Z c := Pipeline.unscopedRest spec0 c (V m c)
  hentry c := by
    iintro ⟨⟨Hh, Hp, HO⟩, -, -⟩
    ihave H := (entry_split m c) $$ Hh
    icases H with ⟨Ha, Hr⟩
    ihave HO := (owes_in m c 0) $$ HO
    imodintro
    isplitl [Ha]; · iexact Ha
    isplitr
    · unfold Pipeline.prefHeld; rw [show (Finset.univ : Finset (Fin 0)) = ∅ from rfl, BI.bigSep_empty]; iempintro
    isplitl [HO]; · iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, Hp, Hr⟩
    ihave Hh := (exit_join m c) $$ [Ha Hr]
    · isplitl [Ha]; · iexact Ha
      iexact Hr
    ihave HO := (owes_out m c (Fin.last cfg0.N)) $$ HO
    imodintro
    isplitl [Hh]; · iexact Hh
    isplitl [Hp]; · iexact Hp
    iexact HO

/-- The last thread state: the buffers after the thirteen closing operations and the generator register, beside the core
    owing nothing. -/
theorem last_state (c : Dev nD) :
    iprop(StableHlo.held (c : Thread nD τ) (Pipeline.ucRefs τ sig) (StableHlo.after hostOps1 (W m c)) ∗ R c)
      ⊢ (iprop((StableHlo.held (c : Thread nD τ) (Pipeline.ucRefs τ sig) (StableHlo.after hostOps1 (W m c)) ∗ ∃ r, prngReg c r)
          ∗ ∃ Ws, owes (c : Thread nD τ) (0 : CellTallies nD τ sig Unit) Ws) : sProp 𝕄) := by
  iintro ⟨Hh, Hp, HO⟩
  isplitr [HO]; swap; · iexact HO
  isplitl [Hh]; · iexact Hh
  iexact Hp

/-! ## The run -/

/-- The program as the list of its three segments. -/
abbrev segs : List (Pipeline.Seg (pcfgs (F := F)) adm (dats m) () defs₀ 𝒱₀ L lv) := [.host (seg0 m), .region (reg0 m), .host (seg1 m)]

-- the launch theorem's implicit arguments are found by unifying its conclusion with this one, which takes unfolding plain
-- definitions in a metavariable's type
set_option backward.isDefEq.respectTransparency.types false in
/-- At the compiled mesh, from any memory with zero counters: every weakly fair execution of @main on the TensorCores
    terminates, nothing faulting, and every final state has the result buffer at the thirteen closing operations' value of
    what the region left, and both argument arrays as they were. -/
theorem run_main : θ_run defs (onTc (τ := τ) (main (F := F))) (s₀ m ρ) (fun r => ∀ c : Dev nD,
      r.2.mem ((c.tc : Thread nD τ).loc main_v16) = StableHlo.after hostOps1 (W m c) (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (StableHlo.after hostOps1 (W m c)) ∗ ∃ r, prngReg c r))
    (hch := ⟨fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (V₀ m c) from
        Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v16) = StableHlo.after hostOps1 (W m c) (Proc.devRef .tc main_v16)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      iintro ⟨⟨Hh, -⟩, HSI⟩
      ihave Hr := (held_read c (StableHlo.after hostOps1 (W m c)) s') $$ [Hh HSI]
      · isplitl [Hh]; · iexact Hh
        iexact HSI
      icases Hr with ⟨%hr, HSI⟩
      imodintro
      isplitr; swap; · iexact HSI
      ipureintro
      exact ⟨hr _ (mem_ucRefs main_v16 rfl),
        (hr _ (mem_ucRefs main_arg0 rfl)).trans (arg_kept m c main_arg0 (by decide) (by decide) (by decide) (by decide)),
        (hr _ (mem_ucRefs main_arg1 rfl)).trans (arg_kept m c main_arg1 (by decide) (by decide) (by decide) (by decide))⟩)
    (hQ := fun _ h => h)

end Cert.KernelIdeal.Run

end
-- ==== Proof.LibOnlineSoftmax.lean ====
/-
  The streaming ("online") form of a softmax-weighted sum agrees with the direct form, on the extended reals.

  A row of scores `x` (each a real number or `⊥`, never `⊤`) and positive real weights `d` is cut into four chunks.
  The streaming form keeps a running maximum `m`, a running normaliser `l` and a running weighted sum `w`; on each
  chunk it raises `m`, rescales `l` and `w` by `exp (m_old - m_new)` and adds the chunk's terms `exp (x j - m_new)`
  (times `d j` for `w`); the answer is `w / l`. The direct form takes the maximum `M` of the whole row, the
  normaliser `S = ∑ exp (x j - M)`, and sums `(exp (x j - M) / S) * d j`. With `exp ⊥ = 0`, `⊥ - ⊥ = ⊥` and
  `0 / 0 = ⊥` (the conventions of `Ideal.exp`, of `EReal`'s subtraction and of `Ideal.div`), the two agree on every
  row: where some score is real both are the same quotient of real sums, and where every score is `⊥` both are `⊥`.
-/
import Idealize.ShloMosaic.PureOps.Ideal

noncomputable section

namespace OnlineSoftmax

open Idealize.ShloMosaic

variable {ι : Type} [Fintype ι]

/-- One step of the streaming recurrence on a chunk: the state is (running maximum, normaliser, weighted sum). -/
def step (s : EReal × EReal × EReal) (x d : ι → EReal) : EReal × EReal × EReal :=
  (max s.1 (Finset.univ.sup x),
   Ideal.exp (s.1 - max s.1 (Finset.univ.sup x)) * s.2.1 + ∑ j, Ideal.exp (x j - max s.1 (Finset.univ.sup x)),
   Ideal.exp (s.1 - max s.1 (Finset.univ.sup x)) * s.2.2 + ∑ j, Ideal.exp (x j - max s.1 (Finset.univ.sup x)) * d j)

/-- The state before any chunk. -/
def init : EReal × EReal × EReal := (⊥, 0, 0)

/-- The streaming form over four chunks: the weighted sum over the normaliser. -/
def online (x d : Fin 4 → ι → EReal) : EReal :=
  Ideal.div (step (step (step (step init (x 0) (d 0)) (x 1) (d 1)) (x 2) (d 2)) (x 3) (d 3)).2.2
    (step (step (step (step init (x 0) (d 0)) (x 1) (d 1)) (x 2) (d 2)) (x 3) (d 3)).2.1

/-- The direct form: softmax weights of the whole row times the weights `d`, summed. -/
def soft (x d : Fin 4 → ι → EReal) : EReal :=
  ∑ p : Fin 4 × ι,
    Ideal.div (Ideal.exp (x p.1 p.2 - Finset.univ.sup fun q : Fin 4 × ι => x q.1 q.2))
      (∑ q : Fin 4 × ι, Ideal.exp (x q.1 q.2 - Finset.univ.sup fun r : Fin 4 × ι => x r.1 r.2)) * d p.1 p.2

/-- The exponential is nonnegative everywhere on the extended reals. -/
theorem idealExp_nonneg (a : EReal) : 0 ≤ Ideal.exp a := by
  induction a using EReal.rec with
  | bot => simp
  | coe r => rw [Ideal.exp_coe]; exact EReal.coe_nonneg.2 (Real.exp_pos r).le
  | top => simp

/-- Rescaling: for `a ≤ m ≤ m'` with `m' ≠ ⊤`, `exp (m - m') * exp (a - m) = exp (a - m')`. -/
theorem idealExp_rescale (a m m' : EReal) (ham : a ≤ m) (hmm : m ≤ m') (hm' : m' ≠ ⊤) :
    Ideal.exp (m - m') * Ideal.exp (a - m) = Ideal.exp (a - m') := by
  induction m' using EReal.rec with
  | top => exact absurd rfl hm'
  | bot =>
    have h1 : m = ⊥ := le_bot_iff.1 hmm
    have h2 : a = ⊥ := le_bot_iff.1 (h1 ▸ ham)
    subst h1; subst h2
    simp [EReal.bot_sub]
  | coe r' =>
    induction m using EReal.rec with
    | top => exact absurd (top_le_iff.1 hmm) (EReal.coe_ne_top r')
    | bot =>
      have h2 : a = ⊥ := le_bot_iff.1 ham
      subst h2
      simp [EReal.bot_sub]
    | coe r =>
      induction a using EReal.rec with
      | top => exact absurd (top_le_iff.1 ham) (EReal.coe_ne_top r)
      | bot => simp [EReal.bot_sub]
      | coe s =>
        rw [← EReal.coe_sub, ← EReal.coe_sub, ← EReal.coe_sub, Ideal.exp_coe, Ideal.exp_coe, Ideal.exp_coe,
          ← EReal.coe_mul, ← Real.exp_add]
        congr 2
        ring

/-- Multiplication distributes over a finite sum of nonnegative extended reals. -/
theorem ereal_mul_sum_of_nonneg {κ : Type} (S : Finset κ) (c : EReal) (f : κ → EReal) (hf : ∀ k ∈ S, 0 ≤ f k) :
    c * ∑ k ∈ S, f k = ∑ k ∈ S, c * f k := by
  classical
  induction S using Finset.induction_on with
  | empty => simp
  | insert k S hk ih =>
    rw [Finset.sum_insert hk, Finset.sum_insert hk,
      EReal.left_distrib_of_nonneg (hf k (Finset.mem_insert_self k S))
        (Finset.sum_nonneg fun i hi => hf i (Finset.mem_insert_of_mem hi)),
      ih fun i hi => hf i (Finset.mem_insert_of_mem hi)]

/-- The same on the right. -/
theorem ereal_sum_mul_of_nonneg {κ : Type} (S : Finset κ) (c : EReal) (f : κ → EReal) (hf : ∀ k ∈ S, 0 ≤ f k) :
    (∑ k ∈ S, f k) * c = ∑ k ∈ S, f k * c := by
  rw [mul_comm, ereal_mul_sum_of_nonneg S c f hf]
  exact Finset.sum_congr rfl fun k _ => mul_comm _ _

/-- The maximum of the scores in the chunks of `C`. -/
def mC (x : Fin 4 → ι → EReal) (C : Finset (Fin 4)) : EReal := C.sup fun c => Finset.univ.sup (x c)

/-- The normaliser of the chunks of `C`, relative to their maximum. -/
def lC (x : Fin 4 → ι → EReal) (C : Finset (Fin 4)) : EReal := ∑ c ∈ C, ∑ j, Ideal.exp (x c j - mC x C)

/-- The weighted sum of the chunks of `C`, relative to their maximum. -/
def wC (x d : Fin 4 → ι → EReal) (C : Finset (Fin 4)) : EReal :=
  ∑ c ∈ C, ∑ j, Ideal.exp (x c j - mC x C) * d c j

theorem mC_ne_top (x : Fin 4 → ι → EReal) (hx : ∀ c j, x c j ≠ ⊤) (C : Finset (Fin 4)) : mC x C ≠ ⊤ := by
  rw [← lt_top_iff_ne_top, mC, Finset.sup_lt_iff bot_lt_top]
  intro c _
  rw [Finset.sup_lt_iff bot_lt_top]
  intro j _
  exact lt_top_iff_ne_top.2 (hx c j)

theorem le_mC (x : Fin 4 → ι → EReal) (C : Finset (Fin 4)) (c : Fin 4) (hc : c ∈ C) (j : ι) : x c j ≤ mC x C :=
  le_trans (Finset.le_sup (f := x c) (Finset.mem_univ j)) (Finset.le_sup (f := fun c => Finset.univ.sup (x c)) hc)

theorem mC_insert (x : Fin 4 → ι → EReal) (C : Finset (Fin 4)) (c : Fin 4) :
    mC x (insert c C) = max (mC x C) (Finset.univ.sup (x c)) := by
  rw [mC, Finset.sup_insert, max_comm]; rfl

/-- The invariant of the streaming state: after the chunks of `C` the state is (their maximum, their normaliser,
    their weighted sum), and one more chunk `c ∉ C` carries this to `insert c C`. -/
theorem step_inv (x d : Fin 4 → ι → EReal) (hx : ∀ c j, x c j ≠ ⊤) (hd : ∀ c j, 0 ≤ d c j)
    (C : Finset (Fin 4)) (c : Fin 4) (hc : c ∉ C) :
    step (mC x C, lC x C, wC x d C) (x c) (d c) = (mC x (insert c C), lC x (insert c C), wC x d (insert c C)) := by
  have hm' := mC_insert x C c
  have hne : mC x (insert c C) ≠ ⊤ := mC_ne_top x hx _
  have hmm : mC x C ≤ mC x (insert c C) := by rw [hm']; exact le_max_left _ _
  simp only [step, ← hm']
  refine Prod.ext rfl (Prod.ext ?_ ?_)
  · show Ideal.exp (mC x C - mC x (insert c C)) * lC x C + ∑ j, Ideal.exp (x c j - mC x (insert c C))
      = lC x (insert c C)
    rw [lC, lC, Finset.sum_insert hc, add_comm]
    congr 1
    rw [ereal_mul_sum_of_nonneg _ _ _ fun c' _ => Finset.sum_nonneg fun j _ => idealExp_nonneg _]
    refine Finset.sum_congr rfl fun c' hc' => ?_
    rw [ereal_mul_sum_of_nonneg _ _ _ fun j _ => idealExp_nonneg _]
    exact Finset.sum_congr rfl fun j _ => idealExp_rescale _ _ _ (le_mC x C c' hc' j) hmm hne
  · show Ideal.exp (mC x C - mC x (insert c C)) * wC x d C
        + ∑ j, Ideal.exp (x c j - mC x (insert c C)) * d c j = wC x d (insert c C)
    rw [wC, wC, Finset.sum_insert hc, add_comm]
    congr 1
    rw [ereal_mul_sum_of_nonneg _ _ _ fun c' _ => Finset.sum_nonneg fun j _ => mul_nonneg (idealExp_nonneg _) (hd c' j)]
    refine Finset.sum_congr rfl fun c' hc' => ?_
    rw [ereal_mul_sum_of_nonneg _ _ _ fun j _ => mul_nonneg (idealExp_nonneg _) (hd c' j)]
    refine Finset.sum_congr rfl fun j _ => ?_
    rw [← mul_assoc, idealExp_rescale _ _ _ (le_mC x C c' hc' j) hmm hne]

/-- The streaming form over four chunks is the weighted sum of the whole row over its normaliser. -/
theorem online_eq_div (x d : Fin 4 → ι → EReal) (hx : ∀ c j, x c j ≠ ⊤) (hd : ∀ c j, 0 ≤ d c j) :
    online x d = Ideal.div (wC x d Finset.univ) (lC x Finset.univ) := by
  have h0 : (init : EReal × EReal × EReal) = (mC x ∅, lC x ∅, wC x d ∅) := by
    simp [init, mC, lC, wC]
  have hu : (insert 3 (insert 2 (insert 1 (insert 0 (∅ : Finset (Fin 4)))))) = Finset.univ := by decide
  rw [online, h0, step_inv x d hx hd ∅ 0 (by simp), step_inv x d hx hd _ 1 (by decide),
    step_inv x d hx hd _ 2 (by decide), step_inv x d hx hd _ 3 (by decide), hu]

/-- The maximum over all (chunk, position) pairs is the maximum of the chunk maxima. -/
theorem sup_prod_eq_mC (x : Fin 4 → ι → EReal) :
    (Finset.univ.sup fun q : Fin 4 × ι => x q.1 q.2) = mC x Finset.univ := by
  rw [← Finset.univ_product_univ, Finset.sup_product_left]; rfl

/-- The direct form, written chunk by chunk. -/
theorem soft_eq (x d : Fin 4 → ι → EReal) :
    soft x d = ∑ c, ∑ j, Ideal.div (Ideal.exp (x c j - mC x Finset.univ)) (lC x Finset.univ) * d c j := by
  have hL : (∑ q : Fin 4 × ι, Ideal.exp (x q.1 q.2 - mC x Finset.univ)) = lC x Finset.univ := by
    rw [lC, Fintype.sum_prod_type]
  rw [soft]
  simp only [sup_prod_eq_mC, hL]
  rw [Fintype.sum_prod_type]

/-- A finite sum with a term `⊥` is `⊥`. -/
theorem ereal_sum_eq_bot {κ : Type} (S : Finset κ) (f : κ → EReal) (k : κ) (hk : k ∈ S) (h : f k = ⊥) :
    ∑ i ∈ S, f i = ⊥ := by
  classical
  rw [← Finset.add_sum_erase S f hk, h, EReal.bot_add]

/-- Division by a nonzero divisor is multiplication by the inverse. -/
theorem idealDiv_of_ne_zero (y L : EReal) (hL : L ≠ 0) : Ideal.div y L = y * L⁻¹ := by
  rw [Ideal.div, if_neg hL]

theorem idealDiv_zero_zero : Ideal.div 0 0 = ⊥ := by
  simp [Ideal.div]

theorem idealExp_zero : Ideal.exp 0 = 1 := by
  rw [← EReal.coe_zero, Ideal.exp_coe, Real.exp_zero, EReal.coe_one]

/-- The streaming form is the direct form. -/
theorem online_eq_soft [Nonempty ι] (x d : Fin 4 → ι → EReal) (hx : ∀ c j, x c j ≠ ⊤)
    (hd : ∀ c j, ∃ r : ℝ, 0 < r ∧ d c j = (r : EReal)) : online x d = soft x d := by
  have hd0 : ∀ c j, 0 ≤ d c j := fun c j => by
    obtain ⟨r, hr, h⟩ := hd c j
    rw [h]; exact EReal.coe_nonneg.2 hr.le
  rw [online_eq_div x d hx hd0, soft_eq]
  by_cases hbot : mC x Finset.univ = ⊥
  · -- every score is `⊥`: every exponential is `0`, both sides are `⊥`
    have hxb : ∀ c j, x c j = ⊥ := fun c j =>
      le_bot_iff.1 (hbot ▸ le_mC x Finset.univ c (Finset.mem_univ c) j)
    have he : ∀ c j, Ideal.exp (x c j - mC x Finset.univ) = 0 := fun c j => by
      rw [hxb, hbot, EReal.bot_sub, Ideal.exp_bot]
    have hL : lC x Finset.univ = 0 := by
      rw [lC]; simp only [he]; simp
    have hW : wC x d Finset.univ = 0 := by
      rw [wC]; simp only [he]; simp
    have hbd : ∀ c j, (⊥ : EReal) * d c j = ⊥ := fun c j => by
      obtain ⟨r, hr, h⟩ := hd c j
      rw [h]; exact EReal.bot_mul_coe_of_pos hr
    rw [hL, hW]
    simp only [he, idealDiv_zero_zero, hbd]
    obtain ⟨j0⟩ := ‹Nonempty ι›
    exact (ereal_sum_eq_bot Finset.univ _ (0 : Fin 4) (Finset.mem_univ _)
      (ereal_sum_eq_bot Finset.univ _ j0 (Finset.mem_univ _) rfl)).symm
  · -- some score is real: the normaliser is at least `1`
    have htop : mC x Finset.univ ≠ ⊤ := mC_ne_top x hx _
    obtain ⟨c0, -, hc0⟩ := Finset.exists_mem_eq_sup (Finset.univ : Finset (Fin 4)) Finset.univ_nonempty
      (fun c => Finset.univ.sup (x c))
    obtain ⟨j0, -, hj0⟩ := Finset.exists_mem_eq_sup (Finset.univ : Finset ι) Finset.univ_nonempty (x c0)
    have hM : x c0 j0 = mC x Finset.univ := by rw [mC, hc0, hj0]
    have h1 : Ideal.exp (x c0 j0 - mC x Finset.univ) = 1 := by
      rw [hM, EReal.sub_self htop hbot, idealExp_zero]
    have hL1 : (1 : EReal) ≤ lC x Finset.univ := by
      rw [lC, ← h1]
      refine le_trans ?_ (Finset.single_le_sum (f := fun c => ∑ j, Ideal.exp (x c j - mC x Finset.univ))
        (fun c _ => Finset.sum_nonneg fun j _ => idealExp_nonneg _) (Finset.mem_univ c0))
      exact Finset.single_le_sum (f := fun j => Ideal.exp (x c0 j - mC x Finset.univ))
        (fun j _ => idealExp_nonneg _) (Finset.mem_univ j0)
    have hL0 : lC x Finset.univ ≠ 0 := (lt_of_lt_of_le zero_lt_one hL1).ne'
    rw [idealDiv_of_ne_zero _ _ hL0, wC,
      ereal_sum_mul_of_nonneg _ _ _ fun c _ => Finset.sum_nonneg fun j _ => mul_nonneg (idealExp_nonneg _) (hd0 c j)]
    refine Finset.sum_congr rfl fun c _ => ?_
    rw [ereal_sum_mul_of_nonneg _ _ _ fun j _ => mul_nonneg (idealExp_nonneg _) (hd0 c j)]
    refine Finset.sum_congr rfl fun j _ => ?_
    rw [idealDiv_of_ne_zero _ _ hL0, mul_right_comm]

end OnlineSoftmax

end
-- ==== Proof.Spec.lean ====
/-
  The common value of the two programs, as mathematics on the argument arrays: `X`, the [4096, 2048] inputs as
  extended reals, and `T`, the 4096 labels as 32-bit words.

  Row `i` and row `j` are at distance `dist i j = √(max ε (|x_i|² + |x_j|² - 2 ⟨x_i, x_j⟩))` (the literals `ε` and
  `2` as the programs print them). On the positive side row `i` scores column `j` by that distance when the labels
  agree and by `⊥` when they differ; on the negative side by `⊥` when they agree and by minus the distance when
  they differ. `rowAp i` and `rowAn i` are the softmax-weighted sums of the distances under those scores (the direct
  form `OnlineSoftmax.soft`, the 4096 columns taken as four chunks of 1024, column `1024 c + j` being column `j` of
  chunk `c`), and the result is the mean over the rows of `max (rowAp i - rowAn i + margin) 0`.
-/
import Idealize.ShloMosaic.PureOps.Ideal
import Idealize.ShloMosaic.Lib.ValueIdx
import proofs.«416752_j76579266888382_3_alg».proof.Proof.LibOnlineSoftmax

noncomputable section

namespace TripletSpec

open Idealize.ShloMosaic Idealize.ShloMosaic.ValueIdx

/-- The inputs' shape and the labels' shape. -/
abbrev SX : Shape := ⟨2, ![4096, 2048]⟩
abbrev ST : Shape := ⟨1, ![4096]⟩

variable (X : SX.Idx → EReal) (T : ST.Idx → BitVec 32)

/-- The squared norm of row `i`. -/
def sq (i : Fin 4096) : EReal := ∑ k : Fin 2048, X (ix2 i k) * X (ix2 i k)

/-- The inner product of rows `i` and `j`. -/
def inner (i j : Fin 4096) : EReal := ∑ k : Fin 2048, X (ix2 i k) * X (ix2 j k)

/-- The clip's lower bound, the factor two and the margin, as the words both programs print. -/
def eps : EReal := Ideal.ofBits .f32 0x2B8CBCCC#32
def two : EReal := Ideal.ofBits .f32 0x40000000#32
def margin : EReal := Ideal.ofBits .f32 0x3E99999A#32
def count : EReal := Ideal.ofBits .f32 0x45800000#32

/-- The clipped Euclidean distance of rows `i` and `j`. -/
def dist (i j : Fin 4096) : EReal := Ideal.sqrt (max eps (sq X i + sq X j - two * inner X i j))

/-- Column `j` of chunk `c`. -/
def col (c : Fin 4) (j : Fin 1024) : Fin 4096 := ⟨1024 * c.val + j.val, by omega⟩

/-- The distances of row `i`, by chunk. -/
def dd (i : Fin 4096) (c : Fin 4) (j : Fin 1024) : EReal := dist X i (col c j)

/-- The positive-side scores of row `i`: the distance where the labels agree, `⊥` elsewhere. -/
def xpos (i : Fin 4096) (c : Fin 4) (j : Fin 1024) : EReal :=
  if T (ix1 i) = T (ix1 (col c j)) then dist X i (col c j) else ⊥

/-- The negative-side scores of row `i`: `⊥` where the labels agree, minus the distance elsewhere. -/
def xneg (i : Fin 4096) (c : Fin 4) (j : Fin 1024) : EReal :=
  if T (ix1 i) = T (ix1 (col c j)) then ⊥ else -dist X i (col c j)

/-- The soft hardest-positive and hardest-negative distances of row `i`. -/
def rowAp (i : Fin 4096) : EReal := OnlineSoftmax.soft (xpos X T i) (dd X i)
def rowAn (i : Fin 4096) : EReal := OnlineSoftmax.soft (xneg X T i) (dd X i)

/-- The mean hinge of two row vectors. -/
def meanHinge (ap an : Fin 4096 → EReal) : EReal :=
  Ideal.div (∑ i : Fin 4096, max (ap i - an i + margin) 0) count

/-- The programs' common result. -/
def loss : EReal := meanHinge (rowAp X T) (rowAn X T)

/-- Every input entry is a real number. -/
def Finite : Prop := ∀ j : SX.Idx, ∃ r : ℝ, X j = (r : EReal)

end TripletSpec

end
-- ==== Proof.LoadsI.lean ====
/-
  The fifteen vectors the kernel body loads at grid point `t`, as functions of the five arrays the region reads: the
  bf16 inputs `A0`, the squared norms as a column `A3` and as a row `A4`, the labels as a column `A5` and as a row `A6`.
  Point `t` works on rows `256 t … 256 t + 255`; chunk `c` is columns `1024 c … 1024 c + 1023`.
-/
import proofs.«416752_j76579266888382_3_alg».proof.Proof.Spec
import proofs.«416752_j76579266888382_3_alg».proof.KernelIdeal
import Idealize.ShloMosaic.Lib.ValueIdx

noncomputable section

namespace Cert.KernelIdeal.Loads

open Cert.KernelIdeal Idealize.ShloMosaic Idealize.ShloMosaic.ValueIdx

/-- Row `r` of the block of point `t`. -/
def brow (t : Fin 16) (r : Fin 256) : Fin 4096 := ⟨256 * t.val + r.val, by omega⟩

variable (A0 : Vec Ideal S4096x2048 .bf16) (A3 : Vec Ideal S4096x1 .f32) (A4 : Vec Ideal S1x4096 .f32)
  (A5 : Vec Ideal S4096x1 .i32) (A6 : Vec Ideal S1x4096 .i32)

/-- The block's bf16 rows, squared norms and labels. -/
def qblk (t : Fin 16) : Vec Ideal S256x2048 .bf16 := fun y => A0 (ix2 (brow t ⟨(y 0).val, (y 0).isLt⟩) ⟨(y 1).val, (y 1).isLt⟩)
def ablk (t : Fin 16) : Vec Ideal S256x1 .f32 := fun y => A3 (ix2 (brow t ⟨(y 0).val, (y 0).isLt⟩) 0)
def tblk (t : Fin 16) : Vec Ideal S256x1 .i32 := fun y => A5 (ix2 (brow t ⟨(y 0).val, (y 0).isLt⟩) 0)

/-- Chunk `c`'s key rows, squared norms and labels. -/
def kchunk (c : Fin 4) : Vec Ideal S1024x2048 .bf16 := fun y => A0 (ix2 (TripletSpec.col c ⟨(y 0).val, (y 0).isLt⟩) ⟨(y 1).val, (y 1).isLt⟩)
def schunk (c : Fin 4) : Vec Ideal S1x1024 .f32 := fun y => A4 (ix2 0 (TripletSpec.col c ⟨(y 1).val, (y 1).isLt⟩))
def uchunk (c : Fin 4) : Vec Ideal S1x1024 .i32 := fun y => A6 (ix2 0 (TripletSpec.col c ⟨(y 1).val, (y 1).isLt⟩))

end Cert.KernelIdeal.Loads

end
-- ==== Proof.KArrI.lean ====
/-
  From blocks to arrays. When the region is left, row `256 t + r` of each result array is row `r` of what the body stored
  at point `t`: point `t` writes back the block of rows `256 t … 256 t + 255`, the sixteen blocks cover the array, and what
  the body stores is its stored value of the rectangles it loads, which are the block's rows and the four chunks' key rows,
  squared norms and labels of the arrays the region finds.
-/
import proofs.«416752_j76579266888382_3_alg».proof.Proof.RunDefsI
import proofs.«416752_j76579266888382_3_alg».proof.Proof.LoadsI
import proofs.«416752_j76579266888382_3_alg».proof.Proof.PayI
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KArr

open Cert.KernelIdeal Cert.KernelIdeal.Gen Cert.KernelIdeal.Run Cert.KernelIdeal.Loads
open Idealize.ShloMosaic Idealize.ShloMosaic.TcCoe Idealize.SL.Sem Idealize.ShloMosaic.ValueIdx

variable (m : (ℓ : Loc nD τ sig) → Buf (Elt Ideal) ℓ)

/-! ## Zero offsets, grid points, the printed index maps -/

theorem hz : (![0, 0] : Fin 2 → Nat) = fun _ => 0 := funext fun a => by
  match a with
  | ⟨0, _⟩ => rfl
  | ⟨1, _⟩ => rfl

/-- A grid point as a number below sixteen, and back. -/
def pt (t : Fin cfg0.N) : Fin 16 := ⟨t.val, t.isLt.trans_eq N_0⟩
def tp (t : Fin 16) : Fin cfg0.N := ⟨t.val, t.isLt.trans_eq N_0.symm⟩

/-- The printed index maps over the grid: the row-block windows are at block `t` on the rows, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The loads, over any contents -/

/-- A load of a whole block reads it. -/
theorem ld_rQ (x : Vec Ideal S256x2048 .bf16) : View.ld x Body.rQ = x := View.ld_unit_zero (S := S256x2048) hz _ x
theorem ld_rO_f (x : Vec Ideal S256x1 .f32) : View.ld x Body.rO = x := View.ld_unit_zero (S := S256x1) hz _ x
theorem ld_rO_i (x : Vec Ideal S256x1 .i32) : View.ld x Body.rO = x := View.ld_unit_zero (S := S256x1) hz _ x

/-! A load of chunk `k` of a whole array reads rows (columns) `1024 k + ·`. -/

theorem ld_rK0 (A : Vec Ideal S4096x2048 .bf16) : View.ld A Body.rK0 = kchunk A 0 := by
  funext y
  show A (Body.rK0.idx y) = A (ix2 (TripletSpec.col 0 ⟨(y 0).val, (y 0).isLt⟩) ⟨(y 1).val, (y 1).isLt⟩)
  congr 1; funext a; apply Fin.ext
  match a with
  | ⟨0, _⟩ => show 0 + 1 * (y 0).val = 1024 * 0 + (y 0).val; omega
  | ⟨1, _⟩ => show 0 + 1 * (y 1).val = (y 1).val; omega

theorem ld_rR0_f (A : Vec Ideal S1x4096 .f32) : View.ld A Body.rR0 = schunk A 0 := by
  funext y
  show A (Body.rR0.idx y) = A (ix2 0 (TripletSpec.col 0 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 0 + 1 * (y 1).val = 1024 * 0 + (y 1).val; omega

theorem ld_rR0_i (A : Vec Ideal S1x4096 .i32) : View.ld A Body.rR0 = uchunk A 0 := by
  funext y
  show A (Body.rR0.idx y) = A (ix2 0 (TripletSpec.col 0 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 0 + 1 * (y 1).val = 1024 * 0 + (y 1).val; omega

theorem ld_rK1 (A : Vec Ideal S4096x2048 .bf16) : View.ld A Body.rK1 = kchunk A 1 := by
  funext y
  show A (Body.rK1.idx y) = A (ix2 (TripletSpec.col 1 ⟨(y 0).val, (y 0).isLt⟩) ⟨(y 1).val, (y 1).isLt⟩)
  congr 1; funext a; apply Fin.ext
  match a with
  | ⟨0, _⟩ => show 1024 + 1 * (y 0).val = 1024 * 1 + (y 0).val; omega
  | ⟨1, _⟩ => show 0 + 1 * (y 1).val = (y 1).val; omega

theorem ld_rR1_f (A : Vec Ideal S1x4096 .f32) : View.ld A Body.rR1 = schunk A 1 := by
  funext y
  show A (Body.rR1.idx y) = A (ix2 0 (TripletSpec.col 1 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 1024 + 1 * (y 1).val = 1024 * 1 + (y 1).val; omega

theorem ld_rR1_i (A : Vec Ideal S1x4096 .i32) : View.ld A Body.rR1 = uchunk A 1 := by
  funext y
  show A (Body.rR1.idx y) = A (ix2 0 (TripletSpec.col 1 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 1024 + 1 * (y 1).val = 1024 * 1 + (y 1).val; omega

theorem ld_rK2 (A : Vec Ideal S4096x2048 .bf16) : View.ld A Body.rK2 = kchunk A 2 := by
  funext y
  show A (Body.rK2.idx y) = A (ix2 (TripletSpec.col 2 ⟨(y 0).val, (y 0).isLt⟩) ⟨(y 1).val, (y 1).isLt⟩)
  congr 1; funext a; apply Fin.ext
  match a with
  | ⟨0, _⟩ => show 2048 + 1 * (y 0).val = 1024 * 2 + (y 0).val; omega
  | ⟨1, _⟩ => show 0 + 1 * (y 1).val = (y 1).val; omega

theorem ld_rR2_f (A : Vec Ideal S1x4096 .f32) : View.ld A Body.rR2 = schunk A 2 := by
  funext y
  show A (Body.rR2.idx y) = A (ix2 0 (TripletSpec.col 2 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 2048 + 1 * (y 1).val = 1024 * 2 + (y 1).val; omega

theorem ld_rR2_i (A : Vec Ideal S1x4096 .i32) : View.ld A Body.rR2 = uchunk A 2 := by
  funext y
  show A (Body.rR2.idx y) = A (ix2 0 (TripletSpec.col 2 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 2048 + 1 * (y 1).val = 1024 * 2 + (y 1).val; omega

theorem ld_rK3 (A : Vec Ideal S4096x2048 .bf16) : View.ld A Body.rK3 = kchunk A 3 := by
  funext y
  show A (Body.rK3.idx y) = A (ix2 (TripletSpec.col 3 ⟨(y 0).val, (y 0).isLt⟩) ⟨(y 1).val, (y 1).isLt⟩)
  congr 1; funext a; apply Fin.ext
  match a with
  | ⟨0, _⟩ => show 3072 + 1 * (y 0).val = 1024 * 3 + (y 0).val; omega
  | ⟨1, _⟩ => show 0 + 1 * (y 1).val = (y 1).val; omega

theorem ld_rR3_f (A : Vec Ideal S1x4096 .f32) : View.ld A Body.rR3 = schunk A 3 := by
  funext y
  show A (Body.rR3.idx y) = A (ix2 0 (TripletSpec.col 3 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 3072 + 1 * (y 1).val = 1024 * 3 + (y 1).val; omega

theorem ld_rR3_i (A : Vec Ideal S1x4096 .i32) : View.ld A Body.rR3 = uchunk A 3 := by
  funext y
  show A (Body.rR3.idx y) = A (ix2 0 (TripletSpec.col 3 ⟨(y 1).val, (y 1).isLt⟩))
  congr 1; funext a; apply Fin.ext
  have h0 : (y 0).val < 1 := (y 0).isLt
  match a with
  | ⟨0, _⟩ => show 0 + 1 * (y 0).val = 0; omega
  | ⟨1, _⟩ => show 3072 + 1 * (y 1).val = 1024 * 3 + (y 1).val; omega

/-! ## The input blocks at a point, as rows of the arrays the region finds -/

/-- Window 0's block at point `t` is rows `256 t + ·` of the bf16 inputs. -/
theorem iblk0_eq (c : Dev nD) (t : Fin cfg0.N) :
    (iblk m c 0 t : Vec Ideal S256x2048 .bf16) = qblk (V m c main_v0) (pt t) := by
  obtain ⟨e0, e1, -⟩ := idx_facts t
  funext y
  unfold iblk
  rw [View.read_apply]
  show V m c main_v0 _ = V m c main_v0 _
  congr 1; funext a; apply Fin.ext
  match a with
  | ⟨0, _⟩ => show win0_0.index t (0 : Fin 2) * 256 + 1 * (y 0).val = 256 * t.val + (y 0).val; rw [e0]; omega
  | ⟨1, _⟩ => show win0_0.index t (1 : Fin 2) * 2048 + 1 * (y 1).val = (y 1).val; rw [e1]; omega

/-- Window 1's block is the whole array of the bf16 inputs. -/
theorem iblk1_eq (c : Dev nD) (t : Fin cfg0.N) :
    (iblk m c 1 t : Vec Ideal S4096x2048 .bf16) = V m c main_v0 := by
  obtain ⟨-, -, e0, e1, -⟩ := idx_facts t
  funext y
  unfold iblk
  rw [View.read_apply]
  show V m c main_v0 _ = V m c main_v0 _
  congr 1; funext a; apply Fin.ext
  match a with
  | ⟨0, _⟩ => show win0_1.index t (0 : Fin 2) * 4096 + 1 * (y 0).val = (y 0).val; rw [e0]; omega
  | ⟨1, _⟩ => show win0_1.index t (1 : Fin 2) * 2048 + 1 * (y 1).val = (y 1).val; rw [e1]; omega

/-- Window 2's block at point `t` is rows `256 t + ·` of the column of squared norms. -/
theorem iblk2_eq (c : Dev nD) (t : Fin cfg0.N) :
    (iblk m c 2 t : Vec Ideal S256x1 .f32) = ablk (V m c main_v3) (pt t) := by
  obtain ⟨-, -, -, -, e0, e1, -⟩ := idx_facts t
  funext y
  unfold iblk
  rw [View.read_apply]
  show V m c main_v3 _ = V m c main_v3 _
  congr 1; funext a; apply Fin.ext
  have h1 : (y 1).val < 1 := (y 1).isLt
  match a with
  | ⟨0, _⟩ => show win0_2.index t (0 : Fin 2) * 256 + 1 * (y 0).val = 256 * t.val + (y 0).val; rw [e0]; omega
  | ⟨1, _⟩ => show win0_2.index t (1 : Fin 2) * 1 + 1 * (y 1).val = 0; rw [e1]; omega

/-- Window 3's block is the whole row of squared norms. -/
theorem iblk3_eq (c : Dev nD) (t : Fin cfg0.N) :
    (iblk m c 3 t : Vec Ideal S1x4096 .f32) = V m c main_v4 := by
  obtain ⟨-, -, -, -, -, -, e0, e1, -⟩ := idx_facts t
  funext y
  unfold iblk
  rw [View.read_apply]
  show V m c main_v4 _ = V m c main_v4 _
  congr 1; funext a; apply Fin.ext
  match a with
  | ⟨0, _⟩ => show win0_3.index t (0 : Fin 2) * 1 + 1 * (y 0).val = (y 0).val; rw [e0]; omega
  | ⟨1, _⟩ => show win0_3.index t (1 : Fin 2) * 4096 + 1 * (y 1).val = (y 1).val; rw [e1]; omega

/-- Window 4's block at point `t` is rows `256 t + ·` of the column of labels. -/
theorem iblk4_eq (c : Dev nD) (t : Fin cfg0.N) :
    (iblk m c 4 t : Vec Ideal S256x1 .i32) = tblk (V m c main_v5) (pt t) := by
  obtain ⟨-, -, -, -, -, -, -, -, e0, e1, -⟩ := idx_facts t
  funext y
  unfold iblk
  rw [View.read_apply]
  show V m c main_v5 _ = V m c main_v5 _
  congr 1; funext a; apply Fin.ext
  have h1 : (y 1).val < 1 := (y 1).isLt
  match a with
  | ⟨0, _⟩ => show win0_4.index t (0 : Fin 2) * 256 + 1 * (y 0).val = 256 * t.val + (y 0).val; rw [e0]; omega
  | ⟨1, _⟩ => show win0_4.index t (1 : Fin 2) * 1 + 1 * (y 1).val = 0; rw [e1]; omega

/-- Window 5's block is the whole row of labels. -/
theorem iblk5_eq (c : Dev nD) (t : Fin cfg0.N) :
    (iblk m c 5 t : Vec Ideal S1x4096 .i32) = V m c main_v6 := by
  obtain ⟨-, -, -, -, -, -, -, -, -, -, e0, e1, -⟩ := idx_facts t
  funext y
  unfold iblk
  rw [View.read_apply]
  show V m c main_v6 _ = V m c main_v6 _
  congr 1; funext a; apply Fin.ext
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

/-! ## The positive-side result -/

/-- The positive-side stored value of the vectors point `t` loads. -/
def blkAp (c : Dev nD) (t : Fin 16) : Vec Ideal S256x1 .f32 :=
  Pay.payAp (F := Ideal) (qblk (V m c main_v0) t) (ablk (V m c main_v3) t) (tblk (V m c main_v5) t)
        (kchunk (V m c main_v0) 0) (schunk (V m c main_v4) 0) (uchunk (V m c main_v6) 0)
        (kchunk (V m c main_v0) 1) (schunk (V m c main_v4) 1) (uchunk (V m c main_v6) 1)
        (kchunk (V m c main_v0) 2) (schunk (V m c main_v4) 2) (uchunk (V m c main_v6) 2)
        (kchunk (V m c main_v0) 3) (schunk (V m c main_v4) 3) (uchunk (V m c main_v6) 3)

/-- What the body stores is its stored value of the loaded rectangles: over any contents of the six input blocks that are
    the block's rows and the whole arrays. -/
theorem outAp_vars (A0 : Vec Ideal S4096x2048 .bf16) (A3 : Vec Ideal S4096x1 .f32) (A4 : Vec Ideal S1x4096 .f32)
    (A5 : Vec Ideal S4096x1 .i32) (A6 : Vec Ideal S1x4096 .i32) (t : Fin 16)
    (x0 : Vec Ideal S256x2048 .bf16) (x1 : Vec Ideal S4096x2048 .bf16) (x2 : Vec Ideal S256x1 .f32)
    (x3 : Vec Ideal S1x4096 .f32) (x4 : Vec Ideal S256x1 .i32) (x5 : Vec Ideal S1x4096 .i32)
    (h0 : x0 = qblk A0 t) (h1 : x1 = A0) (h2 : x2 = ablk A3 t) (h3 : x3 = A4) (h4 : x4 = tblk A5 t) (h5 : x5 = A6) :
    Body.outAp x0 x1 x2 x3 x4 x5
      = Pay.payAp (F := Ideal) (qblk A0 t) (ablk A3 t) (tblk A5 t)
        (kchunk A0 0) (schunk A4 0) (uchunk A6 0)
        (kchunk A0 1) (schunk A4 1) (uchunk A6 1)
        (kchunk A0 2) (schunk A4 2) (uchunk A6 2)
        (kchunk A0 3) (schunk A4 3) (uchunk A6 3) := by
  subst h0 h1 h2 h3 h4 h5
  unfold Body.outAp
  rw [View.canon_unit_zero hz]
  rw [ld_rQ, ld_rO_f, ld_rO_i, ld_rK0, ld_rR0_f, ld_rR0_i, ld_rK1, ld_rR1_f, ld_rR1_i, ld_rK2, ld_rR2_f, ld_rR2_i,
    ld_rK3, ld_rR3_f, ld_rR3_i]

/-- After the body at point `t` the output block holds the stored value of the vectors point `t` loads. -/
theorem afterAp_eq (c : Dev nD) (t : Fin cfg0.N) :
    ((dats m 0 c).after 6 t : Vec Ideal S256x1 .f32) = blkAp m c (pt t) := by
  dsimp only [dats]
  exact outAp_vars (V m c main_v0) (V m c main_v3) (V m c main_v4) (V m c main_v5) (V m c main_v6) (pt t)
    (iblk m c 0 t) (iblk m c 1 t) (iblk m c 2 t) (iblk m c 3 t) (iblk m c 4 t) (iblk m c 5 t)
    (iblk0_eq m c t) (iblk1_eq m c t) (iblk2_eq m c t) (iblk3_eq m c t) (iblk4_eq m c t) (iblk5_eq m c t)

/-- The whole result array: row `i` is row `i % 256` of the stored value at point `i / 256`. -/
def GAp (c : Dev nD) : Vec Ideal S4096x1 .f32 := fun i =>
  blkAp m c ⟨(i 0).val / 256, by have h : (i 0).val < 4096 := (i 0).isLt; omega⟩
    (ix2 ⟨(i 0).val % 256, Nat.mod_lt _ (by decide)⟩ 0)

/-- The array at row `256 t + y₀` is the stored value at point `t`, row `y₀`. -/
theorem GAp_at (c : Dev nD) (t : Fin 16) (y : S256x1.Idx) (i : S4096x1.Idx) (hi : (i 0).val = 256 * t.val + (y 0).val) :
    GAp m c i = blkAp m c t y := by
  have hy0 : (y 0).val < 256 := (y 0).isLt
  have hy1 : (y 1).val < 1 := (y 1).isLt
  have ht : (⟨(i 0).val / 256, by have h : (i 0).val < 4096 := (i 0).isLt; omega⟩ : Fin 16) = t := Fin.ext (by show (i 0).val / 256 = t.val; omega)
  have hy : (ix2 (⟨(i 0).val % 256, Nat.mod_lt _ (by decide)⟩ : Fin 256) (0 : Fin 1) : S256x1.Idx) = y := by
    funext a
    match a with
    | ⟨0, _⟩ => exact Fin.ext (by show (i 0).val % 256 = (y 0).val; omega)
    | ⟨1, _⟩ => exact Fin.ext (by show 0 = (y 1).val; omega)
  unfold GAp
  rw [ht, hy]

/-- What point `t` writes back is block `t` of the array. -/
theorem flushedAp_eq (c : Dev nD) (t : Fin cfg0.N) :
    (dats m 0 c).flushed 6 t = ((cfg0.win 6).blk t).view.read (Elt Ideal) (GAp m c) := by
  show (cfg0.win 6).cut (grid0.coords t) ((dats m 0 c).after 6 t) = _
  rw [afterAp_eq]
  obtain ⟨-, -, -, -, -, -, -, -, -, -, -, -, e0, e1, -⟩ := idx_facts t
  funext y
  rw [View.read_apply]
  show blkAp m c (pt t) y = GAp m c (((cfg0.win 6).blk t).view.emb y)
  refine (GAp_at m c (pt t) y _ ?_).symm
  show win0_6.index t (0 : Fin 2) * 256 + 1 * (y 0).val = 256 * t.val + (y 0).val
  rw [e0]; omega

/-- An index of the array is in point `t`'s block iff each coordinate is in the block's range on its axis. -/
theorem mem_blk6 (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v7_0).slice (win0_6.rect t)).set ↔ _
  rw [View.set_slice_whole, Rect.mem_set_unit]
  exact Iff.rfl

/-- Row `256 t + r` is in point `t`'s block. -/
theorem brow_mem6 (t : Fin 16) (r : Fin 256) : (ix2 (brow t r) 0 : S4096x1.Idx) ∈ ((cfg0.win 6).blk (tp t)).view.set := by
  obtain ⟨-, -, -, -, -, -, -, -, -, -, -, -, e0, e1, -⟩ := idx_facts (tp t)
  have ht : (tp t).val = t.val := rfl
  rw [mem_blk6]
  intro a
  match a with
  | ⟨0, _⟩ =>
    show win0_6.index (tp t) (0 : Fin 2) * 256 ≤ 256 * t.val + r.val ∧ 256 * t.val + r.val < win0_6.index (tp t) (0 : Fin 2) * 256 + 256
    rw [e0, ht]; omega
  | ⟨1, _⟩ =>
    show win0_6.index (tp t) (1 : Fin 2) * 1 ≤ 0 ∧ 0 < win0_6.index (tp t) (1 : Fin 2) * 1 + 1
    rw [e1]; omega

/-- When the region is left, row `256 t + r` of the result array is row `r` of the stored value at point `t`. -/
theorem finalAp_at (c : Dev nD) (t : Fin 16) (r : Fin 256) :
    Run.finalAp m c (ix2 (brow t r) 0) = blkAp m c t (ix2 r 0) := by
  have h := (dats m 0 c).arrAt_apply_of_mem 6 (GAp m c) (fun t _ => flushedAp_eq m c t) cfg0.N (tp t)
    (ix2 (brow t r) 0) (tp t).isLt (flush0_6 (tp t)) (brow_mem6 t r)
  exact h.trans (GAp_at m c t (ix2 r 0) (ix2 (brow t r) 0) rfl)

/-! ## The negative-side result -/

/-- The negative-side stored value of the vectors point `t` loads. -/
def blkAn (c : Dev nD) (t : Fin 16) : Vec Ideal S256x1 .f32 :=
  Pay.payAn (F := Ideal) (qblk (V m c main_v0) t) (ablk (V m c main_v3) t) (tblk (V m c main_v5) t)
        (kchunk (V m c main_v0) 0) (schunk (V m c main_v4) 0) (uchunk (V m c main_v6) 0)
        (kchunk (V m c main_v0) 1) (schunk (V m c main_v4) 1) (uchunk (V m c main_v6) 1)
        (kchunk (V m c main_v0) 2) (schunk (V m c main_v4) 2) (uchunk (V m c main_v6) 2)
        (kchunk (V m c main_v0) 3) (schunk (V m c main_v4) 3) (uchunk (V m c main_v6) 3)

/-- What the body stores is its stored value of the loaded rectangles: over any contents of the six input blocks that are
    the block's rows and the whole arrays. -/
theorem outAn_vars (A0 : Vec Ideal S4096x2048 .bf16) (A3 : Vec Ideal S4096x1 .f32) (A4 : Vec Ideal S1x4096 .f32)
    (A5 : Vec Ideal S4096x1 .i32) (A6 : Vec Ideal S1x4096 .i32) (t : Fin 16)
    (x0 : Vec Ideal S256x2048 .bf16) (x1 : Vec Ideal S4096x2048 .bf16) (x2 : Vec Ideal S256x1 .f32)
    (x3 : Vec Ideal S1x4096 .f32) (x4 : Vec Ideal S256x1 .i32) (x5 : Vec Ideal S1x4096 .i32)
    (h0 : x0 = qblk A0 t) (h1 : x1 = A0) (h2 : x2 = ablk A3 t) (h3 : x3 = A4) (h4 : x4 = tblk A5 t) (h5 : x5 = A6) :
    Body.outAn x0 x1 x2 x3 x4 x5
      = Pay.payAn (F := Ideal) (qblk A0 t) (ablk A3 t) (tblk A5 t)
        (kchunk A0 0) (schunk A4 0) (uchunk A6 0)
        (kchunk A0 1) (schunk A4 1) (uchunk A6 1)
        (kchunk A0 2) (schunk A4 2) (uchunk A6 2)
        (kchunk A0 3) (schunk A4 3) (uchunk A6 3) := by
  subst h0 h1 h2 h3 h4 h5
  unfold Body.outAn
  rw [View.canon_unit_zero hz]
  rw [ld_rQ, ld_rO_f, ld_rO_i, ld_rK0, ld_rR0_f, ld_rR0_i, ld_rK1, ld_rR1_f, ld_rR1_i, ld_rK2, ld_rR2_f, ld_rR2_i,
    ld_rK3, ld_rR3_f, ld_rR3_i]

/-- After the body at point `t` the output block holds the stored value of the vectors point `t` loads. -/
theorem afterAn_eq (c : Dev nD) (t : Fin cfg0.N) :
    ((dats m 0 c).after 7 t : Vec Ideal S256x1 .f32) = blkAn m c (pt t) := by
  dsimp only [dats]
  exact outAn_vars (V m c main_v0) (V m c main_v3) (V m c main_v4) (V m c main_v5) (V m c main_v6) (pt t)
    (iblk m c 0 t) (iblk m c 1 t) (iblk m c 2 t) (iblk m c 3 t) (iblk m c 4 t) (iblk m c 5 t)
    (iblk0_eq m c t) (iblk1_eq m c t) (iblk2_eq m c t) (iblk3_eq m c t) (iblk4_eq m c t) (iblk5_eq m c t)

/-- The whole result array: row `i` is row `i % 256` of the stored value at point `i / 256`. -/
def GAn (c : Dev nD) : Vec Ideal S4096x1 .f32 := fun i =>
  blkAn m c ⟨(i 0).val / 256, by have h : (i 0).val < 4096 := (i 0).isLt; omega⟩
    (ix2 ⟨(i 0).val % 256, Nat.mod_lt _ (by decide)⟩ 0)

/-- The array at row `256 t + y₀` is the stored value at point `t`, row `y₀`. -/
theorem GAn_at (c : Dev nD) (t : Fin 16) (y : S256x1.Idx) (i : S4096x1.Idx) (hi : (i 0).val = 256 * t.val + (y 0).val) :
    GAn m c i = blkAn m c t y := by
  have hy0 : (y 0).val < 256 := (y 0).isLt
  have hy1 : (y 1).val < 1 := (y 1).isLt
  have ht : (⟨(i 0).val / 256, by have h : (i 0).val < 4096 := (i 0).isLt; omega⟩ : Fin 16) = t := Fin.ext (by show (i 0).val / 256 = t.val; omega)
  have hy : (ix2 (⟨(i 0).val % 256, Nat.mod_lt _ (by decide)⟩ : Fin 256) (0 : Fin 1) : S256x1.Idx) = y := by
    funext a
    match a with
    | ⟨0, _⟩ => exact Fin.ext (by show (i 0).val % 256 = (y 0).val; omega)
    | ⟨1, _⟩ => exact Fin.ext (by show 0 = (y 1).val; omega)
  unfold GAn
  rw [ht, hy]

/-- What point `t` writes back is block `t` of the array. -/
theorem flushedAn_eq (c : Dev nD) (t : Fin cfg0.N) :
    (dats m 0 c).flushed 7 t = ((cfg0.win 7).blk t).view.read (Elt Ideal) (GAn m c) := by
  show (cfg0.win 7).cut (grid0.coords t) ((dats m 0 c).after 7 t) = _
  rw [afterAn_eq]
  obtain ⟨-, -, -, -, -, -, -, -, -, -, -, -, -, -, e0, e1⟩ := idx_facts t
  funext y
  rw [View.read_apply]
  show blkAn m c (pt t) y = GAn m c (((cfg0.win 7).blk t).view.emb y)
  refine (GAn_at m c (pt t) y _ ?_).symm
  show win0_7.index t (0 : Fin 2) * 256 + 1 * (y 0).val = 256 * t.val + (y 0).val
  rw [e0]; omega

/-- An index of the array is in point `t`'s block iff each coordinate is in the block's range on its axis. -/
theorem mem_blk7 (t : Fin cfg0.N) (i : S4096x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v7_1).slice (win0_7.rect t)).set ↔ _
  rw [View.set_slice_whole, Rect.mem_set_unit]
  exact Iff.rfl

/-- Row `256 t + r` is in point `t`'s block. -/
theorem brow_mem7 (t : Fin 16) (r : Fin 256) : (ix2 (brow t r) 0 : S4096x1.Idx) ∈ ((cfg0.win 7).blk (tp t)).view.set := by
  obtain ⟨-, -, -, -, -, -, -, -, -, -, -, -, -, -, e0, e1⟩ := idx_facts (tp t)
  have ht : (tp t).val = t.val := rfl
  rw [mem_blk7]
  intro a
  match a with
  | ⟨0, _⟩ =>
    show win0_7.index (tp t) (0 : Fin 2) * 256 ≤ 256 * t.val + r.val ∧ 256 * t.val + r.val < win0_7.index (tp t) (0 : Fin 2) * 256 + 256
    rw [e0, ht]; omega
  | ⟨1, _⟩ =>
    show win0_7.index (tp t) (1 : Fin 2) * 1 ≤ 0 ∧ 0 < win0_7.index (tp t) (1 : Fin 2) * 1 + 1
    rw [e1]; omega

/-- When the region is left, row `256 t + r` of the result array is row `r` of the stored value at point `t`. -/
theorem finalAn_at (c : Dev nD) (t : Fin 16) (r : Fin 256) :
    Run.finalAn m c (ix2 (brow t r) 0) = blkAn m c t (ix2 r 0) := by
  have h := (dats m 0 c).arrAt_apply_of_mem 7 (GAn m c) (fun t _ => flushedAn_eq m c t) cfg0.N (tp t)
    (ix2 (brow t r) 0) (tp t).isLt (flush0_7 (tp t)) (brow_mem7 t r)
  exact h.trans (GAn_at m c t (ix2 r 0) (ix2 (brow t r) 0) rfl)

/-! ## The two statements -/

/-- Row `256 t + r` of the first result array is row `r` of the positive-side stored value of the vectors point `t` loads. -/
theorem finalAp_blk (c : Dev nD) (t : Fin 16) (r : Fin 256) :
    Run.finalAp m c (ix2 (brow t r) 0)
      = Pay.payAp (F := Ideal) (qblk (Run.V m c main_v0) t) (ablk (Run.V m c main_v3) t) (tblk (Run.V m c main_v5) t)
        (kchunk (Run.V m c main_v0) 0) (schunk (Run.V m c main_v4) 0) (uchunk (Run.V m c main_v6) 0)
        (kchunk (Run.V m c main_v0) 1) (schunk (Run.V m c main_v4) 1) (uchunk (Run.V m c main_v6) 1)
        (kchunk (Run.V m c main_v0) 2) (schunk (Run.V m c main_v4) 2) (uchunk (Run.V m c main_v6) 2)
        (kchunk (Run.V m c main_v0) 3) (schunk (Run.V m c main_v4) 3) (uchunk (Run.V m c main_v6) 3) (ix2 r 0) :=
  finalAp_at m c t r

/-- Row `256 t + r` of the second result array is row `r` of the negative-side stored value of the vectors point `t` loads. -/
theorem finalAn_blk (c : Dev nD) (t : Fin 16) (r : Fin 256) :
    Run.finalAn m c (ix2 (brow t r) 0)
      = Pay.payAn (F := Ideal) (qblk (Run.V m c main_v0) t) (ablk (Run.V m c main_v3) t) (tblk (Run.V m c main_v5) t)
        (kchunk (Run.V m c main_v0) 0) (schunk (Run.V m c main_v4) 0) (uchunk (Run.V m c main_v6) 0)
        (kchunk (Run.V m c main_v0) 1) (schunk (Run.V m c main_v4) 1) (uchunk (Run.V m c main_v6) 1)
        (kchunk (Run.V m c main_v0) 2) (schunk (Run.V m c main_v4) 2) (uchunk (Run.V m c main_v6) 2)
        (kchunk (Run.V m c main_v0) 3) (schunk (Run.V m c main_v4) 3) (uchunk (Run.V m c main_v6) 3) (ix2 r 0) :=
  finalAn_at m c t r

end Cert.KernelIdeal.KArr

end
-- ==== Proof.RowI.lean ====
/-
  One row of what the kernel body stores, at the ideal values, is the streaming form of the softmax-weighted sum.

  Row `r` of the block has squared norm `a r` and label `t r`; chunk `c` has key rows `K c`, squared norms `s c` and
  labels `u c`. The distance of row `r` to column `j` of chunk `c` is `√(max ε (a r + s c j - 2 ⟨q r, K c j⟩))`; the positive
  side scores it by itself where the labels agree and by `⊥` elsewhere, the negative side by `⊥` where they agree and by its
  negative elsewhere. The body's four unrolled chunk updates are the four steps of `OnlineSoftmax.online`.
-/
import proofs.«416752_j76579266888382_3_alg».proof.Proof.PayI
import proofs.«416752_j76579266888382_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.SL.Sem Idealize.ShloMosaic.ValueIdx

section Composite
variable {F : FTy → Type} [FloatOps F] [Named F]

/-- One chunk's clipped distances as a [256, 1024] vector. -/
def vdist (q : FVec F S256x2048 .bf16) (a : FVec F S256x1024 .f32) (k : Vec F S1024x2048 .bf16) (s : Vec F S1x1024 .f32) :
    FVec F S256x1024 .f32 :=
  sqrt (maximumf (broadcast S256x1024 (Scalar.ofBits .f32 0x2B8CBCCC#32))
    (subf (addf a (broadcastTo S256x1024 (shapeCast S1x1024 s shapeCasts_S1x1024_S1x1024) broadcasts_S1x1024_S256x1024))
      (mulf (broadcast S256x1024 (Scalar.ofBits .f32 0x40000000#32))
        (matmul dot_S256x2048_S1024x2048_S256x1024_1_1_0_0_n_n none q
          (shapeCast S1024x2048 k shapeCasts_S1024x2048_S1024x2048) (constant S256x1024 .f32 0x00000000#32)))))

/-- One chunk's label-agreement mask. -/
def vmask (t : IVec S256x1024 32) (u : Vec F S1x1024 .i32) : IVec S256x1024 1 :=
  cmpi .eq t (broadcastTo S256x1024 (shapeCast S1x1024 u shapeCasts_S1x1024_S1x1024) broadcasts_S1x1024_S256x1024)

/-- Positive-side scores. -/
def vpos (c : IVec S256x1024 1) (d : FVec F S256x1024 .f32) : FVec F S256x1024 .f32 :=
  select c d (broadcast S256x1024 (Named.named κ "neg_big" 0xFF333332#32))

/-- Negative-side scores. -/
def vneg (c : IVec S256x1024 1) (d : FVec F S256x1024 .f32) : FVec F S256x1024 .f32 :=
  select c (broadcast S256x1024 (Named.named κ "neg_big" 0xFF333332#32))
    (subf (broadcast S256x1024 (Scalar.ofBits .f32 0x00000000#32)) d)

/-- The new running maximum. -/
def vmax (m : FVec F S256x1 .f32) (x : FVec F S256x1024 .f32) : FVec F S256x1 .f32 :=
  maximumf m (shapeCast S256x1 (multiReduction .maximumf [1] S256 x 0xFF800000#32 reduces_S256x1024_S256 (.inl rfl) rfl)
    shapeCasts_S256_S256x1)

/-- The rescaling factor. -/
def valpha (m : FVec F S256x1 .f32) (x : FVec F S256x1024 .f32) : FVec F S256x1 .f32 :=
  exp (subf m (vmax m x))

/-- The chunk's exponentials. -/
def vp (m : FVec F S256x1 .f32) (x : FVec F S256x1024 .f32) : FVec F S256x1024 .f32 :=
  exp (subf x (broadcastTo S256x1024 (vmax m x) broadcasts_S256x1_S256x1024))

/-- The new normaliser. -/
def vl (m l : FVec F S256x1 .f32) (x : FVec F S256x1024 .f32) : FVec F S256x1 .f32 :=
  addf (mulf (valpha m x) l)
    (shapeCast S256x1 (multiReduction .add [1] S256 (vp m x) 0x00000000#32 reduces_S256x1024_S256 (.inl rfl) rfl)
      shapeCasts_S256_S256x1)

/-- The new weighted sum. -/
def vw (m w : FVec F S256x1 .f32) (x d : FVec F S256x1024 .f32) : FVec F S256x1 .f32 :=
  addf (mulf (valpha m x) w)
    (shapeCast S256x1 (multiReduction .add [1] S256 (mulf (vp m x) d) 0x00000000#32 reduces_S256x1024_S256 (.inl rfl) rfl)
      shapeCasts_S256_S256x1)

/-- One chunk's update of the (maximum, normaliser, weighted sum) state. -/
def vstep (s : FVec F S256x1 .f32 × FVec F S256x1 .f32 × FVec F S256x1 .f32) (x d : FVec F S256x1024 .f32) :
    FVec F S256x1 .f32 × FVec F S256x1 .f32 × FVec F S256x1 .f32 :=
  (vmax s.1 x, vl s.1 s.2.1 x, vw s.1 s.2.2 x d)

/-- The state before any chunk. -/
def vinit : FVec F S256x1 .f32 × FVec F S256x1 .f32 × FVec F S256x1 .f32 :=
  (broadcast S256x1 (Named.named κ "neg_big" 0xFF333332#32), broadcast S256x1 (Scalar.ofBits .f32 0x00000000#32),
    broadcast S256x1 (Scalar.ofBits .f32 0x00000000#32))

section
variable (v0 : Vec F S256x2048 .bf16) (v2 : Vec F S256x1 .f32) (v4 : Vec F S256x1 .i32)
    (v16 : Vec F S1024x2048 .bf16) (v18 : Vec F S1x1024 .f32) (v20 : Vec F S1x1024 .i32)
    (v73 : Vec F S1024x2048 .bf16) (v75 : Vec F S1x1024 .f32) (v77 : Vec F S1x1024 .i32)
    (v130 : Vec F S1024x2048 .bf16) (v132 : Vec F S1x1024 .f32) (v134 : Vec F S1x1024 .i32)
    (v187 : Vec F S1024x2048 .bf16) (v189 : Vec F S1x1024 .f32) (v191 : Vec F S1x1024 .i32)

/-- The state after the four chunks, positive side. -/
def vfinalP : FVec F S256x1 .f32 × FVec F S256x1 .f32 × FVec F S256x1 .f32 :=
  vstep (vstep (vstep (vstep vinit
    (vpos (vmask (k0_pay5 v4) v20) (vdist (k0_pay3 v0) (k0_pay4 v2) v16 v18)) (vdist (k0_pay3 v0) (k0_pay4 v2) v16 v18))
    (vpos (vmask (k0_pay5 v4) v77) (vdist (k0_pay3 v0) (k0_pay4 v2) v73 v75)) (vdist (k0_pay3 v0) (k0_pay4 v2) v73 v75))
    (vpos (vmask (k0_pay5 v4) v134) (vdist (k0_pay3 v0) (k0_pay4 v2) v130 v132)) (vdist (k0_pay3 v0) (k0_pay4 v2) v130 v132))
    (vpos (vmask (k0_pay5 v4) v191) (vdist (k0_pay3 v0) (k0_pay4 v2) v187 v189)) (vdist (k0_pay3 v0) (k0_pay4 v2) v187 v189)

/-- The state after the four chunks, negative side. -/
def vfinalN : FVec F S256x1 .f32 × FVec F S256x1 .f32 × FVec F S256x1 .f32 :=
  vstep (vstep (vstep (vstep vinit
    (vneg (vmask (k0_pay5 v4) v20) (vdist (k0_pay3 v0) (k0_pay4 v2) v16 v18)) (vdist (k0_pay3 v0) (k0_pay4 v2) v16 v18))
    (vneg (vmask (k0_pay5 v4) v77) (vdist (k0_pay3 v0) (k0_pay4 v2) v73 v75)) (vdist (k0_pay3 v0) (k0_pay4 v2) v73 v75))
    (vneg (vmask (k0_pay5 v4) v134) (vdist (k0_pay3 v0) (k0_pay4 v2) v130 v132)) (vdist (k0_pay3 v0) (k0_pay4 v2) v130 v132))
    (vneg (vmask (k0_pay5 v4) v191) (vdist (k0_pay3 v0) (k0_pay4 v2) v187 v189)) (vdist (k0_pay3 v0) (k0_pay4 v2) v187 v189)

/-- The positive-side stored value is the weighted sum over the normaliser of the final state. -/
theorem payAp_eq :
    Pay.payAp v0 v2 v4 v16 v18 v20 v73 v75 v77 v130 v132 v134 v187 v189 v191
      = divf (vfinalP v0 v2 v4 v16 v18 v20 v73 v75 v77 v130 v132 v134 v187 v189 v191).2.2
          (vfinalP v0 v2 v4 v16 v18 v20 v73 v75 v77 v130 v132 v134 v187 v189 v191).2.1 := rfl

/-- The negative-side stored value is the weighted sum over the normaliser of the final state. -/
theorem payAn_eq :
    Pay.payAn v0 v2 v4 v16 v18 v20 v73 v75 v77 v130 v132 v134 v187 v189 v191
      = divf (vfinalN v0 v2 v4 v16 v18 v20 v73 v75 v77 v130 v132 v134 v187 v189 v191).2.2
          (vfinalN v0 v2 v4 v16 v18 v20 v73 v75 v77 v130 v132 v134 v187 v189 v191).2.1 := rfl
end

end Composite

/-! ## Layout operations and reductions read at a row -/

section RowRead
variable {α : Type}

/-- A [256] vector viewed as a [256, 1] column reads, at (r, 0), the vector at r. -/
theorem cast_col (v : S256.Idx → α) (r : Fin 256) :
    shapeCast S256x1 v shapeCasts_S256_S256x1 (ix2 r (0 : Fin 1)) = v (ix1 r) :=
  shapeCast_apply v _ _ _ (by
    rw [Shape.rowMajor_val_one, Shape.rowMajor_val_two]
    show r.val = r.val * 1 + 0
    omega)

/-- A [256, 1] column broadcast along the columns reads, at (r, j), the column at (r, 0). -/
theorem bcast_col (m : S256x1.Idx → α) (r : Fin 256) (j : Fin 1024) :
    broadcastTo S256x1024 m broadcasts_S256x1_S256x1024 (ix2 r j) = m (ix2 r (0 : Fin 1)) :=
  broadcastTo_apply m _ _ _ (fun a => match a with
    | ⟨0, _⟩ => by show r.val = if (256 : Nat) = 1 then 0 else r.val; rw [if_neg (by decide)]
    | ⟨1, _⟩ => by show 0 = if (1 : Nat) = 1 then 0 else j.val; rw [if_pos rfl])

/-- A [1, 1024] row broadcast down the rows reads, at (r, j), the row at (0, j). -/
theorem bcast_row (s : S1x1024.Idx → α) (r : Fin 256) (j : Fin 1024) :
    broadcastTo S256x1024 s broadcasts_S1x1024_S256x1024 (ix2 r j) = s (ix2 (0 : Fin 1) j) :=
  broadcastTo_1b_ab_apply s _ r j

/-- The index over row r with column j inserted is (r, j). -/
theorem lift_row (r : Fin 256) (j : Fin 1024) :
    reduces_S256x1024_S256.lift (ix1 r) j = ix2 r j :=
  funext fun c => Fin.ext (by match c with | ⟨0, _⟩ => rfl | ⟨1, _⟩ => rfl)

end RowRead

/-- The word of minus infinity is the bottom element. -/
theorem ofBits_neg_inf : Ideal.ofBits .f32 0xFF800000#32 = ⊥ := by simp [Ideal.ofBits, Ideal.ieee]

/-- The row maximum from minus infinity, at row r, is the supremum of the row. -/
theorem rowmax_apply (x : FVec Ideal S256x1024 .f32) (r : Fin 256) :
    multiReduction (F := Ideal) .maximumf [1] S256 x 0xFF800000#32 reduces_S256x1024_S256 (.inl rfl) rfl (ix1 r)
      = Finset.univ.sup fun j : Fin 1024 => x (ix2 r j) := by
  refine (Ideal.multiReduction_maximumf_single x 0xFF800000#32 reduces_S256x1024_S256 (.inl rfl) rfl (ix1 r)).trans ?_
  show (Finset.univ : Finset (Fin 1024)).fold max (Ideal.ofBits .f32 0xFF800000#32) (x ∘ reduces_S256x1024_S256.lift (ix1 r)) = _
  rw [ofBits_neg_inf]
  have : (x ∘ reduces_S256x1024_S256.lift (ix1 r)) = fun j : Fin 1024 => x (ix2 r j) :=
    funext fun j : Fin 1024 => congrArg x (lift_row r j)
  rw [this]
  rfl

/-- The row sum, at row r, is the sum of the row. -/
theorem rowsum_apply (x : FVec Ideal S256x1024 .f32) (r : Fin 256) :
    multiReduction (F := Ideal) .add [1] S256 x 0x00000000#32 reduces_S256x1024_S256 (.inl rfl) rfl (ix1 r)
      = ∑ j : Fin 1024, x (ix2 r j) := by
  refine (Ideal.multiReduction_add_single x 0x00000000#32 reduces_S256x1024_S256 (.inl rfl) rfl (ix1 r)).trans ?_
  show ∑ j : Fin 1024, x (reduces_S256x1024_S256.lift (ix1 r) j) = _
  exact Finset.sum_congr rfl fun j _ => congrArg x (lift_row r j)

/-! ## One chunk's update read at a row -/

section StepRow
variable (m l w : FVec Ideal S256x1 .f32) (x d : FVec Ideal S256x1024 .f32) (r : Fin 256)

/-- The new running maximum at row r. -/
theorem vmax_row :
    vmax m x (ix2 r (0 : Fin 1)) = max (m (ix2 r (0 : Fin 1))) (Finset.univ.sup fun j : Fin 1024 => x (ix2 r j)) :=
  congrArg (max (m (ix2 r (0 : Fin 1)))) ((cast_col _ r).trans (rowmax_apply x r))

/-- The rescaling factor at row r. -/
theorem valpha_row :
    valpha m x (ix2 r (0 : Fin 1))
      = Ideal.exp (m (ix2 r (0 : Fin 1)) - max (m (ix2 r (0 : Fin 1))) (Finset.univ.sup fun j : Fin 1024 => x (ix2 r j))) :=
  congrArg (fun t => Ideal.exp (m (ix2 r (0 : Fin 1)) - t)) (vmax_row m x r)

/-- The chunk's exponentials at (r, j). -/
theorem vp_row (j : Fin 1024) :
    vp m x (ix2 r j)
      = Ideal.exp (x (ix2 r j) - max (m (ix2 r (0 : Fin 1))) (Finset.univ.sup fun j : Fin 1024 => x (ix2 r j))) :=
  congrArg (fun t => Ideal.exp (x (ix2 r j) - t)) ((bcast_col _ r j).trans (vmax_row m x r))

/-- The new normaliser at row r. -/
theorem vl_row :
    vl m l x (ix2 r (0 : Fin 1))
      = Ideal.exp (m (ix2 r (0 : Fin 1)) - max (m (ix2 r (0 : Fin 1))) (Finset.univ.sup fun j : Fin 1024 => x (ix2 r j)))
            * l (ix2 r (0 : Fin 1))
          + ∑ j : Fin 1024,
              Ideal.exp (x (ix2 r j) - max (m (ix2 r (0 : Fin 1))) (Finset.univ.sup fun j : Fin 1024 => x (ix2 r j))) :=
  congrArg₂ (· + ·) (congrArg (· * l (ix2 r (0 : Fin 1))) (valpha_row m x r))
    ((cast_col _ r).trans ((rowsum_apply _ r).trans (Finset.sum_congr rfl fun j _ => vp_row m x r j)))

/-- The new weighted sum at row r. -/
theorem vw_row :
    vw m w x d (ix2 r (0 : Fin 1))
      = Ideal.exp (m (ix2 r (0 : Fin 1)) - max (m (ix2 r (0 : Fin 1))) (Finset.univ.sup fun j : Fin 1024 => x (ix2 r j)))
            * w (ix2 r (0 : Fin 1))
          + ∑ j : Fin 1024,
              Ideal.exp (x (ix2 r j) - max (m (ix2 r (0 : Fin 1))) (Finset.univ.sup fun j : Fin 1024 => x (ix2 r j)))
                * d (ix2 r j) :=
  congrArg₂ (· + ·) (congrArg (· * w (ix2 r (0 : Fin 1))) (valpha_row m x r))
    ((cast_col _ r).trans ((rowsum_apply _ r).trans
      (Finset.sum_congr rfl fun j _ => congrArg (· * d (ix2 r j)) (vp_row m x r j))))

end StepRow

/-- Row r of a state of three [256, 1] vectors. -/
def rowOf (s : FVec Ideal S256x1 .f32 × FVec Ideal S256x1 .f32 × FVec Ideal S256x1 .f32) (r : Fin 256) :
    EReal × EReal × EReal :=
  (s.1 (ix2 r (0 : Fin 1)), s.2.1 (ix2 r (0 : Fin 1)), s.2.2 (ix2 r (0 : Fin 1)))

/-- Row r of the updated state is the streaming step on row r of the state and of the chunk's scores and weights. -/
theorem rowOf_vstep (s : FVec Ideal S256x1 .f32 × FVec Ideal S256x1 .f32 × FVec Ideal S256x1 .f32)
    (x d : FVec Ideal S256x1024 .f32) (r : Fin 256) :
    rowOf (vstep s x d) r = OnlineSoftmax.step (rowOf s r) (fun j : Fin 1024 => x (ix2 r j)) (fun j : Fin 1024 => d (ix2 r j)) :=
  Prod.ext (vmax_row s.1 x r) (Prod.ext (vl_row s.1 s.2.1 x r) (vw_row s.1 s.2.2 x d r))

/-- The fill constant is the bottom element. -/
theorem neg_big_eq : Named.named (F := Ideal) κ "neg_big" (φ := .f32) 0xFF333332#32 = ⊥ :=
  IdealRules.named_const.ideal_named_scalar _ _ _ _ rfl

/-- Row r of the state before any chunk is the streaming form's initial state. -/
theorem rowOf_vinit (r : Fin 256) : rowOf (vinit (F := Ideal)) r = OnlineSoftmax.init :=
  Prod.ext neg_big_eq (Prod.ext Ideal.ofBits_zero_f32 Ideal.ofBits_zero_f32)

/-- The clipped distance of block row `r` to chunk column `j`, from the block's bf16 rows `q` and squared norms `a` and the
    chunk's key rows `k` and squared norms `s`. -/
def cdist (q : Vec Ideal S256x2048 .bf16) (a : Vec Ideal S256x1 .f32) (k : Vec Ideal S1024x2048 .bf16) (s : Vec Ideal S1x1024 .f32)
    (r : Fin 256) (j : Fin 1024) : EReal :=
  Ideal.sqrt (max TripletSpec.eps (a (ix2 r 0) + s (ix2 0 j) - TripletSpec.two * ∑ d : Fin 2048, q (ix2 r d) * k (ix2 j d)))

/-- The positive-side score: the distance where the labels agree, `⊥` elsewhere. -/
def spos (t : Vec Ideal S256x1 .i32) (u : Vec Ideal S1x1024 .i32) (dist : Fin 256 → Fin 1024 → EReal) (r : Fin 256) (j : Fin 1024) : EReal :=
  if t (ix2 r 0) = u (ix2 0 j) then dist r j else ⊥

/-- The negative-side score: `⊥` where the labels agree, minus the distance elsewhere. -/
def sneg (t : Vec Ideal S256x1 .i32) (u : Vec Ideal S1x1024 .i32) (dist : Fin 256 → Fin 1024 → EReal) (r : Fin 256) (j : Fin 1024) : EReal :=
  if t (ix2 r 0) = u (ix2 0 j) then ⊥ else -dist r j

/-! ## The product of the block rows with a chunk's key rows, read at an index -/

theorem lhs_dot_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem lhs_dot_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
theorem rhs_dot_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem rhs_dot_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- The product into a zero accumulator, at (r, j), is the inner product of block row r and key row j. -/
theorem dot_apply (q : FVec Ideal S256x2048 .bf16) (k : FVec Ideal S1024x2048 .bf16) (r : Fin 256) (j : Fin 1024) :
    matmul dot_S256x2048_S1024x2048_S256x1024_1_1_0_0_n_n none q k (constant (F := Ideal) S256x1024 .f32 0x00000000#32) (ix2 r j)
      = ∑ d : Fin 2048, q (ix2 r d) * k (ix2 j d) := by
  simp only [matmul]
  rw [Ideal.matmul_constant_zero_apply, ← Equiv.sum_comp (ValueIdx.contrEquiv1 dot_S256x2048_S1024x2048_S256x1024_1_1_0_0_n_n 2048 rfl rfl).symm]
  refine Finset.sum_congr rfl fun d _ => ?_
  have hk := ValueIdx.contrEquiv1_symm_val dot_S256x2048_S1024x2048_S256x1024_1_1_0_0_n_n 2048 rfl rfl d
  have el : dot_S256x2048_S1024x2048_S256x1024_1_1_0_0_n_n.lhsIdx (ix2 r j) ((ValueIdx.contrEquiv1 dot_S256x2048_S1024x2048_S256x1024_1_1_0_0_n_n 2048 rfl rfl).symm d) = ix2 r d := funext fun a => Fin.ext (by
    match a with
    | ⟨0, _⟩ => exact lhs_dot_0 _ _
    | ⟨1, _⟩ => exact (lhs_dot_1 _ _).trans hk)
  have er : dot_S256x2048_S1024x2048_S256x1024_1_1_0_0_n_n.rhsIdx (ix2 r j) ((ValueIdx.contrEquiv1 dot_S256x2048_S1024x2048_S256x1024_1_1_0_0_n_n 2048 rfl rfl).symm d) = ix2 j d := funext fun a => Fin.ext (by
    match a with
    | ⟨0, _⟩ => exact rhs_dot_0 _ _
    | ⟨1, _⟩ => exact (rhs_dot_1 _ _).trans hk)
  rw [el, er]

/-! ## One chunk's distances and scores read at an index -/

/-- The equality comparison of two words is the bit one exactly when they are equal. -/
theorem cmpi_eq_one_iff (a b : BitVec 32) : IntOp.cmpi .eq a b = 1 ↔ a = b := by
  unfold IntOp.cmpi
  by_cases h : a = b
  · simp [h]
  · have hb : (a == b) = false := by simp [h]
    simp only [hb]
    exact ⟨fun h' => absurd h' (by decide), fun h' => absurd h' h⟩

section ChunkRow
variable (v0 : Vec Ideal S256x2048 .bf16) (v2 : Vec Ideal S256x1 .f32) (v4 : Vec Ideal S256x1 .i32)
    (k : Vec Ideal S1024x2048 .bf16) (s : Vec Ideal S1x1024 .f32) (u : Vec Ideal S1x1024 .i32) (r : Fin 256) (j : Fin 1024)

/-- The block's squared norms broadcast along the columns, at (r, j). -/
theorem pay4_apply : k0_pay4 v2 (ix2 r j) = v2 (ix2 r (0 : Fin 1)) := by
  unfold k0_pay4
  rw [shapeCast_self, shapeCast_self]
  exact bcast_col v2 r j

/-- The block's labels broadcast along the columns, at (r, j). -/
theorem pay5_apply : k0_pay5 (F := Ideal) v4 (ix2 r j) = v4 (ix2 r (0 : Fin 1)) := by
  unfold k0_pay5
  rw [shapeCast_self, shapeCast_self]
  exact bcast_col v4 r j

/-- One chunk's distance at (r, j). -/
theorem vdist_apply : vdist (k0_pay3 v0) (k0_pay4 v2) k s (ix2 r j) = cdist v0 v2 k s r j := by
  unfold vdist cdist k0_pay3
  rw [shapeCast_self, shapeCast_self, shapeCast_self]
  show Ideal.sqrt (max (Ideal.ofBits .f32 0x2B8CBCCC#32)
      (k0_pay4 v2 (ix2 r j) + broadcastTo S256x1024 s broadcasts_S1x1024_S256x1024 (ix2 r j)
        - Ideal.ofBits .f32 0x40000000#32
          * matmul dot_S256x2048_S1024x2048_S256x1024_1_1_0_0_n_n none v0 k (constant (F := Ideal) S256x1024 .f32 0x00000000#32) (ix2 r j))) = _
  rw [pay4_apply, bcast_row, dot_apply]
  rfl

/-- The label-agreement bit at (r, j) is set exactly when the labels agree. -/
theorem vmask_apply : vmask (F := Ideal) (k0_pay5 (F := Ideal) v4) u (ix2 r j) = 1 ↔ v4 (ix2 r (0 : Fin 1)) = u (ix2 (0 : Fin 1) j) := by
  unfold vmask
  rw [shapeCast_self]
  show IntOp.cmpi .eq (k0_pay5 (F := Ideal) v4 (ix2 r j)) (broadcastTo S256x1024 u broadcasts_S1x1024_S256x1024 (ix2 r j)) = 1 ↔ _
  rw [pay5_apply, bcast_row]
  exact cmpi_eq_one_iff _ _

/-- The positive-side score at (r, j). -/
theorem vpos_apply (c : IVec S256x1024 1) (dv : FVec Ideal S256x1024 .f32) (dist : Fin 256 → Fin 1024 → EReal)
    (hc : c (ix2 r j) = 1 ↔ v4 (ix2 r (0 : Fin 1)) = u (ix2 (0 : Fin 1) j)) (hd : dv (ix2 r j) = dist r j) :
    vpos c dv (ix2 r j) = spos v4 u dist r j := by
  unfold vpos spos
  show (if c (ix2 r j) = 1 then dv (ix2 r j) else Named.named (F := Ideal) κ "neg_big" (φ := .f32) 0xFF333332#32) = _
  rw [neg_big_eq, hd]
  by_cases h : v4 (ix2 r (0 : Fin 1)) = u (ix2 (0 : Fin 1) j)
  · rw [if_pos (hc.2 h), if_pos h]
  · rw [if_neg (fun h' => h (hc.1 h')), if_neg h]

/-- The negative-side score at (r, j). -/
theorem vneg_apply (c : IVec S256x1024 1) (dv : FVec Ideal S256x1024 .f32) (dist : Fin 256 → Fin 1024 → EReal)
    (hc : c (ix2 r j) = 1 ↔ v4 (ix2 r (0 : Fin 1)) = u (ix2 (0 : Fin 1) j)) (hd : dv (ix2 r j) = dist r j) :
    vneg c dv (ix2 r j) = sneg v4 u dist r j := by
  unfold vneg sneg
  show (if c (ix2 r j) = 1 then Named.named (F := Ideal) κ "neg_big" (φ := .f32) 0xFF333332#32
    else Ideal.ofBits .f32 0x00000000#32 - dv (ix2 r j)) = _
  rw [neg_big_eq, hd, Ideal.ofBits_zero_f32, zero_sub]
  by_cases h : v4 (ix2 r (0 : Fin 1)) = u (ix2 (0 : Fin 1) j)
  · rw [if_pos (hc.2 h), if_pos h]
  · rw [if_neg (fun h' => h (hc.1 h')), if_neg h]

end ChunkRow

/-! ## One chunk's update of the kernel's state, read at a row -/

section ChunkStep
variable (v0 : Vec Ideal S256x2048 .bf16) (v2 : Vec Ideal S256x1 .f32) (v4 : Vec Ideal S256x1 .i32)
    (st : FVec Ideal S256x1 .f32 × FVec Ideal S256x1 .f32 × FVec Ideal S256x1 .f32)
    (k : Vec Ideal S1024x2048 .bf16) (s : Vec Ideal S1x1024 .f32) (u : Vec Ideal S1x1024 .i32) (r : Fin 256)

/-- Positive side: row r after one more chunk is the streaming step over the chunk's positive-side scores and distances. -/
theorem rowOf_chunkP :
    rowOf (vstep st (vpos (vmask (F := Ideal) (k0_pay5 (F := Ideal) v4) u) (vdist (k0_pay3 v0) (k0_pay4 v2) k s))
        (vdist (k0_pay3 v0) (k0_pay4 v2) k s)) r
      = OnlineSoftmax.step (rowOf st r) (fun j : Fin 1024 => spos v4 u (cdist v0 v2 k s) r j)
          (fun j : Fin 1024 => cdist v0 v2 k s r j) := by
  refine (rowOf_vstep _ _ _ r).trans ?_
  have hx : (fun j : Fin 1024 => vpos (vmask (F := Ideal) (k0_pay5 (F := Ideal) v4) u) (vdist (k0_pay3 v0) (k0_pay4 v2) k s) (ix2 r j))
      = fun j : Fin 1024 => spos v4 u (cdist v0 v2 k s) r j :=
    funext fun j => vpos_apply v4 u r j _ _ _ (vmask_apply v4 u r j) (vdist_apply v0 v2 k s r j)
  have hd : (fun j : Fin 1024 => vdist (k0_pay3 v0) (k0_pay4 v2) k s (ix2 r j)) = fun j : Fin 1024 => cdist v0 v2 k s r j :=
    funext fun j => vdist_apply v0 v2 k s r j
  rw [hx, hd]

/-- Negative side: row r after one more chunk is the streaming step over the chunk's negative-side scores and distances. -/
theorem rowOf_chunkN :
    rowOf (vstep st (vneg (vmask (F := Ideal) (k0_pay5 (F := Ideal) v4) u) (vdist (k0_pay3 v0) (k0_pay4 v2) k s))
        (vdist (k0_pay3 v0) (k0_pay4 v2) k s)) r
      = OnlineSoftmax.step (rowOf st r) (fun j : Fin 1024 => sneg v4 u (cdist v0 v2 k s) r j)
          (fun j : Fin 1024 => cdist v0 v2 k s r j) := by
  refine (rowOf_vstep _ _ _ r).trans ?_
  have hx : (fun j : Fin 1024 => vneg (vmask (F := Ideal) (k0_pay5 (F := Ideal) v4) u) (vdist (k0_pay3 v0) (k0_pay4 v2) k s) (ix2 r j))
      = fun j : Fin 1024 => sneg v4 u (cdist v0 v2 k s) r j :=
    funext fun j => vneg_apply v4 u r j _ _ _ (vmask_apply v4 u r j) (vdist_apply v0 v2 k s r j)
  have hd : (fun j : Fin 1024 => vdist (k0_pay3 v0) (k0_pay4 v2) k s (ix2 r j)) = fun j : Fin 1024 => cdist v0 v2 k s r j :=
    funext fun j => vdist_apply v0 v2 k s r j
  rw [hx, hd]

end ChunkStep

/-- The quotient of the weighted sum by the normaliser, at row r, from row r of the state. -/
theorem divf_rowOf (S : FVec Ideal S256x1 .f32 × FVec Ideal S256x1 .f32 × FVec Ideal S256x1 .f32) (r : Fin 256) :
    divf S.2.2 S.2.1 (ix2 r (0 : Fin 1)) = Ideal.div (rowOf S r).2.2 (rowOf S r).2.1 := rfl

section FinalState
variable (v0 : Vec Ideal S256x2048 .bf16) (v2 : Vec Ideal S256x1 .f32) (v4 : Vec Ideal S256x1 .i32)
    (v16 : Vec Ideal S1024x2048 .bf16) (v18 : Vec Ideal S1x1024 .f32) (v20 : Vec Ideal S1x1024 .i32)
    (v73 : Vec Ideal S1024x2048 .bf16) (v75 : Vec Ideal S1x1024 .f32) (v77 : Vec Ideal S1x1024 .i32)
    (v130 : Vec Ideal S1024x2048 .bf16) (v132 : Vec Ideal S1x1024 .f32) (v134 : Vec Ideal S1x1024 .i32)
    (v187 : Vec Ideal S1024x2048 .bf16) (v189 : Vec Ideal S1x1024 .f32) (v191 : Vec Ideal S1x1024 .i32) (r : Fin 256)

/-- Row r of the positive side's final state: four streaming steps from the initial state. -/
theorem rowOf_vfinalP :
    rowOf (vfinalP v0 v2 v4 v16 v18 v20 v73 v75 v77 v130 v132 v134 v187 v189 v191) r
      = OnlineSoftmax.step (OnlineSoftmax.step (OnlineSoftmax.step (OnlineSoftmax.step OnlineSoftmax.init
          (fun j : Fin 1024 => spos v4 v20 (cdist v0 v2 v16 v18) r j) (fun j : Fin 1024 => cdist v0 v2 v16 v18 r j))
          (fun j : Fin 1024 => spos v4 v77 (cdist v0 v2 v73 v75) r j) (fun j : Fin 1024 => cdist v0 v2 v73 v75 r j))
          (fun j : Fin 1024 => spos v4 v134 (cdist v0 v2 v130 v132) r j) (fun j : Fin 1024 => cdist v0 v2 v130 v132 r j))
          (fun j : Fin 1024 => spos v4 v191 (cdist v0 v2 v187 v189) r j) (fun j : Fin 1024 => cdist v0 v2 v187 v189 r j) := by
  unfold vfinalP
  rw [rowOf_chunkP, rowOf_chunkP, rowOf_chunkP, rowOf_chunkP, rowOf_vinit]

/-- Row r of the negative side's final state: four streaming steps from the initial state. -/
theorem rowOf_vfinalN :
    rowOf (vfinalN v0 v2 v4 v16 v18 v20 v73 v75 v77 v130 v132 v134 v187 v189 v191) r
      = OnlineSoftmax.step (OnlineSoftmax.step (OnlineSoftmax.step (OnlineSoftmax.step OnlineSoftmax.init
          (fun j : Fin 1024 => sneg v4 v20 (cdist v0 v2 v16 v18) r j) (fun j : Fin 1024 => cdist v0 v2 v16 v18 r j))
          (fun j : Fin 1024 => sneg v4 v77 (cdist v0 v2 v73 v75) r j) (fun j : Fin 1024 => cdist v0 v2 v73 v75 r j))
          (fun j : Fin 1024 => sneg v4 v134 (cdist v0 v2 v130 v132) r j) (fun j : Fin 1024 => cdist v0 v2 v130 v132 r j))
          (fun j : Fin 1024 => sneg v4 v191 (cdist v0 v2 v187 v189) r j) (fun j : Fin 1024 => cdist v0 v2 v187 v189 r j) := by
  unfold vfinalN
  rw [rowOf_chunkN, rowOf_chunkN, rowOf_chunkN, rowOf_chunkN, rowOf_vinit]

end FinalState

section
variable (v0 : Vec Ideal S256x2048 .bf16) (v2 : Vec Ideal S256x1 .f32) (v4 : Vec Ideal S256x1 .i32)
    (v16 : Vec Ideal S1024x2048 .bf16) (v18 : Vec Ideal S1x1024 .f32) (v20 : Vec Ideal S1x1024 .i32)
    (v73 : Vec Ideal S1024x2048 .bf16) (v75 : Vec Ideal S1x1024 .f32) (v77 : Vec Ideal S1x1024 .i32)
    (v130 : Vec Ideal S1024x2048 .bf16) (v132 : Vec Ideal S1x1024 .f32) (v134 : Vec Ideal S1x1024 .i32)
    (v187 : Vec Ideal S1024x2048 .bf16) (v189 : Vec Ideal S1x1024 .f32) (v191 : Vec Ideal S1x1024 .i32)

/-- The four chunks' key rows, squared norms and labels, as families over the chunk index. -/
def keys : Fin 4 → Vec Ideal S1024x2048 .bf16 := fun c => match c with | 0 => v16 | 1 => v73 | 2 => v130 | 3 => v187
def norms : Fin 4 → Vec Ideal S1x1024 .f32 := fun c => match c with | 0 => v18 | 1 => v75 | 2 => v132 | 3 => v189
def labels : Fin 4 → Vec Ideal S1x1024 .i32 := fun c => match c with | 0 => v20 | 1 => v77 | 2 => v134 | 3 => v191

/-- Row `r` of the positive-side stored value is the streaming form over the positive-side scores. -/
theorem payAp_row (r : Fin 256) :
    Pay.payAp (F := Ideal) v0 v2 v4 v16 v18 v20 v73 v75 v77 v130 v132 v134 v187 v189 v191 (ix2 r 0)
      = OnlineSoftmax.online
          (fun c j => spos v4 (labels v20 v77 v134 v191 c) (cdist v0 v2 (keys v16 v73 v130 v187 c) (norms v18 v75 v132 v189 c)) r j)
          (fun c j => cdist v0 v2 (keys v16 v73 v130 v187 c) (norms v18 v75 v132 v189 c) r j) := by
  rw [payAp_eq]
  refine (divf_rowOf _ r).trans ?_
  rw [rowOf_vfinalP]
  rfl

/-- Row `r` of the negative-side stored value is the streaming form over the negative-side scores. -/
theorem payAn_row (r : Fin 256) :
    Pay.payAn (F := Ideal) v0 v2 v4 v16 v18 v20 v73 v75 v77 v130 v132 v134 v187 v189 v191 (ix2 r 0)
      = OnlineSoftmax.online
          (fun c j => sneg v4 (labels v20 v77 v134 v191 c) (cdist v0 v2 (keys v16 v73 v130 v187 c) (norms v18 v75 v132 v189 c)) r j)
          (fun c j => cdist v0 v2 (keys v16 v73 v130 v187 c) (norms v18 v75 v132 v189 c) r j) := by
  rw [payAn_eq]
  refine (divf_rowOf _ r).trans ?_
  rw [rowOf_vfinalN]
  rfl

end

end Cert.KernelIdeal.Row

end
-- ==== Proof.KSpecI.lean ====
/-
  The stored value of the vectors a point loads is the specification's row. The arrays the region finds are the host
  operations' values of the arguments: the bf16 copy of the inputs is the inputs themselves at the ideal values, the
  squared norms are the rows' sums of squares, the labels are the labels; so the block distances and scores are the
  specification's, the body's streaming form is the direct form, and row `256 t + r` has the specification's value. Here the
  inputs' finiteness is used: it makes every distance a positive real.
-/
import proofs.«416752_j76579266888382_3_alg».proof.Proof.RunDefsI
import proofs.«416752_j76579266888382_3_alg».proof.Proof.LoadsI
import proofs.«416752_j76579266888382_3_alg».proof.Proof.RowI
import proofs.«416752_j76579266888382_3_alg».proof.Proof.Spec
import proofs.«416752_j76579266888382_3_alg».proof.Proof.LibOnlineSoftmax
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KSpec

open Cert.KernelIdeal Cert.KernelIdeal.Gen Cert.KernelIdeal.Run Cert.KernelIdeal.Loads
open Idealize.ShloMosaic Idealize.ShloMosaic.TcCoe Idealize.SL.Sem Idealize.ShloMosaic.ValueIdx

variable (m : (ℓ : Loc nD τ sig) → Buf (Elt Ideal) ℓ)

/-! ## The arrays the region finds, read at an index -/

theorem lift_ix (h : S4096x2048.Reduces [1] S4096) (i : Fin 4096) (k : Fin 2048) : h.lift (ix1 i) k = ix2 i k := by
  funext a
  apply Fin.ext
  match a with
  | ⟨0, _⟩ => rfl
  | ⟨1, _⟩ => rfl

/-- The row sums of squares, from zero, are the squared norms. -/
theorem reduce_sq (X : FVec Ideal S4096x2048 .f32) (i : Fin 4096) :
    Host.reduceAdd (F := Ideal) (mulf X X) (constant (F := Ideal) S_ .f32 0x00000000#32) reducesTo_S4096x2048_S4096_d1 h_S_ (ix1 i)
      = TripletSpec.sq X i := by
  show Ideal.hostReduceAdd reducesTo_S4096x2048_S4096_d1 _ (Ideal.ofBits .f32 0x00000000#32) (ix1 i) = _
  rw [Ideal.hostReduceAdd_single reducesTo_S4096x2048_S4096_d1 (by decide) _ _ (ix1 i), Ideal.ofBits_zero_f32, zero_add]
  unfold TripletSpec.sq
  refine Finset.sum_congr rfl fun k _ => ?_
  exact congrArg (fun j => X j * X j) (lift_ix _ i k)

/-- A vector as a column, read at row `i`. -/
theorem col_apply {α : Type} (x : S4096.Idx → α) (h : S4096.ShapeCasts S4096x1) (i : Fin 4096) (u : Fin 1) :
    shapeCast S4096x1 x h (ix2 i u) = x (ix1 i) :=
  shapeCast_apply x h _ _ (by
    have hu : u.val = 0 := by omega
    rw [Shape.rowMajor_val_two, Shape.rowMajor_val_one]
    show i.val = i.val * 1 + u.val
    omega)

/-- A vector as a row, read at column `i`. -/
theorem row_apply {α : Type} (x : S4096.Idx → α) (h : S4096.ShapeCasts S1x4096) (u : Fin 1) (i : Fin 4096) :
    shapeCast S1x4096 x h (ix2 u i) = x (ix1 i) :=
  shapeCast_a_1a_apply x h u i

/-- The bf16 copy of the inputs is the inputs. -/
theorem v0_eq (c : Dev nD) :
    (Run.V m c main_v0 : S4096x2048.Idx → EReal) = (m ((c.tc : Thread nD τ).loc main_arg0) : S4096x2048.Idx → EReal) := by
  dsimp only [Run.V, Gen.hostOps0]
  after_results
  rfl

/-- The squared norms as a column and as a row. -/
theorem v3_apply (c : Dev nD) (i : Fin 4096) (u : Fin 1) :
    (Run.V m c main_v3 : S4096x1.Idx → EReal) (ix2 i u) = TripletSpec.sq (m ((c.tc : Thread nD τ).loc main_arg0)) i := by
  dsimp only [Run.V, Gen.hostOps0]
  after_results
  show shapeCast S4096x1 _ shapeCasts_S4096_S4096x1 (ix2 i u) = _
  rw [col_apply]
  exact reduce_sq _ i

theorem v4_apply (c : Dev nD) (u : Fin 1) (i : Fin 4096) :
    (Run.V m c main_v4 : S1x4096.Idx → EReal) (ix2 u i) = TripletSpec.sq (m ((c.tc : Thread nD τ).loc main_arg0)) i := by
  dsimp only [Run.V, Gen.hostOps0]
  after_results
  show shapeCast S1x4096 _ shapeCasts_S4096_S1x4096 (ix2 u i) = _
  rw [row_apply]
  exact reduce_sq _ i

/-- The labels as a column and as a row. -/
theorem v5_apply (c : Dev nD) (i : Fin 4096) (u : Fin 1) :
    (Run.V m c main_v5 : S4096x1.Idx → BitVec 32) (ix2 i u)
      = (m ((c.tc : Thread nD τ).loc main_arg1) : S4096.Idx → BitVec 32) (ix1 i) := by
  dsimp only [Run.V, Gen.hostOps0]
  after_results
  show shapeCast S4096x1 _ shapeCasts_S4096_S4096x1 (ix2 i u) = _
  rw [col_apply]

theorem v6_apply (c : Dev nD) (u : Fin 1) (i : Fin 4096) :
    (Run.V m c main_v6 : S1x4096.Idx → BitVec 32) (ix2 u i)
      = (m ((c.tc : Thread nD τ).loc main_arg1) : S4096.Idx → BitVec 32) (ix1 i) := by
  dsimp only [Run.V, Gen.hostOps0]
  after_results
  show shapeCast S1x4096 _ shapeCasts_S4096_S1x4096 (ix2 u i) = _
  rw [row_apply]

/-- The inputs and the labels, as the specification takes them. -/
abbrev xin (c : Dev nD) : TripletSpec.SX.Idx → EReal := m ((c.tc : Thread nD τ).loc main_arg0)
abbrev tin (c : Dev nD) : TripletSpec.ST.Idx → BitVec 32 := m ((c.tc : Thread nD τ).loc main_arg1)

theorem v0_apply (c : Dev nD) (i : Fin 4096) (k : Fin 2048) :
    (Run.V m c main_v0 : S4096x2048.Idx → EReal) (ix2 i k) = xin m c (ix2 i k) := congrFun (v0_eq m c) _

/-! ## Finiteness: every distance is a positive real -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The clip's lower bound is a positive real and the factor two is a real. -/
theorem eps_pos : ∃ e : ℝ, 0 < e ∧ TripletSpec.eps = (e : EReal) := by
  unfold TripletSpec.eps
  simp [Ideal.ofBits, Ideal.ieee, -EReal.coe_mul]

theorem two_real : ∃ e : ℝ, TripletSpec.two = (e : EReal) := by
  unfold TripletSpec.two
  simp [Ideal.ofBits, Ideal.ieee, -EReal.coe_mul]

section
variable (X : TripletSpec.SX.Idx → EReal) (hX : TripletSpec.Finite X)
include hX

/-- The inner product of two rows of reals is a real. -/
theorem inner_real (i j : Fin 4096) : ∃ y : ℝ, TripletSpec.inner X i j = (y : EReal) := by
  choose f hf using hX
  refine ⟨∑ k : Fin 2048, f (ix2 i k) * f (ix2 j k), ?_⟩
  unfold TripletSpec.inner
  rw [coe_sum]
  refine Finset.sum_congr rfl fun k _ => ?_
  rw [hf, hf, EReal.coe_mul]

theorem sq_real (i : Fin 4096) : ∃ y : ℝ, TripletSpec.sq X i = (y : EReal) := inner_real X hX i i

/-- The clipped distance of two rows of reals is a positive real. -/
theorem dist_pos (i j : Fin 4096) : ∃ y : ℝ, 0 < y ∧ TripletSpec.dist X i j = (y : EReal) := by
  obtain ⟨e, he, hE⟩ := eps_pos
  obtain ⟨w, hw⟩ := two_real
  obtain ⟨a, ha⟩ := sq_real X hX i
  obtain ⟨b, hb⟩ := sq_real X hX j
  obtain ⟨p, hp⟩ := inner_real X hX i j
  have hpos : 0 < max e (a + b - w * p) := lt_max_of_lt_left he
  refine ⟨Real.sqrt (max e (a + b - w * p)), Real.sqrt_pos.2 hpos, ?_⟩
  unfold TripletSpec.dist
  rw [hE, hw, ha, hb, hp, ← EReal.coe_add, ← EReal.coe_mul, ← EReal.coe_sub,
    ← (EReal.coe_strictMono.monotone.map_max (a := e) (b := a + b - w * p)), Ideal.sqrt_coe,
    if_neg (not_lt.2 hpos.le)]

end

/-! ## The block's distances and scores are the specification's -/

section
variable (A0 : Vec Ideal S4096x2048 .bf16) (A3 : Vec Ideal S4096x1 .f32) (A4 : Vec Ideal S1x4096 .f32)
  (A5 : Vec Ideal S4096x1 .i32) (A6 : Vec Ideal S1x4096 .i32)
  (X : TripletSpec.SX.Idx → EReal) (T : TripletSpec.ST.Idx → BitVec 32)

/-- Over arrays that hold the inputs, their squared norms as a column and as a row: the distance of block row `r` to
    column `j` of chunk `cc` is the distance of rows `256 t + r` and `1024 cc + j`. -/
theorem cdist_of (h0 : ∀ i k, A0 (ix2 i k) = X (ix2 i k)) (h3 : ∀ i, A3 (ix2 i 0) = TripletSpec.sq X i)
    (h4 : ∀ i, A4 (ix2 0 i) = TripletSpec.sq X i) (t : Fin 16) (cc : Fin 4) (r : Fin 256) (j : Fin 1024) :
    Row.cdist (qblk A0 t) (ablk A3 t) (kchunk A0 cc) (schunk A4 cc) r j
      = TripletSpec.dist X (brow t r) (TripletSpec.col cc j) := by
  have e1 : ablk A3 t (ix2 r 0) = TripletSpec.sq X (brow t r) := h3 (brow t r)
  have e2 : schunk A4 cc (ix2 0 j) = TripletSpec.sq X (TripletSpec.col cc j) := h4 (TripletSpec.col cc j)
  have e3 : ∑ d : Fin 2048, qblk A0 t (ix2 r d) * kchunk A0 cc (ix2 j d)
      = TripletSpec.inner X (brow t r) (TripletSpec.col cc j) := by
    unfold TripletSpec.inner
    refine Finset.sum_congr rfl fun d _ => ?_
    show A0 (ix2 (brow t r) d) * A0 (ix2 (TripletSpec.col cc j) d) = _
    rw [h0, h0]
  unfold Row.cdist TripletSpec.dist
  rw [e1, e2, e3]

/-- Over arrays that hold the labels as a column and as a row: the block's label test is the specification's. -/
theorem label_of (h5 : ∀ i, A5 (ix2 i 0) = T (ix1 i)) (h6 : ∀ i, A6 (ix2 0 i) = T (ix1 i))
    (t : Fin 16) (cc : Fin 4) (r : Fin 256) (j : Fin 1024) :
    (tblk A5 t (ix2 r 0) = uchunk A6 cc (ix2 0 j)) = (T (ix1 (brow t r)) = T (ix1 (TripletSpec.col cc j))) := by
  have e1 : tblk A5 t (ix2 r 0) = T (ix1 (brow t r)) := h5 (brow t r)
  have e2 : uchunk A6 cc (ix2 0 j) = T (ix1 (TripletSpec.col cc j)) := h6 (TripletSpec.col cc j)
  rw [e1, e2]

end

section
variable (A0 : Vec Ideal S4096x2048 .bf16) (A3 : Vec Ideal S4096x1 .f32) (A4 : Vec Ideal S1x4096 .f32)
  (A5 : Vec Ideal S4096x1 .i32) (A6 : Vec Ideal S1x4096 .i32)
  (X : TripletSpec.SX.Idx → EReal) (T : TripletSpec.ST.Idx → BitVec 32)

/-- The four chunks' vectors, as families over the chunk index, are the chunk's vectors. -/
theorem keys_eq (cc : Fin 4) : Row.keys (kchunk A0 0) (kchunk A0 1) (kchunk A0 2) (kchunk A0 3) cc = kchunk A0 cc := by
  fin_cases cc <;> rfl
theorem norms_eq (cc : Fin 4) : Row.norms (schunk A4 0) (schunk A4 1) (schunk A4 2) (schunk A4 3) cc = schunk A4 cc := by
  fin_cases cc <;> rfl
theorem labels_eq (cc : Fin 4) : Row.labels (uchunk A6 0) (uchunk A6 1) (uchunk A6 2) (uchunk A6 3) cc = uchunk A6 cc := by
  fin_cases cc <;> rfl

section
variable (h0 : ∀ i k, A0 (ix2 i k) = X (ix2 i k)) (h3 : ∀ i, A3 (ix2 i 0) = TripletSpec.sq X i)
  (h4 : ∀ i, A4 (ix2 0 i) = TripletSpec.sq X i) (h5 : ∀ i, A5 (ix2 i 0) = T (ix1 i)) (h6 : ∀ i, A6 (ix2 0 i) = T (ix1 i))
  (t : Fin 16) (r : Fin 256)
include h0 h3 h4

/-- The block's distances by chunk are the specification's. -/
theorem dd_of (cc : Fin 4) (j : Fin 1024) :
    Row.cdist (qblk A0 t) (ablk A3 t) (Row.keys (kchunk A0 0) (kchunk A0 1) (kchunk A0 2) (kchunk A0 3) cc)
        (Row.norms (schunk A4 0) (schunk A4 1) (schunk A4 2) (schunk A4 3) cc) r j
      = TripletSpec.dd X (brow t r) cc j := by
  rw [keys_eq, norms_eq]
  exact cdist_of A0 A3 A4 X h0 h3 h4 t cc r j

include h5 h6

/-- The block's positive-side and negative-side scores are the specification's. -/
theorem xpos_of (cc : Fin 4) (j : Fin 1024) :
    Row.spos (tblk A5 t) (Row.labels (uchunk A6 0) (uchunk A6 1) (uchunk A6 2) (uchunk A6 3) cc)
        (Row.cdist (qblk A0 t) (ablk A3 t) (Row.keys (kchunk A0 0) (kchunk A0 1) (kchunk A0 2) (kchunk A0 3) cc)
          (Row.norms (schunk A4 0) (schunk A4 1) (schunk A4 2) (schunk A4 3) cc)) r j
      = TripletSpec.xpos X T (brow t r) cc j := by
  unfold Row.spos TripletSpec.xpos
  rw [labels_eq]
  exact if_congr (Iff.of_eq (label_of A5 A6 T h5 h6 t cc r j)) (dd_of A0 A3 A4 X h0 h3 h4 t r cc j) rfl

theorem xneg_of (cc : Fin 4) (j : Fin 1024) :
    Row.sneg (tblk A5 t) (Row.labels (uchunk A6 0) (uchunk A6 1) (uchunk A6 2) (uchunk A6 3) cc)
        (Row.cdist (qblk A0 t) (ablk A3 t) (Row.keys (kchunk A0 0) (kchunk A0 1) (kchunk A0 2) (kchunk A0 3) cc)
          (Row.norms (schunk A4 0) (schunk A4 1) (schunk A4 2) (schunk A4 3) cc)) r j
      = TripletSpec.xneg X T (brow t r) cc j := by
  unfold Row.sneg TripletSpec.xneg
  rw [labels_eq]
  exact if_congr (Iff.of_eq (label_of A5 A6 T h5 h6 t cc r j)) rfl
    (congrArg (fun y => -y) (dd_of A0 A3 A4 X h0 h3 h4 t r cc j))

end

end

/-! ## The streaming form over the specification's scores is the specification's row -/

section
variable (X : TripletSpec.SX.Idx → EReal) (T : TripletSpec.ST.Idx → BitVec 32) (hX : TripletSpec.Finite X)
include hX

theorem dist_ne_top (i j : Fin 4096) : TripletSpec.dist X i j ≠ ⊤ := by
  obtain ⟨y, -, hy⟩ := dist_pos X hX i j
  rw [hy]; exact EReal.coe_ne_top y

theorem neg_dist_ne_top (i j : Fin 4096) : -TripletSpec.dist X i j ≠ ⊤ := by
  obtain ⟨y, -, hy⟩ := dist_pos X hX i j
  rw [hy, ← EReal.coe_neg]; exact EReal.coe_ne_top _

theorem online_xpos (i : Fin 4096) :
    OnlineSoftmax.online (TripletSpec.xpos X T i) (TripletSpec.dd X i) = TripletSpec.rowAp X T i := by
  refine OnlineSoftmax.online_eq_soft _ _ (fun cc j => ?_) (fun cc j => dist_pos X hX i (TripletSpec.col cc j))
  unfold TripletSpec.xpos
  split
  · exact dist_ne_top X hX _ _
  · exact bot_ne_top

theorem online_xneg (i : Fin 4096) :
    OnlineSoftmax.online (TripletSpec.xneg X T i) (TripletSpec.dd X i) = TripletSpec.rowAn X T i := by
  refine OnlineSoftmax.online_eq_soft _ _ (fun cc j => ?_) (fun cc j => dist_pos X hX i (TripletSpec.col cc j))
  unfold TripletSpec.xneg
  split
  · exact bot_ne_top
  · exact neg_dist_ne_top X hX _ _

end

/-! ## The stored value's row is the specification's row -/

/-- The positive side. -/
theorem payAp_spec (c : Dev nD) (hfin : TripletSpec.Finite (m ((c.tc : Thread nD τ).loc main_arg0))) (t : Fin 16) (r : Fin 256) :
    Pay.payAp (F := Ideal) (qblk (Run.V m c main_v0) t) (ablk (Run.V m c main_v3) t) (tblk (Run.V m c main_v5) t)
        (kchunk (Run.V m c main_v0) 0) (schunk (Run.V m c main_v4) 0) (uchunk (Run.V m c main_v6) 0)
        (kchunk (Run.V m c main_v0) 1) (schunk (Run.V m c main_v4) 1) (uchunk (Run.V m c main_v6) 1)
        (kchunk (Run.V m c main_v0) 2) (schunk (Run.V m c main_v4) 2) (uchunk (Run.V m c main_v6) 2)
        (kchunk (Run.V m c main_v0) 3) (schunk (Run.V m c main_v4) 3) (uchunk (Run.V m c main_v6) 3) (ix2 r 0)
      = TripletSpec.rowAp (m ((c.tc : Thread nD τ).loc main_arg0)) (m ((c.tc : Thread nD τ).loc main_arg1)) (brow t r) := by
  refine (Row.payAp_row _ _ _ _ _ _ _ _ _ _ _ _ _ _ _ r).trans ?_
  refine Eq.trans ?_ (online_xpos (xin m c) (tin m c) hfin (brow t r))
  refine congrArg₂ OnlineSoftmax.online (funext fun cc => funext fun j => ?_) (funext fun cc => funext fun j => ?_)
  · exact xpos_of (Run.V m c main_v0) (Run.V m c main_v3) (Run.V m c main_v4) (Run.V m c main_v5) (Run.V m c main_v6)
      (xin m c) (tin m c) (v0_apply m c) (fun i => v3_apply m c i 0) (fun i => v4_apply m c 0 i)
      (fun i => v5_apply m c i 0) (fun i => v6_apply m c 0 i) t r cc j
  · exact dd_of (Run.V m c main_v0) (Run.V m c main_v3) (Run.V m c main_v4) (xin m c) (v0_apply m c)
      (fun i => v3_apply m c i 0) (fun i => v4_apply m c 0 i) t r cc j

/-- The negative side. -/
theorem payAn_spec (c : Dev nD) (hfin : TripletSpec.Finite (m ((c.tc : Thread nD τ).loc main_arg0))) (t : Fin 16) (r : Fin 256) :
    Pay.payAn (F := Ideal) (qblk (Run.V m c main_v0) t) (ablk (Run.V m c main_v3) t) (tblk (Run.V m c main_v5) t)
        (kchunk (Run.V m c main_v0) 0) (schunk (Run.V m c main_v4) 0) (uchunk (Run.V m c main_v6) 0)
        (kchunk (Run.V m c main_v0) 1) (schunk (Run.V m c main_v4) 1) (uchunk (Run.V m c main_v6) 1)
        (kchunk (Run.V m c main_v0) 2) (schunk (Run.V m c main_v4) 2) (uchunk (Run.V m c main_v6) 2)
        (kchunk (Run.V m c main_v0) 3) (schunk (Run.V m c main_v4) 3) (uchunk (Run.V m c main_v6) 3) (ix2 r 0)
      = TripletSpec.rowAn (m ((c.tc : Thread nD τ).loc main_arg0)) (m ((c.tc : Thread nD τ).loc main_arg1)) (brow t r) := by
  refine (Row.payAn_row _ _ _ _ _ _ _ _ _ _ _ _ _ _ _ r).trans ?_
  refine Eq.trans ?_ (online_xneg (xin m c) (tin m c) hfin (brow t r))
  refine congrArg₂ OnlineSoftmax.online (funext fun cc => funext fun j => ?_) (funext fun cc => funext fun j => ?_)
  · exact xneg_of (Run.V m c main_v0) (Run.V m c main_v3) (Run.V m c main_v4) (Run.V m c main_v5) (Run.V m c main_v6)
      (xin m c) (tin m c) (v0_apply m c) (fun i => v3_apply m c i 0) (fun i => v4_apply m c 0 i)
      (fun i => v5_apply m c i 0) (fun i => v6_apply m c 0 i) t r cc j
  · exact dd_of (Run.V m c main_v0) (Run.V m c main_v3) (Run.V m c main_v4) (xin m c) (v0_apply m c)
      (fun i => v3_apply m c i 0) (fun i => v4_apply m c 0 i) t r cc j

end Cert.KernelIdeal.KSpec

end
-- ==== Proof.KTailI.lean ====
/-
  The thirteen operations after the region: the two [4096, 1] results reshaped to vectors, their difference plus the
  margin, its positive part, the sum over the rows and the division by the row count — the mean hinge of the two results' rows.
-/
import proofs.«416752_j76579266888382_3_alg».proof.Proof.RunDefsI
import proofs.«416752_j76579266888382_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.ValueIdxRank1
import Idealize.ShloMosaic.Lib.IdealHost

set_option maxRecDepth 16384

noncomputable section

namespace Cert.KernelIdeal.KTail

open Cert.KernelIdeal Cert.KernelIdeal.Gen Cert.KernelIdeal.Run
open Idealize.ShloMosaic Idealize.ShloMosaic.TcCoe Idealize.SL.Sem Idealize.ShloMosaic.ValueIdx

variable (m : (ℓ : Loc nD τ sig) → Buf (Elt Ideal) ℓ)

/-- A column [a, 1] reshaped to a vector [a] reads, at i, the column at (i, 0): both have row-major position i. -/
theorem shapeCast_col_apply {a : ℕ} {α : Type} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The closing operations on two columns: reshaped to vectors, their difference plus the margin, its positive part, summed from
    zero over the rows and divided by the row count: the mean hinge of the columns' entries. -/
theorem hinge_of_columns (ap an : S4096x1.Idx → EReal) (h1 : S4096x1.ShapeCasts S4096)
    (hb : S_.BroadcastsInDim S4096 (![] : Fin 0 → Fin S4096.rank)) (hr : S4096.ReducesTo [0] S_) (hu : 0 < S_.numel) (j : S_.Idx) :
    Host.divf (F := Ideal)
        (Host.reduceAdd (F := Ideal)
          (maximumf (F := Ideal)
            (addf (F := Ideal) (subf (F := Ideal) (shapeCast S4096 ap h1) (shapeCast S4096 an h1))
              (broadcastInDim S4096 ![] hb (constant (F := Ideal) S_ .f32 0x3E99999A#32)))
            (broadcastInDim S4096 ![] hb (constant (F := Ideal) S_ .f32 0x00000000#32)))
          (constant (F := Ideal) S_ .f32 0x00000000#32) hr hu)
        (constant (F := Ideal) S_ .f32 0x45800000#32) j
      = TripletSpec.meanHinge (fun i => ap (ix2 i 0)) (fun i => an (ix2 i 0)) := by
  show Ideal.div (Ideal.hostReduceAdd hr _ (Ideal.ofBits .f32 0x00000000#32) j) (Ideal.ofBits .f32 0x45800000#32) = _
  rw [Ideal.hostReduceAdd_total hr (fun b => b.elim0), Ideal.ofBits_zero_f32, zero_add,
    ← Equiv.sum_comp (idxEquiv1 (n := 4096)).symm]
  unfold TripletSpec.meanHinge TripletSpec.margin TripletSpec.count
  congr 1
  refine Finset.sum_congr rfl fun k _ => ?_
  show max (shapeCast S4096 ap h1 (ix1 k) - shapeCast S4096 an h1 (ix1 k)
        + broadcastInDim S4096 ![] hb (constant (F := Ideal) S_ .f32 0x3E99999A#32) (ix1 k))
      (broadcastInDim S4096 ![] hb (constant (F := Ideal) S_ .f32 0x00000000#32) (ix1 k)) = _
  rw [shapeCast_col_apply, shapeCast_col_apply, broadcastInDim_scalar_apply, broadcastInDim_scalar_apply]
  show max (ap (ix2 k 0) - an (ix2 k 0) + Ideal.ofBits .f32 0x3E99999A#32) (Ideal.ofBits .f32 0x00000000#32) = _
  rw [Ideal.ofBits_zero_f32]

/-- When the region is left the two result references hold the two arrays the region wrote. -/
theorem W_ap (c : Dev nD) : Run.W m c (Proc.devRef .tc main_v7_0) = Run.finalAp m c := by
  unfold Run.W
  rw [Function.update_of_ne (by decide), Function.update_self]

theorem W_an (c : Dev nD) : Run.W m c (Proc.devRef .tc main_v7_1) = Run.finalAn m c := by
  unfold Run.W
  rw [Function.update_self]

/-- The result buffer after the closing operations, from what the region left. -/
theorem tail_eq (c : Dev nD) :
    StableHlo.after hostOps1 (Run.W m c) (Proc.devRef .tc main_v16)
      = fun _ => TripletSpec.meanHinge (fun i => Run.finalAp m c (ix2 i 0)) (fun i => Run.finalAn m c (ix2 i 0)) := by
  show StableHlo.after hostOps1 (Run.W m c) (Proc.devRef .tc main_v16) = _
  dsimp only [Gen.hostOps1]
  after_results
  rw [W_ap, W_an]
  funext j
  exact hinge_of_columns (Run.finalAp m c) (Run.finalAn m c) shapeCasts_S4096x1_S4096 bcast_S_S4096 reducesTo_S4096_S_d0 h_S_ j

end Cert.KernelIdeal.KTail

end
-- ==== Proof.KValueI.lean ====
/-
  The kernel program's result is the specification's: the closing operations give the mean hinge of the two result
  arrays' rows; row `256 t + r` of each is row `r` of what the body stored at point `t`; and that is the specification's
  value of that row.
-/
import proofs.«416752_j76579266888382_3_alg».proof.Proof.KArrI
import proofs.«416752_j76579266888382_3_alg».proof.Proof.KSpecI
import proofs.«416752_j76579266888382_3_alg».proof.Proof.KTailI

noncomputable section

namespace Cert.KernelIdeal.KValue

open Cert.KernelIdeal Cert.KernelIdeal.Gen Cert.KernelIdeal.Run Cert.KernelIdeal.Loads
open Idealize.ShloMosaic Idealize.ShloMosaic.TcCoe Idealize.SL.Sem Idealize.ShloMosaic.ValueIdx

variable (m : (ℓ : Loc nD τ sig) → Buf (Elt Ideal) ℓ)

/-- Every row is row `r` of some block `t`. -/
theorem exists_brow (i : Fin 4096) : ∃ (t : Fin 16) (r : Fin 256), i = brow t r :=
  ⟨⟨i.val / 256, by omega⟩, ⟨i.val % 256, by omega⟩, Fin.ext (by show i.val = 256 * (i.val / 256) + i.val % 256; omega)⟩

/-- The first result array's rows are the specification's positive-side rows. -/
theorem finalAp_row (c : Dev nD) (hfin : TripletSpec.Finite (m ((c.tc : Thread nD τ).loc main_arg0))) (i : Fin 4096) :
    Run.finalAp m c (ix2 i 0)
      = TripletSpec.rowAp (m ((c.tc : Thread nD τ).loc main_arg0)) (m ((c.tc : Thread nD τ).loc main_arg1)) i := by
  obtain ⟨t, r, rfl⟩ := exists_brow i
  rw [KArr.finalAp_blk m c t r, KSpec.payAp_spec m c hfin t r]

/-- The second result array's rows are the specification's negative-side rows. -/
theorem finalAn_row (c : Dev nD) (hfin : TripletSpec.Finite (m ((c.tc : Thread nD τ).loc main_arg0))) (i : Fin 4096) :
    Run.finalAn m c (ix2 i 0)
      = TripletSpec.rowAn (m ((c.tc : Thread nD τ).loc main_arg0)) (m ((c.tc : Thread nD τ).loc main_arg1)) i := by
  obtain ⟨t, r, rfl⟩ := exists_brow i
  rw [KArr.finalAn_blk m c t r, KSpec.payAn_spec m c hfin t r]

/-- The result buffer after the whole program is the specification's loss of the two argument arrays. -/
theorem result_eq (c : Dev nD) (hfin : TripletSpec.Finite (m ((c.tc : Thread nD τ).loc main_arg0))) :
    StableHlo.after hostOps1 (Run.W m c) (Proc.devRef .tc main_v16)
      = fun _ => TripletSpec.loss (m ((c.tc : Thread nD τ).loc main_arg0)) (m ((c.tc : Thread nD τ).loc main_arg1)) := by
  rw [KTail.tail_eq m c]
  funext _
  unfold TripletSpec.loss
  congr 1
  · funext i; exact finalAp_row m c hfin i
  · funext i; exact finalAn_row m c hfin i

end Cert.KernelIdeal.KValue

end
-- ==== Proof.RefValue.lean ====
/-
  The reference's result is the specification's: at every row the softmax-weighted sum of the distances under the
  positive-side and the negative-side scores (`TripletSpec.rowAp`, `rowAn`), then the mean hinge.

  Each stage of the reference is read at an index: the squared norms and the inner products give the clipped distance
  of two rows; the label comparison selects the distance or `⊥` (positive side), `⊥` or minus the distance (negative
  side); a row's maximum from `⊥` is the supremum of the row; the exponentials, their sum and the weighted sum follow.
  The sums and the supremum over the 4096 columns are then taken over the four chunks of 1024 columns
  (column `1024 c + j` is column `j` of chunk `c`), which is the direct softmax form of the specification.
-/
import proofs.«416752_j76579266888382_3_alg».proof.Proof.Gen.ReferenceIdeal.Run
import proofs.«416752_j76579266888382_3_alg».proof.Proof.Gen.ReferenceIdeal.Read
import proofs.«416752_j76579266888382_3_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- The squared norm of row `i`, read off the program's sum. -/
theorem sqnorm_at (x0 : (⟨S4096x2048, .f32⟩ : BufTy).Contents (Elt Ideal)) (i : Fin 4096) :
    Read.val_main_v1 (F := Ideal) x0 (ix1 i) = TripletSpec.sq x0 i := by
  rw [Read.val_main_v1_apply]
  simp only [Read.val_main_cst_apply, Read.val_main_v0_apply, Ideal.ofBits_def, Ideal.mulf_def, Ideal.ofBits_zero_f32, zero_add]
  unfold TripletSpec.sq
  refine Finset.sum_congr rfl fun k _ => ?_
  have e : Read.idx_main_v1 (ix1 i) k = ix2 i k := funext fun a => Fin.ext (by match a with | ⟨0, _⟩ => rfl | ⟨1, _⟩ => rfl)
  rw [e]

/-- The inner product of rows `i` and `j`, read off the program's contraction with the transpose. -/
theorem gram_at (x0 : (⟨S4096x2048, .f32⟩ : BufTy).Contents (Elt Ideal)) (i j : Fin 4096) :
    Read.val_main_v8 (F := Ideal) x0 (ix2 i j) = TripletSpec.inner x0 i j := by
  rw [Read.val_main_v8_apply]
  unfold TripletSpec.inner
  refine Finset.sum_congr rfl fun k _ => ?_
  rw [Read.val_main_v7_apply]
  have el : Read.lidx_main_v8 (ix2 i j) k = ix2 i k := funext fun a => Fin.ext (by match a with | ⟨0, _⟩ => rfl | ⟨1, _⟩ => rfl)
  have er : Read.idx_main_v7 (Read.ridx_main_v8 (ix2 i j) k) = ix2 j k :=
    funext fun a => Fin.ext (by match a with | ⟨0, _⟩ => rfl | ⟨1, _⟩ => rfl)
  rw [el, er]

/-- The clipped distance of rows `i` and `j`, read off the program's square root. -/
theorem dist_at (x0 : (⟨S4096x2048, .f32⟩ : BufTy).Contents (Elt Ideal)) (i j : Fin 4096) :
    Read.val_main_v13 (F := Ideal) x0 (ix2 i j) = TripletSpec.dist x0 i j := by
  rw [Read.val_main_v13_apply, Read.val_main_v12_apply, Read.val_main_call0_v1_apply, Read.val_main_call0_v0_apply, Read.val_main_cst_1_apply,
    Read.val_main_v11_apply, Read.val_main_v6_apply, Read.val_main_v4_apply, Read.val_main_v2_apply, Read.val_main_v5_apply, Read.val_main_v3_apply,
    Read.val_main_v10_apply, Read.val_main_v9_apply, Read.val_main_cst_0_apply, gram_at]
  have e4 : Read.idx_main_v2 (Read.idx_main_v4 (ix2 i j)) = ix1 i := funext fun a => Fin.ext (by match a with | ⟨0, _⟩ => rfl)
  have e5 : Read.idx_main_v3 (Read.idx_main_v5 (ix2 i j)) = ix1 j := funext fun a => Fin.ext (by match a with | ⟨0, _⟩ => rfl)
  rw [e4, e5, sqnorm_at, sqnorm_at]
  simp only [Ideal.hostUnary_sqrt_def, Ideal.maximumf_def, Ideal.subf_def, Ideal.addf_def, Ideal.mulf_def, Ideal.ofBits_def]
  rfl

/-- The `-inf` word is `⊥`. -/
theorem ofBits_neg_inf : Ideal.ofBits .f32 0xFF800000#32 = (⊥ : EReal) := by
  simp [Ideal.ofBits, Ideal.ieee]

/-- A select on the bit of a word comparison is the `if` on the equation. -/
theorem select_cmpi_eq {α : Type} (a b : BitVec 32) (u v : α) :
    Scalar.select (IntOp.cmpi .eq a b) u v = if a = b then u else v := by
  by_cases h : a = b
  · rw [if_pos h, show IntOp.cmpi .eq a b = 1#1 by simp [IntOp.cmpi, h]]; exact select_one u v
  · have hb : (a == b) = false := by simpa using h
    have hz : IntOp.cmpi .eq a b = 0#1 := by simp [IntOp.cmpi, hb]
    rw [if_neg h, hz]; exact select_zero u v

/-- The label comparison of rows `i` and `j`. -/
theorem mask_at (x1 : (⟨S4096, .i32⟩ : BufTy).Contents (Elt Ideal)) (i j : Fin 4096) :
    Read.val_main_v18 (F := Ideal) x1 (ix2 i j) = IntOp.cmpi .eq (x1 (ix1 i)) (x1 (ix1 j)) := by
  rw [Read.val_main_v18_apply, Read.val_main_v16_apply, Read.val_main_v14_apply, Read.val_main_v17_apply, Read.val_main_v15_apply]
  have e16 : Read.idx_main_v14 (Read.idx_main_v16 (ix2 i j)) = ix1 i := funext fun a => Fin.ext (by match a with | ⟨0, _⟩ => rfl)
  have e17 : Read.idx_main_v15 (Read.idx_main_v17 (ix2 i j)) = ix1 j := funext fun a => Fin.ext (by match a with | ⟨0, _⟩ => rfl)
  rw [e16, e17]

/-- The positive-side score of row `i` at column `j`. -/
theorem pos_at (x0 : (⟨S4096x2048, .f32⟩ : BufTy).Contents (Elt Ideal)) (x1 : (⟨S4096, .i32⟩ : BufTy).Contents (Elt Ideal))
    (i j : Fin 4096) :
    Read.val_main_v19 (F := Ideal) x0 x1 (ix2 i j) = if x1 (ix1 i) = x1 (ix1 j) then TripletSpec.dist x0 i j else ⊥ := by
  rw [Read.val_main_v19_apply, mask_at, dist_at, Read.val_main_call1_v0_apply, Read.val_main_cst_2_apply, select_cmpi_eq,
    Ideal.ofBits_def, ofBits_neg_inf]

/-- The negative-side score of row `i` at column `j`. -/
theorem neg_at (x0 : (⟨S4096x2048, .f32⟩ : BufTy).Contents (Elt Ideal)) (x1 : (⟨S4096, .i32⟩ : BufTy).Contents (Elt Ideal))
    (i j : Fin 4096) :
    Read.val_main_v34 (F := Ideal) x0 x1 (ix2 i j) = if x1 (ix1 i) = x1 (ix1 j) then ⊥ else -TripletSpec.dist x0 i j := by
  rw [Read.val_main_v34_apply, mask_at, Read.val_main_v33_apply, dist_at, Read.val_main_call2_v0_apply, Read.val_main_cst_7_apply, select_cmpi_eq,
    Ideal.ofBits_def, ofBits_neg_inf, Ideal.hostNegf_def, Ideal.negf_def]

/-- A row maximum of the program (the fold of `max` from `-inf` over the columns) is the supremum of the row. -/
theorem hostRowMax_at (y : (⟨S4096x4096, .f32⟩ : BufTy).Contents (Elt Ideal)) (v : (⟨S_, .f32⟩ : BufTy).Contents (Elt Ideal))
    (hv : v (Shape.Idx.first h_S_) = (⊥ : EReal)) (i : Fin 4096) :
    Host.reduce (FloatOps.maximumf (F := Ideal) (φ := .f32)) y v reducesTo_S4096x4096_S4096_d1 h_S_ (ix1 i)
      = Finset.univ.sup fun k : Fin 4096 => y (ix2 i k) := by
  rw [Host.reduce_eq_fold_single (FloatOps.maximumf (F := Ideal) (φ := .f32)) y v reducesTo_S4096x4096_S4096_d1 (by decide) h_S_
    (ix1 i), hv]
  refine (Finset.fold_congr (g := fun k : Fin 4096 => y (ix2 i k)) fun k _ => ?_).trans ?_
  · exact congrArg y (funext fun a => Fin.ext (by match a with | ⟨0, _⟩ => rfl | ⟨1, _⟩ => rfl))
  · rfl

/-- The columns as (chunk, column inside the chunk): column `1024 c + j` is column `j` of chunk `c`. -/
def colEquiv : Fin 4 × Fin 1024 ≃ Fin 4096 where
  toFun p := TripletSpec.col p.1 p.2
  invFun k := (⟨k.val / 1024, by omega⟩, ⟨k.val % 1024, by omega⟩)
  left_inv p := by
    obtain ⟨c, j⟩ := p
    refine Prod.ext (Fin.ext ?_) (Fin.ext ?_)
    · show (1024 * c.val + j.val) / 1024 = c.val
      omega
    · show (1024 * c.val + j.val) % 1024 = j.val
      omega
  right_inv k := Fin.ext (by
    show 1024 * (k.val / 1024) + k.val % 1024 = k.val
    omega)

/-- A sum over the columns is the sum over the chunks and the columns inside a chunk. -/
theorem sum_cols {M : Type} [AddCommMonoid M] (f : Fin 4096 → M) :
    ∑ k : Fin 4096, f k = ∑ p : Fin 4 × Fin 1024, f (TripletSpec.col p.1 p.2) :=
  (Equiv.sum_comp colEquiv f).symm

/-- A supremum over the columns likewise. -/
theorem sup_cols (f : Fin 4096 → EReal) :
    Finset.univ.sup f = Finset.univ.sup fun p : Fin 4 × Fin 1024 => f (TripletSpec.col p.1 p.2) := by
  rw [Finset.sup_univ_eq_iSup, Finset.sup_univ_eq_iSup]
  exact (colEquiv.iSup_comp (g := f)).symm

/-- The program's softmax-weighted row sum (maximum from `⊥`, normaliser and weighted sum from `0`, over the 4096
    columns) is the direct form over the four chunks. -/
theorem softRow_eq (xs ds : Fin 4096 → EReal) :
    (0 + ∑ k : Fin 4096, Ideal.div (Ideal.exp (xs k - max ⊥ (Finset.univ.sup xs)))
        (0 + ∑ k' : Fin 4096, Ideal.exp (xs k' - max ⊥ (Finset.univ.sup xs))) * ds k)
      = OnlineSoftmax.soft (fun c j => xs (TripletSpec.col c j)) (fun c j => ds (TripletSpec.col c j)) := by
  unfold OnlineSoftmax.soft
  rw [zero_add, zero_add, max_eq_right bot_le, sup_cols xs]
  simp only [sum_cols]

/-- The positive side's row maximum. -/
theorem maxPos_at (x0 : (⟨S4096x2048, .f32⟩ : BufTy).Contents (Elt Ideal)) (x1 : (⟨S4096, .i32⟩ : BufTy).Contents (Elt Ideal))
    (i : Fin 4096) :
    Read.val_main_v22 (F := Ideal) x0 x1 (ix1 i)
      = max ⊥ (Finset.univ.sup fun k : Fin 4096 => Read.val_main_v19 (F := Ideal) x0 x1 (ix2 i k)) := by
  rw [Read.val_main_v22_apply, Read.val_main_v21_apply, Read.val_main_cst_4_apply, Ideal.ofBits_def, ofBits_neg_inf, Ideal.maximumf_def]
  unfold Read.val_main_v20
  rw [hostRowMax_at _ _ (by rw [Read.val_main_cst_3_apply, Ideal.ofBits_def, ofBits_neg_inf])]

/-- The positive side's exponential at column `k` of row `i`. -/
theorem expPos_at (x0 : (⟨S4096x2048, .f32⟩ : BufTy).Contents (Elt Ideal)) (x1 : (⟨S4096, .i32⟩ : BufTy).Contents (Elt Ideal))
    (i k : Fin 4096) :
    Read.val_main_v26 (F := Ideal) x0 x1 (ix2 i k)
      = Ideal.exp (Read.val_main_v19 (F := Ideal) x0 x1 (ix2 i k) - Read.val_main_v22 (F := Ideal) x0 x1 (ix1 i)) := by
  rw [Read.val_main_v26_apply, Read.val_main_v25_apply, Read.val_main_v24_apply, Read.val_main_v23_apply]
  have e : Read.idx_main_v23 (Read.idx_main_v24 (ix2 i k)) = ix1 i := funext fun a => Fin.ext (by match a with | ⟨0, _⟩ => rfl)
  rw [e, Ideal.hostUnary_exp_def, Ideal.subf_def]

/-- The positive side's normaliser of row `i`. -/
theorem normPos_at (x0 : (⟨S4096x2048, .f32⟩ : BufTy).Contents (Elt Ideal)) (x1 : (⟨S4096, .i32⟩ : BufTy).Contents (Elt Ideal))
    (i : Fin 4096) :
    Read.val_main_v27 (F := Ideal) x0 x1 (ix1 i) = 0 + ∑ k : Fin 4096, Read.val_main_v26 (F := Ideal) x0 x1 (ix2 i k) := by
  rw [Read.val_main_v27_apply, Read.val_main_cst_5_apply, Ideal.ofBits_def, Ideal.ofBits_zero_f32]
  refine congrArg (0 + ·) (Finset.sum_congr rfl fun k _ => ?_)
  exact congrArg _ (funext fun a => Fin.ext (by match a with | ⟨0, _⟩ => rfl | ⟨1, _⟩ => rfl))

/-- The positive side's weighted row sum. -/
theorem sumPos_at (x0 : (⟨S4096x2048, .f32⟩ : BufTy).Contents (Elt Ideal)) (x1 : (⟨S4096, .i32⟩ : BufTy).Contents (Elt Ideal))
    (i : Fin 4096) :
    Read.val_main_v32 (F := Ideal) x0 x1 (ix1 i)
      = 0 + ∑ k : Fin 4096, Ideal.div (Read.val_main_v26 (F := Ideal) x0 x1 (ix2 i k)) (Read.val_main_v27 (F := Ideal) x0 x1 (ix1 i))
          * Read.val_main_v13 (F := Ideal) x0 (ix2 i k) := by
  rw [Read.val_main_v32_apply, Read.val_main_cst_6_apply, Ideal.ofBits_def, Ideal.ofBits_zero_f32]
  refine congrArg (0 + ·) (Finset.sum_congr rfl fun k _ => ?_)
  have e : Read.idx_main_v32 (ix1 i) k = ix2 i k := funext fun a => Fin.ext (by match a with | ⟨0, _⟩ => rfl | ⟨1, _⟩ => rfl)
  have e' : Read.idx_main_v28 (Read.idx_main_v29 (ix2 i k)) = ix1 i := funext fun a => Fin.ext (by match a with | ⟨0, _⟩ => rfl)
  rw [e, Read.val_main_v31_apply, Read.val_main_v30_apply, Read.val_main_v29_apply, Read.val_main_v28_apply, e', Ideal.mulf_def, Ideal.hostDivf_def]

/-- Row `i`'s soft hardest-positive distance. -/
theorem rowAp_at (x0 : (⟨S4096x2048, .f32⟩ : BufTy).Contents (Elt Ideal)) (x1 : (⟨S4096, .i32⟩ : BufTy).Contents (Elt Ideal))
    (i : Fin 4096) :
    Read.val_main_v32 (F := Ideal) x0 x1 (ix1 i) = TripletSpec.rowAp x0 x1 i := by
  rw [sumPos_at, normPos_at]
  simp only [expPos_at, maxPos_at, pos_at, dist_at]
  exact softRow_eq (fun k => if x1 (ix1 i) = x1 (ix1 k) then TripletSpec.dist x0 i k else ⊥) (fun k => TripletSpec.dist x0 i k)

/-- The negative side's row maximum. -/
theorem maxNeg_at (x0 : (⟨S4096x2048, .f32⟩ : BufTy).Contents (Elt Ideal)) (x1 : (⟨S4096, .i32⟩ : BufTy).Contents (Elt Ideal))
    (i : Fin 4096) :
    Read.val_main_v37 (F := Ideal) x0 x1 (ix1 i)
      = max ⊥ (Finset.univ.sup fun k : Fin 4096 => Read.val_main_v34 (F := Ideal) x0 x1 (ix2 i k)) := by
  rw [Read.val_main_v37_apply, Read.val_main_v36_apply, Read.val_main_cst_9_apply, Ideal.ofBits_def, ofBits_neg_inf, Ideal.maximumf_def]
  unfold Read.val_main_v35
  rw [hostRowMax_at _ _ (by rw [Read.val_main_cst_8_apply, Ideal.ofBits_def, ofBits_neg_inf])]

/-- The negative side's exponential at column `k` of row `i`. -/
theorem expNeg_at (x0 : (⟨S4096x2048, .f32⟩ : BufTy).Contents (Elt Ideal)) (x1 : (⟨S4096, .i32⟩ : BufTy).Contents (Elt Ideal))
    (i k : Fin 4096) :
    Read.val_main_v41 (F := Ideal) x0 x1 (ix2 i k)
      = Ideal.exp (Read.val_main_v34 (F := Ideal) x0 x1 (ix2 i k) - Read.val_main_v37 (F := Ideal) x0 x1 (ix1 i)) := by
  rw [Read.val_main_v41_apply, Read.val_main_v40_apply, Read.val_main_v39_apply, Read.val_main_v38_apply]
  have e : Read.idx_main_v38 (Read.idx_main_v39 (ix2 i k)) = ix1 i := funext fun a => Fin.ext (by match a with | ⟨0, _⟩ => rfl)
  rw [e, Ideal.hostUnary_exp_def, Ideal.subf_def]

/-- The negative side's normaliser of row `i`. -/
theorem normNeg_at (x0 : (⟨S4096x2048, .f32⟩ : BufTy).Contents (Elt Ideal)) (x1 : (⟨S4096, .i32⟩ : BufTy).Contents (Elt Ideal))
    (i : Fin 4096) :
    Read.val_main_v42 (F := Ideal) x0 x1 (ix1 i) = 0 + ∑ k : Fin 4096, Read.val_main_v41 (F := Ideal) x0 x1 (ix2 i k) := by
  rw [Read.val_main_v42_apply, Read.val_main_cst_10_apply, Ideal.ofBits_def, Ideal.ofBits_zero_f32]
  refine congrArg (0 + ·) (Finset.sum_congr rfl fun k _ => ?_)
  exact congrArg _ (funext fun a => Fin.ext (by match a with | ⟨0, _⟩ => rfl | ⟨1, _⟩ => rfl))

/-- The negative side's weighted row sum. -/
theorem sumNeg_at (x0 : (⟨S4096x2048, .f32⟩ : BufTy).Contents (Elt Ideal)) (x1 : (⟨S4096, .i32⟩ : BufTy).Contents (Elt Ideal))
    (i : Fin 4096) :
    Read.val_main_v47 (F := Ideal) x0 x1 (ix1 i)
      = 0 + ∑ k : Fin 4096, Ideal.div (Read.val_main_v41 (F := Ideal) x0 x1 (ix2 i k)) (Read.val_main_v42 (F := Ideal) x0 x1 (ix1 i))
          * Read.val_main_v13 (F := Ideal) x0 (ix2 i k) := by
  rw [Read.val_main_v47_apply, Read.val_main_cst_11_apply, Ideal.ofBits_def, Ideal.ofBits_zero_f32]
  refine congrArg (0 + ·) (Finset.sum_congr rfl fun k _ => ?_)
  have e : Read.idx_main_v47 (ix1 i) k = ix2 i k := funext fun a => Fin.ext (by match a with | ⟨0, _⟩ => rfl | ⟨1, _⟩ => rfl)
  have e' : Read.idx_main_v43 (Read.idx_main_v44 (ix2 i k)) = ix1 i := funext fun a => Fin.ext (by match a with | ⟨0, _⟩ => rfl)
  rw [e, Read.val_main_v46_apply, Read.val_main_v45_apply, Read.val_main_v44_apply, Read.val_main_v43_apply, e', Ideal.mulf_def, Ideal.hostDivf_def]

/-- Row `i`'s soft hardest-negative distance. -/
theorem rowAn_at (x0 : (⟨S4096x2048, .f32⟩ : BufTy).Contents (Elt Ideal)) (x1 : (⟨S4096, .i32⟩ : BufTy).Contents (Elt Ideal))
    (i : Fin 4096) :
    Read.val_main_v47 (F := Ideal) x0 x1 (ix1 i) = TripletSpec.rowAn x0 x1 i := by
  rw [sumNeg_at, normNeg_at]
  simp only [expNeg_at, maxNeg_at, neg_at, dist_at]
  exact softRow_eq (fun k => if x1 (ix1 i) = x1 (ix1 k) then ⊥ else -TripletSpec.dist x0 i k) (fun k => TripletSpec.dist x0 i k)

/-- Row `i`'s hinge term. -/
theorem hinge_at (x0 : (⟨S4096x2048, .f32⟩ : BufTy).Contents (Elt Ideal)) (x1 : (⟨S4096, .i32⟩ : BufTy).Contents (Elt Ideal))
    (i : Fin 4096) :
    Read.val_main_v52 (F := Ideal) x0 x1 (ix1 i)
      = max (TripletSpec.rowAp x0 x1 i - TripletSpec.rowAn x0 x1 i + TripletSpec.margin) 0 := by
  rw [Read.val_main_v52_apply, Read.val_main_v50_apply, Read.val_main_v48_apply, rowAp_at, rowAn_at, Read.val_main_v49_apply, Read.val_main_cst_12_apply,
    Read.val_main_v51_apply, Read.val_main_cst_13_apply, Ideal.ofBits_def, Ideal.ofBits_def, Ideal.ofBits_zero_f32, Ideal.maximumf_def,
    Ideal.addf_def, Ideal.subf_def]
  rfl

/-- The rows' index set is its coordinate range. -/
def rowEquiv : S4096.Idx ≃ Fin 4096 where
  toFun i := i 0
  invFun := ix1
  left_inv i := (eq_ix1 i).symm
  right_inv _ := rfl

/-- The program's last stage is the specification's loss. -/
theorem loss_at (x0 : (⟨S4096x2048, .f32⟩ : BufTy).Contents (Elt Ideal)) (x1 : (⟨S4096, .i32⟩ : BufTy).Contents (Elt Ideal))
    (i : S_.Idx) :
    Read.val_main_v54 (F := Ideal) x0 x1 i = TripletSpec.loss x0 x1 := by
  rw [Read.val_main_v54_apply, Read.val_main_v53_apply, Read.val_main_cst_14_apply, Read.val_main_cst_15_apply, Ideal.ofBits_def, Ideal.ofBits_def,
    Ideal.ofBits_zero_f32, zero_add, Ideal.hostDivf_def, ← Equiv.sum_comp rowEquiv.symm]
  unfold TripletSpec.loss TripletSpec.meanHinge
  refine congrArg (Ideal.div · _) (Finset.sum_congr rfl fun k _ => ?_)
  exact hinge_at x0 x1 k

/-- The reference run's result term, at the ideal values, is the specification's loss of the two argument arrays, when
    every input entry is a real number. -/
theorem result_eq (m : (ℓ : Loc nD τ sig) → Buf (Elt Ideal) ℓ) (c : Dev nD)
    (hfin : TripletSpec.Finite (m ((c.tc : Thread nD τ).loc main_arg0))) :
    Cert.ReferenceIdeal.Value.res_out0 (F := Ideal) m c
      = fun _ => TripletSpec.loss (m ((c.tc : Thread nD τ).loc main_arg0)) (m ((c.tc : Thread nD τ).loc main_arg1)) := by
  show Cert.ReferenceIdeal.Value.res_main_v54 (F := Ideal) m c = _
  rw [Read.val_main_v54_eq]
  exact funext fun i => loss_at _ _ i

end Cert.ReferenceIdeal.RefValue

end
-- ==== Proof.FiniteI.lean ====
/-
  The precondition says every input entry is a real number: the printed predicate is the conjunction over all entries of
  `|x| < +∞`, and an extended real whose absolute value is below `+∞` is neither infinity.
-/
import proofs.«416752_j76579266888382_3_alg».proof.Proof.Gen.Pre_finite_inputs
import proofs.«416752_j76579266888382_3_alg».proof.Proof.Spec
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Fin

open Cert.Pre_finite_inputs Idealize.ShloMosaic Idealize.ShloMosaic.ValueIdx

/-- The result shape has rank zero, so it has exactly one index. -/
instance subsingleton_scalar_idx : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real `a` with `max a (-a) < ⊤` is a real number: at `⊥` and at `⊤` the maximum is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The comparison `olt` yields the word 1 exactly when its left side is strictly below its right side. -/
theorem lt_of_cmp_olt (a b : EReal) (h : Ideal.cmp .olt a b = 1#1) : a < b := by
  by_contra hn
  simp [Ideal.cmp, hn] at h

/-- If the printed predicate is all ones on the inputs, every input entry is a real number. -/
theorem finite_of_pre (x : FVec Ideal S4096x2048 .f32) (t : IVec S4096 32)
    (h : Cert.Pre_finite_inputs.fn (F := Ideal) x t = fun _ => 1#1) : TripletSpec.Finite x := by
  intro j
  have h0 := congrFun h ValueIdx.ix0
  dsimp only [Cert.Pre_finite_inputs.fn] at h0
  have hj := Host.reduce_andi_all _ _ _ _ _ h0 j
  have hlt := lt_of_cmp_olt _ _ hj
  have hlt' : max (x j) (-(x j)) < (⊤ : EReal) := by
    rw [← ofBits_inf]
    exact hlt
  exact real_of_abs_lt_top (x j) hlt'

end Cert.Pre_finite_inputs.Fin

end
-- ==== Proof.lean ====
/-
  The certificate: the triplet-loss kernel and its reference.

  The three frames: each kernel program is eight host operations, one kernel region and thirteen host operations; its
  run (the body's triple launched over the sixteen row blocks, the bf16 inputs shared by two windows at half shares) ends
  with both arguments as they were; the reference's frame is its generated run with the result dropped.
  The ideal pass named ten occurrences of one finite stand-in for minus infinity: each conjunct says that name is `⊥`.
  The two idealized programs agree: the kernel's result is the mean hinge of its two result arrays, whose rows are the
  streaming form of a softmax-weighted sum of distances, and the streaming form is the direct form the reference computes
  (`OnlineSoftmax.online_eq_soft`), row by row, every distance being a positive real because the inputs are finite.
-/
import proofs.«416752_j76579266888382_3_alg».proof.Defs
import proofs.«416752_j76579266888382_3_alg».proof.Proof.Gen.Kernel
import proofs.«416752_j76579266888382_3_alg».proof.Proof.Gen.KernelIdeal
import proofs.«416752_j76579266888382_3_alg».proof.Proof.Gen.ReferenceIdeal
import proofs.«416752_j76579266888382_3_alg».proof.Proof.Gen.Pre_finite_inputs
import proofs.«416752_j76579266888382_3_alg».proof.Proof.Gen.ReferenceIdeal.Run
import proofs.«416752_j76579266888382_3_alg».proof.Proof.RunK
import proofs.«416752_j76579266888382_3_alg».proof.Proof.RunI
import proofs.«416752_j76579266888382_3_alg».proof.Proof.KValueI
import proofs.«416752_j76579266888382_3_alg».proof.Proof.RefValue
import proofs.«416752_j76579266888382_3_alg».proof.Proof.FiniteI
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ =>
  (θ_run Cert.Kernel.defs _ _).mono (fun _ h c => (h c).2) (Cert.Kernel.Run.run_main (F := Bits) m ρ)

/-- The idealized kernel program runs and leaves its arguments unchanged. -/
theorem frame_kernelIdeal : Cert.frame_KernelIdeal := fun m ρ _ =>
  (θ_run Cert.KernelIdeal.defs _ _).mono (fun _ h c => (h c).2) (Cert.KernelIdeal.Run.run_main (F := Ideal) m ρ)

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Each of the ten named occurrences of the stand-in denotes `⊥`, by the certificate's table. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- Both idealized programs end with the specification's loss of the argument arrays. -/
theorem algebraic : Cert.algebraic_KernelIdeal_ReferenceIdeal := by
  intro m ρ m' ρ' hpre hagree
  have hfin : ∀ c : Dev Cert.KernelIdeal.nD, TripletSpec.Finite (m ((c.tc : Thread Cert.KernelIdeal.nD Cert.KernelIdeal.τ).loc Cert.KernelIdeal.main_arg0)) :=
    fun c => Cert.Pre_finite_inputs.Fin.finite_of_pre _ _ (hpre c)
  refine ⟨fun c _ => TripletSpec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.KValue.result_eq m c (hfin c)), (h c).2⟩)
      (Cert.KernelIdeal.Run.run_main (F := Ideal) m ρ)
  · refine (θ_run Cert.ReferenceIdeal.defs _ _).mono (fun _ h c => ⟨(h c).1.trans ?_, (h c).2⟩) (Cert.ReferenceIdeal.Value.run (F := Ideal) m' ρ')
    have hfin' : TripletSpec.Finite (m' ((c.tc : Thread Cert.ReferenceIdeal.nD Cert.ReferenceIdeal.τ).loc Cert.ReferenceIdeal.main_arg0)) := by
      rw [(hagree c).1]; exact hfin c
    have hr := Cert.ReferenceIdeal.RefValue.result_eq m' c hfin'
    rw [(hagree c).1, (hagree c).2] at hr
    exact hr

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
